-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S1024x64x64 : Shape := ⟨3, ![1024, 64, 64]⟩
abbrev S8192 : Shape := ⟨1, ![8192]⟩
abbrev S128x128 : Shape := ⟨2, ![128, 128]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S1024x64x64 : S_.BroadcastsInDim S1024x64x64 (![] : Fin 0 → Fin S1024x64x64.rank)
  reducesTo_S1024x64x64_S_d0_1_2 : S1024x64x64.ReducesTo [0, 1, 2] S_
  bcast_S_S8192 : S_.BroadcastsInDim S8192 (![] : Fin 0 → Fin S8192.rank)
  reducesTo_S8192_S_d0 : S8192.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg3 : IVec S128x128 32) (main_v13 : IVec S_ 1) (main_v15 : IVec S128x128 1) (main_c_5 : IVec S_ 1) : IVec S_ 1 :=
  let main_v16 : IVec S_ 1 := (fun x v => Host.reduce IntOp.andi x v reducesTo_S128x128_S_d0_1 h_S_) main_v15 main_c_5
  let main_v17 : IVec S_ 1 := andi main_v13 main_v16
  let main_c_6 : IVec S_ 32 := constantI S_ 32 1024#32
  let main_v18 : IVec S128x128 32 := broadcastInDim S128x128 ![] bcast_S_S128x128 main_c_6
  let main_v19 : IVec S128x128 1 := cmpi .slt main_arg3 main_v18
  let main_c_7 : IVec S_ 1 := constantI S_ 1 1#1
  let main_v20 : IVec S_ 1 := (fun x v => Host.reduce IntOp.andi x v reducesTo_S128x128_S_d0_1 h_S_) main_v19 main_c_7
  let main_v21 : IVec S_ 1 := andi main_v17 main_v20
  main_v21

def fn {F : FTy → Type} [FloatOps F] (main_arg0 : FVec F S256x8192 .f32) (main_arg1 : FVec F S1024x64x64 .f32) (main_arg2 : FVec F S8192 .f32) (main_arg3 : IVec S128x128 32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S1024x64x64 .f32 := Host.absf main_arg1
  let main_cst_0 : FVec F S_ .f32 := constant S_ .f32 0x7F800000#32
  let main_v5 : FVec F S1024x64x64 .f32 := broadcastInDim S1024x64x64 ![] bcast_S_S1024x64x64 main_cst_0
  let main_v6 : IVec S1024x64x64 1 := cmpf .olt main_v4 main_v5
  let main_c_1 : IVec S_ 1 := constantI S_ 1 1#1
  let main_v7 : IVec S_ 1 := (fun x v => Host.reduce IntOp.andi x v reducesTo_S1024x64x64_S_d0_1_2 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_c_4 : IVec S_ 32 := constantI S_ 32 0#32
  let main_v14 : IVec S128x128 32 := broadcastInDim S128x128 ![] bcast_S_S128x128 main_c_4
  let main_v15 : IVec S128x128 1 := cmpi .sge main_arg3 main_v14
  let main_c_5 : IVec S_ 1 := constantI S_ 1 1#1
  fn_part1 (F := F) main_arg3 main_v13 main_v15 main_c_5
-- ==== Kernel.lean ====
abbrev S256x8192 : Shape := ⟨2, ![256, 8192]⟩
abbrev S1024x64x64 : Shape := ⟨3, ![1024, 64, 64]⟩
abbrev S8192 : Shape := ⟨1, ![8192]⟩
abbrev S128x128 : Shape := ⟨2, ![128, 128]⟩
abbrev S_ : Shape := ⟨0, ![]⟩
abbrev S1x8192 : Shape := ⟨2, ![1, 8192]⟩
abbrev S1x1024 : Shape := ⟨2, ![1, 1024]⟩
abbrev S256x1024 : Shape := ⟨2, ![256, 1024]⟩
abbrev S2x256x1024 : Shape := ⟨3, ![2, 256, 1024]⟩
abbrev S1x1 : Shape := ⟨2, ![1, 1]⟩
abbrev S1x64x64 : Shape := ⟨3, ![1, 64, 64]⟩
abbrev S64x64 : Shape := ⟨2, ![64, 64]⟩
abbrev S64x128 : Shape := ⟨2, ![64, 128]⟩
abbrev S1x256x1024 : Shape := ⟨3, ![1, 256, 1024]⟩
abbrev S1x64x128 : Shape := ⟨3, ![1, 64, 128]⟩
abbrev S256x256 : Shape := ⟨2, ![256, 256]⟩

abbrev nBuf : Space → Nat
  | .hbm => 15
  | .vmem => 8
  | .smem => 1
  | _ => 0

abbrev bufTy : (tb : Table) → Fin (tcTables nBuf tb) → BufTy
  | .hbm, ⟨0, _⟩ => ⟨S256x8192, .f32⟩
  | .hbm, ⟨1, _⟩ => ⟨S1024x64x64, .f32⟩
  | .hbm, ⟨2, _⟩ => ⟨S8192, .f32⟩
  | .hbm, ⟨3, _⟩ => ⟨S128x128, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S128x128, .i32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S256x8192, .bf16⟩
  | .hbm, ⟨12, _⟩ => ⟨S1024x64x64, .bf16⟩
  | .hbm, ⟨13, _⟩ => ⟨S1x8192, .f32⟩
  | .hbm, ⟨14, _⟩ => ⟨S256x8192, .f32⟩
  | .local _ .vmem, ⟨0, _⟩ => ⟨S256x8192, .bf16⟩
  | .local _ .vmem, ⟨1, _⟩ => ⟨S1024x64x64, .bf16⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S2x256x1024, .bf16⟩
  | .local _ .smem, ⟨0, _⟩ => ⟨S128x128, .i32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k0_off1 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_16 : BitVec 32 := 0#32
  let v26 : BitVec 32 := Scalar.addi v22 c0_i32_16
  let v27 : Index := Scalar.indexCast v26
  let arg0 : BitVec 32 := BitVec.ofNat 32 (i 0).val
  let c16_i32 : BitVec 32 := 16#32
  let v0 : BitVec 32 := Scalar.muli arg0 c16_i32
  let c0_i32_13 : BitVec 32 := 0#32
  let v23 : BitVec 32 := Scalar.addi v0 c0_i32_13
  let v28 : Index := Scalar.indexCast v23
  ![v27.toNat, v28.toNat]
def k0_off2 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_17 : BitVec 32 := 0#32
  let v30 : BitVec 32 := Scalar.addi v22 c0_i32_17
  let v31 : Index := Scalar.indexCast v30
  let arg0 : BitVec 32 := BitVec.ofNat 32 (i 0).val
  let c16_i32 : BitVec 32 := 16#32
  let v0 : BitVec 32 := Scalar.muli arg0 c16_i32
  let c0_i32_14 : BitVec 32 := 0#32
  let v24 : BitVec 32 := Scalar.addi v0 c0_i32_14
  let c1_i32_15 : BitVec 32 := 1#32
  let v25 : BitVec 32 := Scalar.addi v24 c1_i32_15
  let v32 : Index := Scalar.indexCast v25
  ![v31.toNat, v32.toNat]
def k0_off3 (v29 : BitVec 32) : Fin 3 → Nat :=
  let v34 : Index := Scalar.indexCast v29
  let c0_18 : Index := 0#32
  let c0_19 : Index := 0#32
  ![v34.toNat, 0, 0]

def k0_chk1 (v29 : BitVec 32) : Prop :=
  (∀ a, (k0_off3 v29) a + S1x64x64.size a ≤ S1024x64x64.size a)
instance k0_chk1.dec : ∀ (v29 : BitVec 32), Decidable (k0_chk1 v29) := fun v29 => decidable_of_iff' _ (Iff.of_eq (k0_chk1.eq_1 v29))
theorem k0_off3_inb : ∀ (v29 : BitVec 32) (k0_hw1 : k0_chk1 v29), ∀ a, (k0_off3 v29) a + S1x64x64.size a ≤ S1024x64x64.size a := fun v29 k0_hw1 => k0_hw1

def k0_off4 (v33 : BitVec 32) : Fin 3 → Nat :=
  let v37 : Index := Scalar.indexCast v33
  let c0_20 : Index := 0#32
  let c0_21 : Index := 0#32
  ![v37.toNat, 0, 0]

def k0_chk2 (v33 : BitVec 32) : Prop :=
  (∀ a, (k0_off4 v33) a + S1x64x64.size a ≤ S1024x64x64.size a)
instance k0_chk2.dec : ∀ (v33 : BitVec 32), Decidable (k0_chk2 v33) := fun v33 => decidable_of_iff' _ (Iff.of_eq (k0_chk2.eq_1 v33))
theorem k0_off4_inb : ∀ (v33 : BitVec 32) (k0_hw2 : k0_chk2 v33), ∀ a, (k0_off4 v33) a + S1x64x64.size a ≤ S1024x64x64.size a := fun v33 k0_hw2 => k0_hw2

def k0_off5 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_22 : BitVec 32 := 0#32
  let c0_i32_23 : BitVec 32 := 0#32
  ![v21.toNat, 0, 0]
def k0_off6 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_22 : BitVec 32 := 0#32
  let c0_i32_23 : BitVec 32 := 0#32
  ![v21.toNat, 0, 0]
def k0_off7 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_29 : BitVec 32 := 0#32
  let v49 : BitVec 32 := Scalar.addi v22 c0_i32_29
  let v50 : Index := Scalar.indexCast v49
  let arg0 : BitVec 32 := BitVec.ofNat 32 (i 0).val
  let c16_i32 : BitVec 32 := 16#32
  let v0 : BitVec 32 := Scalar.muli arg0 c16_i32
  let c2_i32_26 : BitVec 32 := 2#32
  let v46 : BitVec 32 := Scalar.addi v0 c2_i32_26
  let v51 : Index := Scalar.indexCast v46
  ![v50.toNat, v51.toNat]
def k0_off8 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_30 : BitVec 32 := 0#32
  let v53 : BitVec 32 := Scalar.addi v22 c0_i32_30
  let v54 : Index := Scalar.indexCast v53
  let arg0 : BitVec 32 := BitVec.ofNat 32 (i 0).val
  let c16_i32 : BitVec 32 := 16#32
  let v0 : BitVec 32 := Scalar.muli arg0 c16_i32
  let c2_i32_27 : BitVec 32 := 2#32
  let v47 : BitVec 32 := Scalar.addi v0 c2_i32_27
  let c1_i32_28 : BitVec 32 := 1#32
  let v48 : BitVec 32 := Scalar.addi v47 c1_i32_28
  let v55 : Index := Scalar.indexCast v48
  ![v54.toNat, v55.toNat]
def k0_off9 (v52 : BitVec 32) : Fin 3 → Nat :=
  let v57 : Index := Scalar.indexCast v52
  let c0_31 : Index := 0#32
  let c0_32 : Index := 0#32
  ![v57.toNat, 0, 0]

def k0_chk3 (v52 : BitVec 32) : Prop :=
  (∀ a, (k0_off9 v52) a + S1x64x64.size a ≤ S1024x64x64.size a)
instance k0_chk3.dec : ∀ (v52 : BitVec 32), Decidable (k0_chk3 v52) := fun v52 => decidable_of_iff' _ (Iff.of_eq (k0_chk3.eq_1 v52))
theorem k0_off9_inb : ∀ (v52 : BitVec 32) (k0_hw3 : k0_chk3 v52), ∀ a, (k0_off9 v52) a + S1x64x64.size a ≤ S1024x64x64.size a := fun v52 k0_hw3 => k0_hw3

def k0_off10 (v56 : BitVec 32) : Fin 3 → Nat :=
  let v60 : Index := Scalar.indexCast v56
  let c0_33 : Index := 0#32
  let c0_34 : Index := 0#32
  ![v60.toNat, 0, 0]

def k0_chk4 (v56 : BitVec 32) : Prop :=
  (∀ a, (k0_off10 v56) a + S1x64x64.size a ≤ S1024x64x64.size a)
instance k0_chk4.dec : ∀ (v56 : BitVec 32), Decidable (k0_chk4 v56) := fun v56 => decidable_of_iff' _ (Iff.of_eq (k0_chk4.eq_1 v56))
theorem k0_off10_inb : ∀ (v56 : BitVec 32) (k0_hw4 : k0_chk4 v56), ∀ a, (k0_off10 v56) a + S1x64x64.size a ≤ S1024x64x64.size a := fun v56 k0_hw4 => k0_hw4

def k0_off11 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_35 : BitVec 32 := 0#32
  let c0_i32_36 : BitVec 32 := 0#32
  ![v21.toNat, 0, 0]
def k0_off12 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_35 : BitVec 32 := 0#32
  ![v21.toNat, 0, 128]
def k0_off13 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_41 : BitVec 32 := 0#32
  let v72 : BitVec 32 := Scalar.addi v22 c0_i32_41
  let v73 : Index := Scalar.indexCast v72
  let arg0 : BitVec 32 := BitVec.ofNat 32 (i 0).val
  let c16_i32 : BitVec 32 := 16#32
  let v0 : BitVec 32 := Scalar.muli arg0 c16_i32
  let c4_i32_38 : BitVec 32 := 4#32
  let v69 : BitVec 32 := Scalar.addi v0 c4_i32_38
  let v74 : Index := Scalar.indexCast v69
  ![v73.toNat, v74.toNat]
def k0_off14 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_42 : BitVec 32 := 0#32
  let v76 : BitVec 32 := Scalar.addi v22 c0_i32_42
  let v77 : Index := Scalar.indexCast v76
  let arg0 : BitVec 32 := BitVec.ofNat 32 (i 0).val
  let c16_i32 : BitVec 32 := 16#32
  let v0 : BitVec 32 := Scalar.muli arg0 c16_i32
  let c4_i32_39 : BitVec 32 := 4#32
  let v70 : BitVec 32 := Scalar.addi v0 c4_i32_39
  let c1_i32_40 : BitVec 32 := 1#32
  let v71 : BitVec 32 := Scalar.addi v70 c1_i32_40
  let v78 : Index := Scalar.indexCast v71
  ![v77.toNat, v78.toNat]
def k0_off15 (v75 : BitVec 32) : Fin 3 → Nat :=
  let v80 : Index := Scalar.indexCast v75
  let c0_43 : Index := 0#32
  let c0_44 : Index := 0#32
  ![v80.toNat, 0, 0]

def k0_chk5 (v75 : BitVec 32) : Prop :=
  (∀ a, (k0_off15 v75) a + S1x64x64.size a ≤ S1024x64x64.size a)
instance k0_chk5.dec : ∀ (v75 : BitVec 32), Decidable (k0_chk5 v75) := fun v75 => decidable_of_iff' _ (Iff.of_eq (k0_chk5.eq_1 v75))
theorem k0_off15_inb : ∀ (v75 : BitVec 32) (k0_hw5 : k0_chk5 v75), ∀ a, (k0_off15 v75) a + S1x64x64.size a ≤ S1024x64x64.size a := fun v75 k0_hw5 => k0_hw5

def k0_off16 (v79 : BitVec 32) : Fin 3 → Nat :=
  let v83 : Index := Scalar.indexCast v79
  let c0_45 : Index := 0#32
  let c0_46 : Index := 0#32
  ![v83.toNat, 0, 0]

def k0_chk6 (v79 : BitVec 32) : Prop :=
  (∀ a, (k0_off16 v79) a + S1x64x64.size a ≤ S1024x64x64.size a)
instance k0_chk6.dec : ∀ (v79 : BitVec 32), Decidable (k0_chk6 v79) := fun v79 => decidable_of_iff' _ (Iff.of_eq (k0_chk6.eq_1 v79))
theorem k0_off16_inb : ∀ (v79 : BitVec 32) (k0_hw6 : k0_chk6 v79), ∀ a, (k0_off16 v79) a + S1x64x64.size a ≤ S1024x64x64.size a := fun v79 k0_hw6 => k0_hw6

def k0_off17 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_47 : BitVec 32 := 0#32
  let c0_i32_48 : BitVec 32 := 0#32
  ![v21.toNat, 0, 0]
def k0_off18 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_47 : BitVec 32 := 0#32
  ![v21.toNat, 0, 256]
def k0_off19 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_52 : BitVec 32 := 0#32
  let v95 : BitVec 32 := Scalar.addi v22 c0_i32_52
  let v96 : Index := Scalar.indexCast v95
  let arg0 : BitVec 32 := BitVec.ofNat 32 (i 0).val
  let c16_i32 : BitVec 32 := 16#32
  let v0 : BitVec 32 := Scalar.muli arg0 c16_i32
  let c6_i32 : BitVec 32 := 6#32
  let v92 : BitVec 32 := Scalar.addi v0 c6_i32
  let v97 : Index := Scalar.indexCast v92
  ![v96.toNat, v97.toNat]
def k0_off20 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_53 : BitVec 32 := 0#32
  let v99 : BitVec 32 := Scalar.addi v22 c0_i32_53
  let v100 : Index := Scalar.indexCast v99
  let arg0 : BitVec 32 := BitVec.ofNat 32 (i 0).val
  let c16_i32 : BitVec 32 := 16#32
  let v0 : BitVec 32 := Scalar.muli arg0 c16_i32
  let c6_i32_50 : BitVec 32 := 6#32
  let v93 : BitVec 32 := Scalar.addi v0 c6_i32_50
  let c1_i32_51 : BitVec 32 := 1#32
  let v94 : BitVec 32 := Scalar.addi v93 c1_i32_51
  let v101 : Index := Scalar.indexCast v94
  ![v100.toNat, v101.toNat]
def k0_off21 (v98 : BitVec 32) : Fin 3 → Nat :=
  let v103 : Index := Scalar.indexCast v98
  let c0_54 : Index := 0#32
  let c0_55 : Index := 0#32
  ![v103.toNat, 0, 0]

def k0_chk7 (v98 : BitVec 32) : Prop :=
  (∀ a, (k0_off21 v98) a + S1x64x64.size a ≤ S1024x64x64.size a)
instance k0_chk7.dec : ∀ (v98 : BitVec 32), Decidable (k0_chk7 v98) := fun v98 => decidable_of_iff' _ (Iff.of_eq (k0_chk7.eq_1 v98))
theorem k0_off21_inb : ∀ (v98 : BitVec 32) (k0_hw7 : k0_chk7 v98), ∀ a, (k0_off21 v98) a + S1x64x64.size a ≤ S1024x64x64.size a := fun v98 k0_hw7 => k0_hw7

def k0_off22 (v102 : BitVec 32) : Fin 3 → Nat :=
  let v106 : Index := Scalar.indexCast v102
  let c0_56 : Index := 0#32
  let c0_57 : Index := 0#32
  ![v106.toNat, 0, 0]

def k0_chk8 (v102 : BitVec 32) : Prop :=
  (∀ a, (k0_off22 v102) a + S1x64x64.size a ≤ S1024x64x64.size a)
instance k0_chk8.dec : ∀ (v102 : BitVec 32), Decidable (k0_chk8 v102) := fun v102 => decidable_of_iff' _ (Iff.of_eq (k0_chk8.eq_1 v102))
theorem k0_off22_inb : ∀ (v102 : BitVec 32) (k0_hw8 : k0_chk8 v102), ∀ a, (k0_off22 v102) a + S1x64x64.size a ≤ S1024x64x64.size a := fun v102 k0_hw8 => k0_hw8

def k0_off23 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_58 : BitVec 32 := 0#32
  let c0_i32_59 : BitVec 32 := 0#32
  ![v21.toNat, 0, 0]
def k0_off24 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_58 : BitVec 32 := 0#32
  ![v21.toNat, 0, 384]
def k0_off25 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_63 : BitVec 32 := 0#32
  let v118 : BitVec 32 := Scalar.addi v22 c0_i32_63
  let v119 : Index := Scalar.indexCast v118
  let arg0 : BitVec 32 := BitVec.ofNat 32 (i 0).val
  let c16_i32 : BitVec 32 := 16#32
  let v0 : BitVec 32 := Scalar.muli arg0 c16_i32
  let c8_i32 : BitVec 32 := 8#32
  let v115 : BitVec 32 := Scalar.addi v0 c8_i32
  let v120 : Index := Scalar.indexCast v115
  ![v119.toNat, v120.toNat]
def k0_off26 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_64 : BitVec 32 := 0#32
  let v122 : BitVec 32 := Scalar.addi v22 c0_i32_64
  let v123 : Index := Scalar.indexCast v122
  let arg0 : BitVec 32 := BitVec.ofNat 32 (i 0).val
  let c16_i32 : BitVec 32 := 16#32
  let v0 : BitVec 32 := Scalar.muli arg0 c16_i32
  let c8_i32_61 : BitVec 32 := 8#32
  let v116 : BitVec 32 := Scalar.addi v0 c8_i32_61
  let c1_i32_62 : BitVec 32 := 1#32
  let v117 : BitVec 32 := Scalar.addi v116 c1_i32_62
  let v124 : Index := Scalar.indexCast v117
  ![v123.toNat, v124.toNat]
def k0_off27 (v121 : BitVec 32) : Fin 3 → Nat :=
  let v126 : Index := Scalar.indexCast v121
  let c0_65 : Index := 0#32
  let c0_66 : Index := 0#32
  ![v126.toNat, 0, 0]

def k0_chk9 (v121 : BitVec 32) : Prop :=
  (∀ a, (k0_off27 v121) a + S1x64x64.size a ≤ S1024x64x64.size a)
instance k0_chk9.dec : ∀ (v121 : BitVec 32), Decidable (k0_chk9 v121) := fun v121 => decidable_of_iff' _ (Iff.of_eq (k0_chk9.eq_1 v121))
theorem k0_off27_inb : ∀ (v121 : BitVec 32) (k0_hw9 : k0_chk9 v121), ∀ a, (k0_off27 v121) a + S1x64x64.size a ≤ S1024x64x64.size a := fun v121 k0_hw9 => k0_hw9

def k0_off28 (v125 : BitVec 32) : Fin 3 → Nat :=
  let v129 : Index := Scalar.indexCast v125
  let c0_67 : Index := 0#32
  let c0_68 : Index := 0#32
  ![v129.toNat, 0, 0]

def k0_chk10 (v125 : BitVec 32) : Prop :=
  (∀ a, (k0_off28 v125) a + S1x64x64.size a ≤ S1024x64x64.size a)
instance k0_chk10.dec : ∀ (v125 : BitVec 32), Decidable (k0_chk10 v125) := fun v125 => decidable_of_iff' _ (Iff.of_eq (k0_chk10.eq_1 v125))
theorem k0_off28_inb : ∀ (v125 : BitVec 32) (k0_hw10 : k0_chk10 v125), ∀ a, (k0_off28 v125) a + S1x64x64.size a ≤ S1024x64x64.size a := fun v125 k0_hw10 => k0_hw10

def k0_off29 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_69 : BitVec 32 := 0#32
  let c0_i32_70 : BitVec 32 := 0#32
  ![v21.toNat, 0, 0]
def k0_off30 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_69 : BitVec 32 := 0#32
  ![v21.toNat, 0, 512]
def k0_off31 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_74 : BitVec 32 := 0#32
  let v141 : BitVec 32 := Scalar.addi v22 c0_i32_74
  let v142 : Index := Scalar.indexCast v141
  let arg0 : BitVec 32 := BitVec.ofNat 32 (i 0).val
  let c16_i32 : BitVec 32 := 16#32
  let v0 : BitVec 32 := Scalar.muli arg0 c16_i32
  let c10_i32 : BitVec 32 := 10#32
  let v138 : BitVec 32 := Scalar.addi v0 c10_i32
  let v143 : Index := Scalar.indexCast v138
  ![v142.toNat, v143.toNat]
def k0_off32 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_75 : BitVec 32 := 0#32
  let v145 : BitVec 32 := Scalar.addi v22 c0_i32_75
  let v146 : Index := Scalar.indexCast v145
  let arg0 : BitVec 32 := BitVec.ofNat 32 (i 0).val
  let c16_i32 : BitVec 32 := 16#32
  let v0 : BitVec 32 := Scalar.muli arg0 c16_i32
  let c10_i32_72 : BitVec 32 := 10#32
  let v139 : BitVec 32 := Scalar.addi v0 c10_i32_72
  let c1_i32_73 : BitVec 32 := 1#32
  let v140 : BitVec 32 := Scalar.addi v139 c1_i32_73
  let v147 : Index := Scalar.indexCast v140
  ![v146.toNat, v147.toNat]
def k0_off33 (v144 : BitVec 32) : Fin 3 → Nat :=
  let v149 : Index := Scalar.indexCast v144
  let c0_76 : Index := 0#32
  let c0_77 : Index := 0#32
  ![v149.toNat, 0, 0]

def k0_chk11 (v144 : BitVec 32) : Prop :=
  (∀ a, (k0_off33 v144) a + S1x64x64.size a ≤ S1024x64x64.size a)
instance k0_chk11.dec : ∀ (v144 : BitVec 32), Decidable (k0_chk11 v144) := fun v144 => decidable_of_iff' _ (Iff.of_eq (k0_chk11.eq_1 v144))
theorem k0_off33_inb : ∀ (v144 : BitVec 32) (k0_hw11 : k0_chk11 v144), ∀ a, (k0_off33 v144) a + S1x64x64.size a ≤ S1024x64x64.size a := fun v144 k0_hw11 => k0_hw11

def k0_off34 (v148 : BitVec 32) : Fin 3 → Nat :=
  let v152 : Index := Scalar.indexCast v148
  let c0_78 : Index := 0#32
  let c0_79 : Index := 0#32
  ![v152.toNat, 0, 0]

def k0_chk12 (v148 : BitVec 32) : Prop :=
  (∀ a, (k0_off34 v148) a + S1x64x64.size a ≤ S1024x64x64.size a)
instance k0_chk12.dec : ∀ (v148 : BitVec 32), Decidable (k0_chk12 v148) := fun v148 => decidable_of_iff' _ (Iff.of_eq (k0_chk12.eq_1 v148))
theorem k0_off34_inb : ∀ (v148 : BitVec 32) (k0_hw12 : k0_chk12 v148), ∀ a, (k0_off34 v148) a + S1x64x64.size a ≤ S1024x64x64.size a := fun v148 k0_hw12 => k0_hw12

def k0_off35 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_80 : BitVec 32 := 0#32
  let c0_i32_81 : BitVec 32 := 0#32
  ![v21.toNat, 0, 0]
def k0_off36 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_80 : BitVec 32 := 0#32
  ![v21.toNat, 0, 640]
def k0_off37 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_85 : BitVec 32 := 0#32
  let v164 : BitVec 32 := Scalar.addi v22 c0_i32_85
  let v165 : Index := Scalar.indexCast v164
  let arg0 : BitVec 32 := BitVec.ofNat 32 (i 0).val
  let c16_i32 : BitVec 32 := 16#32
  let v0 : BitVec 32 := Scalar.muli arg0 c16_i32
  let c12_i32 : BitVec 32 := 12#32
  let v161 : BitVec 32 := Scalar.addi v0 c12_i32
  let v166 : Index := Scalar.indexCast v161
  ![v165.toNat, v166.toNat]
def k0_off38 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_86 : BitVec 32 := 0#32
  let v168 : BitVec 32 := Scalar.addi v22 c0_i32_86
  let v169 : Index := Scalar.indexCast v168
  let arg0 : BitVec 32 := BitVec.ofNat 32 (i 0).val
  let c16_i32 : BitVec 32 := 16#32
  let v0 : BitVec 32 := Scalar.muli arg0 c16_i32
  let c12_i32_83 : BitVec 32 := 12#32
  let v162 : BitVec 32 := Scalar.addi v0 c12_i32_83
  let c1_i32_84 : BitVec 32 := 1#32
  let v163 : BitVec 32 := Scalar.addi v162 c1_i32_84
  let v170 : Index := Scalar.indexCast v163
  ![v169.toNat, v170.toNat]
def k0_off39 (v167 : BitVec 32) : Fin 3 → Nat :=
  let v172 : Index := Scalar.indexCast v167
  let c0_87 : Index := 0#32
  let c0_88 : Index := 0#32
  ![v172.toNat, 0, 0]

def k0_chk13 (v167 : BitVec 32) : Prop :=
  (∀ a, (k0_off39 v167) a + S1x64x64.size a ≤ S1024x64x64.size a)
instance k0_chk13.dec : ∀ (v167 : BitVec 32), Decidable (k0_chk13 v167) := fun v167 => decidable_of_iff' _ (Iff.of_eq (k0_chk13.eq_1 v167))
theorem k0_off39_inb : ∀ (v167 : BitVec 32) (k0_hw13 : k0_chk13 v167), ∀ a, (k0_off39 v167) a + S1x64x64.size a ≤ S1024x64x64.size a := fun v167 k0_hw13 => k0_hw13

def k0_off40 (v171 : BitVec 32) : Fin 3 → Nat :=
  let v175 : Index := Scalar.indexCast v171
  let c0_89 : Index := 0#32
  let c0_90 : Index := 0#32
  ![v175.toNat, 0, 0]

def k0_chk14 (v171 : BitVec 32) : Prop :=
  (∀ a, (k0_off40 v171) a + S1x64x64.size a ≤ S1024x64x64.size a)
instance k0_chk14.dec : ∀ (v171 : BitVec 32), Decidable (k0_chk14 v171) := fun v171 => decidable_of_iff' _ (Iff.of_eq (k0_chk14.eq_1 v171))
theorem k0_off40_inb : ∀ (v171 : BitVec 32) (k0_hw14 : k0_chk14 v171), ∀ a, (k0_off40 v171) a + S1x64x64.size a ≤ S1024x64x64.size a := fun v171 k0_hw14 => k0_hw14

def k0_off41 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_91 : BitVec 32 := 0#32
  let c0_i32_92 : BitVec 32 := 0#32
  ![v21.toNat, 0, 0]
def k0_off42 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_91 : BitVec 32 := 0#32
  ![v21.toNat, 0, 768]
def k0_off43 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_96 : BitVec 32 := 0#32
  let v187 : BitVec 32 := Scalar.addi v22 c0_i32_96
  let v188 : Index := Scalar.indexCast v187
  let arg0 : BitVec 32 := BitVec.ofNat 32 (i 0).val
  let c16_i32 : BitVec 32 := 16#32
  let v0 : BitVec 32 := Scalar.muli arg0 c16_i32
  let c14_i32 : BitVec 32 := 14#32
  let v184 : BitVec 32 := Scalar.addi v0 c14_i32
  let v189 : Index := Scalar.indexCast v184
  ![v188.toNat, v189.toNat]
def k0_off44 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c0_i32_97 : BitVec 32 := 0#32
  let v191 : BitVec 32 := Scalar.addi v22 c0_i32_97
  let v192 : Index := Scalar.indexCast v191
  let arg0 : BitVec 32 := BitVec.ofNat 32 (i 0).val
  let c16_i32 : BitVec 32 := 16#32
  let v0 : BitVec 32 := Scalar.muli arg0 c16_i32
  let c14_i32_94 : BitVec 32 := 14#32
  let v185 : BitVec 32 := Scalar.addi v0 c14_i32_94
  let c1_i32_95 : BitVec 32 := 1#32
  let v186 : BitVec 32 := Scalar.addi v185 c1_i32_95
  let v193 : Index := Scalar.indexCast v186
  ![v192.toNat, v193.toNat]
def k0_off45 (v190 : BitVec 32) : Fin 3 → Nat :=
  let v195 : Index := Scalar.indexCast v190
  let c0_98 : Index := 0#32
  let c0_99 : Index := 0#32
  ![v195.toNat, 0, 0]

def k0_chk15 (v190 : BitVec 32) : Prop :=
  (∀ a, (k0_off45 v190) a + S1x64x64.size a ≤ S1024x64x64.size a)
instance k0_chk15.dec : ∀ (v190 : BitVec 32), Decidable (k0_chk15 v190) := fun v190 => decidable_of_iff' _ (Iff.of_eq (k0_chk15.eq_1 v190))
theorem k0_off45_inb : ∀ (v190 : BitVec 32) (k0_hw15 : k0_chk15 v190), ∀ a, (k0_off45 v190) a + S1x64x64.size a ≤ S1024x64x64.size a := fun v190 k0_hw15 => k0_hw15

def k0_off46 (v194 : BitVec 32) : Fin 3 → Nat :=
  let v198 : Index := Scalar.indexCast v194
  let c0_100 : Index := 0#32
  let c0_101 : Index := 0#32
  ![v198.toNat, 0, 0]

def k0_chk16 (v194 : BitVec 32) : Prop :=
  (∀ a, (k0_off46 v194) a + S1x64x64.size a ≤ S1024x64x64.size a)
instance k0_chk16.dec : ∀ (v194 : BitVec 32), Decidable (k0_chk16 v194) := fun v194 => decidable_of_iff' _ (Iff.of_eq (k0_chk16.eq_1 v194))
theorem k0_off46_inb : ∀ (v194 : BitVec 32) (k0_hw16 : k0_chk16 v194), ∀ a, (k0_off46 v194) a + S1x64x64.size a ≤ S1024x64x64.size a := fun v194 k0_hw16 => k0_hw16

def k0_off47 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_102 : BitVec 32 := 0#32
  let c0_i32_103 : BitVec 32 := 0#32
  ![v21.toNat, 0, 0]
def k0_off48 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_102 : BitVec 32 := 0#32
  ![v21.toNat, 0, 896]
def k0_off49 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_108 : BitVec 32 := 1#32
  let v210 : BitVec 32 := Scalar.addi v22 c1_i32_108
  let v211 : Index := Scalar.indexCast v210
  let arg0 : BitVec 32 := BitVec.ofNat 32 (i 0).val
  let c16_i32 : BitVec 32 := 16#32
  let v0 : BitVec 32 := Scalar.muli arg0 c16_i32
  let c0_i32_105 : BitVec 32 := 0#32
  let v207 : BitVec 32 := Scalar.addi v0 c0_i32_105
  let v212 : Index := Scalar.indexCast v207
  ![v211.toNat, v212.toNat]
def k0_off50 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_109 : BitVec 32 := 1#32
  let v214 : BitVec 32 := Scalar.addi v22 c1_i32_109
  let v215 : Index := Scalar.indexCast v214
  let arg0 : BitVec 32 := BitVec.ofNat 32 (i 0).val
  let c16_i32 : BitVec 32 := 16#32
  let v0 : BitVec 32 := Scalar.muli arg0 c16_i32
  let c0_i32_106 : BitVec 32 := 0#32
  let v208 : BitVec 32 := Scalar.addi v0 c0_i32_106
  let c1_i32_107 : BitVec 32 := 1#32
  let v209 : BitVec 32 := Scalar.addi v208 c1_i32_107
  let v216 : Index := Scalar.indexCast v209
  ![v215.toNat, v216.toNat]
def k0_off51 (v213 : BitVec 32) : Fin 3 → Nat :=
  let v218 : Index := Scalar.indexCast v213
  let c0_110 : Index := 0#32
  let c0_111 : Index := 0#32
  ![v218.toNat, 0, 0]

def k0_chk17 (v213 : BitVec 32) : Prop :=
  (∀ a, (k0_off51 v213) a + S1x64x64.size a ≤ S1024x64x64.size a)
instance k0_chk17.dec : ∀ (v213 : BitVec 32), Decidable (k0_chk17 v213) := fun v213 => decidable_of_iff' _ (Iff.of_eq (k0_chk17.eq_1 v213))
theorem k0_off51_inb : ∀ (v213 : BitVec 32) (k0_hw17 : k0_chk17 v213), ∀ a, (k0_off51 v213) a + S1x64x64.size a ≤ S1024x64x64.size a := fun v213 k0_hw17 => k0_hw17

def k0_off52 (v217 : BitVec 32) : Fin 3 → Nat :=
  let v221 : Index := Scalar.indexCast v217
  let c0_112 : Index := 0#32
  let c0_113 : Index := 0#32
  ![v221.toNat, 0, 0]

def k0_chk18 (v217 : BitVec 32) : Prop :=
  (∀ a, (k0_off52 v217) a + S1x64x64.size a ≤ S1024x64x64.size a)
instance k0_chk18.dec : ∀ (v217 : BitVec 32), Decidable (k0_chk18 v217) := fun v217 => decidable_of_iff' _ (Iff.of_eq (k0_chk18.eq_1 v217))
theorem k0_off52_inb : ∀ (v217 : BitVec 32) (k0_hw18 : k0_chk18 v217), ∀ a, (k0_off52 v217) a + S1x64x64.size a ≤ S1024x64x64.size a := fun v217 k0_hw18 => k0_hw18

def k0_off53 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_114 : BitVec 32 := 0#32
  let c0_i32_115 : BitVec 32 := 0#32
  ![v21.toNat, 0, 0]
def k0_off54 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_115 : BitVec 32 := 0#32
  ![v21.toNat, 64, 0]
def k0_off55 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_120 : BitVec 32 := 1#32
  let v233 : BitVec 32 := Scalar.addi v22 c1_i32_120
  let v234 : Index := Scalar.indexCast v233
  let arg0 : BitVec 32 := BitVec.ofNat 32 (i 0).val
  let c16_i32 : BitVec 32 := 16#32
  let v0 : BitVec 32 := Scalar.muli arg0 c16_i32
  let c2_i32_117 : BitVec 32 := 2#32
  let v230 : BitVec 32 := Scalar.addi v0 c2_i32_117
  let v235 : Index := Scalar.indexCast v230
  ![v234.toNat, v235.toNat]
def k0_off56 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_121 : BitVec 32 := 1#32
  let v237 : BitVec 32 := Scalar.addi v22 c1_i32_121
  let v238 : Index := Scalar.indexCast v237
  let arg0 : BitVec 32 := BitVec.ofNat 32 (i 0).val
  let c16_i32 : BitVec 32 := 16#32
  let v0 : BitVec 32 := Scalar.muli arg0 c16_i32
  let c2_i32_118 : BitVec 32 := 2#32
  let v231 : BitVec 32 := Scalar.addi v0 c2_i32_118
  let c1_i32_119 : BitVec 32 := 1#32
  let v232 : BitVec 32 := Scalar.addi v231 c1_i32_119
  let v239 : Index := Scalar.indexCast v232
  ![v238.toNat, v239.toNat]
def k0_off57 (v236 : BitVec 32) : Fin 3 → Nat :=
  let v241 : Index := Scalar.indexCast v236
  let c0_122 : Index := 0#32
  let c0_123 : Index := 0#32
  ![v241.toNat, 0, 0]

def k0_chk19 (v236 : BitVec 32) : Prop :=
  (∀ a, (k0_off57 v236) a + S1x64x64.size a ≤ S1024x64x64.size a)
instance k0_chk19.dec : ∀ (v236 : BitVec 32), Decidable (k0_chk19 v236) := fun v236 => decidable_of_iff' _ (Iff.of_eq (k0_chk19.eq_1 v236))
theorem k0_off57_inb : ∀ (v236 : BitVec 32) (k0_hw19 : k0_chk19 v236), ∀ a, (k0_off57 v236) a + S1x64x64.size a ≤ S1024x64x64.size a := fun v236 k0_hw19 => k0_hw19

def k0_off58 (v240 : BitVec 32) : Fin 3 → Nat :=
  let v244 : Index := Scalar.indexCast v240
  let c0_124 : Index := 0#32
  let c0_125 : Index := 0#32
  ![v244.toNat, 0, 0]

def k0_chk20 (v240 : BitVec 32) : Prop :=
  (∀ a, (k0_off58 v240) a + S1x64x64.size a ≤ S1024x64x64.size a)
instance k0_chk20.dec : ∀ (v240 : BitVec 32), Decidable (k0_chk20 v240) := fun v240 => decidable_of_iff' _ (Iff.of_eq (k0_chk20.eq_1 v240))
theorem k0_off58_inb : ∀ (v240 : BitVec 32) (k0_hw20 : k0_chk20 v240), ∀ a, (k0_off58 v240) a + S1x64x64.size a ≤ S1024x64x64.size a := fun v240 k0_hw20 => k0_hw20

def k0_off59 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_126 : BitVec 32 := 0#32
  let c0_i32_127 : BitVec 32 := 0#32
  ![v21.toNat, 0, 0]
def k0_off60 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 64, 128]
def k0_off61 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_133 : BitVec 32 := 1#32
  let v256 : BitVec 32 := Scalar.addi v22 c1_i32_133
  let v257 : Index := Scalar.indexCast v256
  let arg0 : BitVec 32 := BitVec.ofNat 32 (i 0).val
  let c16_i32 : BitVec 32 := 16#32
  let v0 : BitVec 32 := Scalar.muli arg0 c16_i32
  let c4_i32_130 : BitVec 32 := 4#32
  let v253 : BitVec 32 := Scalar.addi v0 c4_i32_130
  let v258 : Index := Scalar.indexCast v253
  ![v257.toNat, v258.toNat]
def k0_off62 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_134 : BitVec 32 := 1#32
  let v260 : BitVec 32 := Scalar.addi v22 c1_i32_134
  let v261 : Index := Scalar.indexCast v260
  let arg0 : BitVec 32 := BitVec.ofNat 32 (i 0).val
  let c16_i32 : BitVec 32 := 16#32
  let v0 : BitVec 32 := Scalar.muli arg0 c16_i32
  let c4_i32_131 : BitVec 32 := 4#32
  let v254 : BitVec 32 := Scalar.addi v0 c4_i32_131
  let c1_i32_132 : BitVec 32 := 1#32
  let v255 : BitVec 32 := Scalar.addi v254 c1_i32_132
  let v262 : Index := Scalar.indexCast v255
  ![v261.toNat, v262.toNat]
def k0_off63 (v259 : BitVec 32) : Fin 3 → Nat :=
  let v264 : Index := Scalar.indexCast v259
  let c0_135 : Index := 0#32
  let c0_136 : Index := 0#32
  ![v264.toNat, 0, 0]

def k0_chk21 (v259 : BitVec 32) : Prop :=
  (∀ a, (k0_off63 v259) a + S1x64x64.size a ≤ S1024x64x64.size a)
instance k0_chk21.dec : ∀ (v259 : BitVec 32), Decidable (k0_chk21 v259) := fun v259 => decidable_of_iff' _ (Iff.of_eq (k0_chk21.eq_1 v259))
theorem k0_off63_inb : ∀ (v259 : BitVec 32) (k0_hw21 : k0_chk21 v259), ∀ a, (k0_off63 v259) a + S1x64x64.size a ≤ S1024x64x64.size a := fun v259 k0_hw21 => k0_hw21

def k0_off64 (v263 : BitVec 32) : Fin 3 → Nat :=
  let v267 : Index := Scalar.indexCast v263
  let c0_137 : Index := 0#32
  let c0_138 : Index := 0#32
  ![v267.toNat, 0, 0]

def k0_chk22 (v263 : BitVec 32) : Prop :=
  (∀ a, (k0_off64 v263) a + S1x64x64.size a ≤ S1024x64x64.size a)
instance k0_chk22.dec : ∀ (v263 : BitVec 32), Decidable (k0_chk22 v263) := fun v263 => decidable_of_iff' _ (Iff.of_eq (k0_chk22.eq_1 v263))
theorem k0_off64_inb : ∀ (v263 : BitVec 32) (k0_hw22 : k0_chk22 v263), ∀ a, (k0_off64 v263) a + S1x64x64.size a ≤ S1024x64x64.size a := fun v263 k0_hw22 => k0_hw22

def k0_off65 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_139 : BitVec 32 := 0#32
  let c0_i32_140 : BitVec 32 := 0#32
  ![v21.toNat, 0, 0]
def k0_off66 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 64, 256]
def k0_off67 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_146 : BitVec 32 := 1#32
  let v279 : BitVec 32 := Scalar.addi v22 c1_i32_146
  let v280 : Index := Scalar.indexCast v279
  let arg0 : BitVec 32 := BitVec.ofNat 32 (i 0).val
  let c16_i32 : BitVec 32 := 16#32
  let v0 : BitVec 32 := Scalar.muli arg0 c16_i32
  let c6_i32_143 : BitVec 32 := 6#32
  let v276 : BitVec 32 := Scalar.addi v0 c6_i32_143
  let v281 : Index := Scalar.indexCast v276
  ![v280.toNat, v281.toNat]
def k0_off68 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_147 : BitVec 32 := 1#32
  let v283 : BitVec 32 := Scalar.addi v22 c1_i32_147
  let v284 : Index := Scalar.indexCast v283
  let arg0 : BitVec 32 := BitVec.ofNat 32 (i 0).val
  let c16_i32 : BitVec 32 := 16#32
  let v0 : BitVec 32 := Scalar.muli arg0 c16_i32
  let c6_i32_144 : BitVec 32 := 6#32
  let v277 : BitVec 32 := Scalar.addi v0 c6_i32_144
  let c1_i32_145 : BitVec 32 := 1#32
  let v278 : BitVec 32 := Scalar.addi v277 c1_i32_145
  let v285 : Index := Scalar.indexCast v278
  ![v284.toNat, v285.toNat]
def k0_off69 (v282 : BitVec 32) : Fin 3 → Nat :=
  let v287 : Index := Scalar.indexCast v282
  let c0_148 : Index := 0#32
  let c0_149 : Index := 0#32
  ![v287.toNat, 0, 0]

def k0_chk23 (v282 : BitVec 32) : Prop :=
  (∀ a, (k0_off69 v282) a + S1x64x64.size a ≤ S1024x64x64.size a)
instance k0_chk23.dec : ∀ (v282 : BitVec 32), Decidable (k0_chk23 v282) := fun v282 => decidable_of_iff' _ (Iff.of_eq (k0_chk23.eq_1 v282))
theorem k0_off69_inb : ∀ (v282 : BitVec 32) (k0_hw23 : k0_chk23 v282), ∀ a, (k0_off69 v282) a + S1x64x64.size a ≤ S1024x64x64.size a := fun v282 k0_hw23 => k0_hw23

def k0_off70 (v286 : BitVec 32) : Fin 3 → Nat :=
  let v290 : Index := Scalar.indexCast v286
  let c0_150 : Index := 0#32
  let c0_151 : Index := 0#32
  ![v290.toNat, 0, 0]

def k0_chk24 (v286 : BitVec 32) : Prop :=
  (∀ a, (k0_off70 v286) a + S1x64x64.size a ≤ S1024x64x64.size a)
instance k0_chk24.dec : ∀ (v286 : BitVec 32), Decidable (k0_chk24 v286) := fun v286 => decidable_of_iff' _ (Iff.of_eq (k0_chk24.eq_1 v286))
theorem k0_off70_inb : ∀ (v286 : BitVec 32) (k0_hw24 : k0_chk24 v286), ∀ a, (k0_off70 v286) a + S1x64x64.size a ≤ S1024x64x64.size a := fun v286 k0_hw24 => k0_hw24

def k0_off71 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_152 : BitVec 32 := 0#32
  let c0_i32_153 : BitVec 32 := 0#32
  ![v21.toNat, 0, 0]
def k0_off72 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 64, 384]
def k0_off73 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_159 : BitVec 32 := 1#32
  let v302 : BitVec 32 := Scalar.addi v22 c1_i32_159
  let v303 : Index := Scalar.indexCast v302
  let arg0 : BitVec 32 := BitVec.ofNat 32 (i 0).val
  let c16_i32 : BitVec 32 := 16#32
  let v0 : BitVec 32 := Scalar.muli arg0 c16_i32
  let c8_i32_156 : BitVec 32 := 8#32
  let v299 : BitVec 32 := Scalar.addi v0 c8_i32_156
  let v304 : Index := Scalar.indexCast v299
  ![v303.toNat, v304.toNat]
def k0_off74 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_160 : BitVec 32 := 1#32
  let v306 : BitVec 32 := Scalar.addi v22 c1_i32_160
  let v307 : Index := Scalar.indexCast v306
  let arg0 : BitVec 32 := BitVec.ofNat 32 (i 0).val
  let c16_i32 : BitVec 32 := 16#32
  let v0 : BitVec 32 := Scalar.muli arg0 c16_i32
  let c8_i32_157 : BitVec 32 := 8#32
  let v300 : BitVec 32 := Scalar.addi v0 c8_i32_157
  let c1_i32_158 : BitVec 32 := 1#32
  let v301 : BitVec 32 := Scalar.addi v300 c1_i32_158
  let v308 : Index := Scalar.indexCast v301
  ![v307.toNat, v308.toNat]
def k0_off75 (v305 : BitVec 32) : Fin 3 → Nat :=
  let v310 : Index := Scalar.indexCast v305
  let c0_161 : Index := 0#32
  let c0_162 : Index := 0#32
  ![v310.toNat, 0, 0]

def k0_chk25 (v305 : BitVec 32) : Prop :=
  (∀ a, (k0_off75 v305) a + S1x64x64.size a ≤ S1024x64x64.size a)
instance k0_chk25.dec : ∀ (v305 : BitVec 32), Decidable (k0_chk25 v305) := fun v305 => decidable_of_iff' _ (Iff.of_eq (k0_chk25.eq_1 v305))
theorem k0_off75_inb : ∀ (v305 : BitVec 32) (k0_hw25 : k0_chk25 v305), ∀ a, (k0_off75 v305) a + S1x64x64.size a ≤ S1024x64x64.size a := fun v305 k0_hw25 => k0_hw25

def k0_off76 (v309 : BitVec 32) : Fin 3 → Nat :=
  let v313 : Index := Scalar.indexCast v309
  let c0_163 : Index := 0#32
  let c0_164 : Index := 0#32
  ![v313.toNat, 0, 0]

def k0_chk26 (v309 : BitVec 32) : Prop :=
  (∀ a, (k0_off76 v309) a + S1x64x64.size a ≤ S1024x64x64.size a)
instance k0_chk26.dec : ∀ (v309 : BitVec 32), Decidable (k0_chk26 v309) := fun v309 => decidable_of_iff' _ (Iff.of_eq (k0_chk26.eq_1 v309))
theorem k0_off76_inb : ∀ (v309 : BitVec 32) (k0_hw26 : k0_chk26 v309), ∀ a, (k0_off76 v309) a + S1x64x64.size a ≤ S1024x64x64.size a := fun v309 k0_hw26 => k0_hw26

def k0_off77 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_165 : BitVec 32 := 0#32
  let c0_i32_166 : BitVec 32 := 0#32
  ![v21.toNat, 0, 0]
def k0_off78 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 64, 512]
def k0_off79 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_172 : BitVec 32 := 1#32
  let v325 : BitVec 32 := Scalar.addi v22 c1_i32_172
  let v326 : Index := Scalar.indexCast v325
  let arg0 : BitVec 32 := BitVec.ofNat 32 (i 0).val
  let c16_i32 : BitVec 32 := 16#32
  let v0 : BitVec 32 := Scalar.muli arg0 c16_i32
  let c10_i32_169 : BitVec 32 := 10#32
  let v322 : BitVec 32 := Scalar.addi v0 c10_i32_169
  let v327 : Index := Scalar.indexCast v322
  ![v326.toNat, v327.toNat]
def k0_off80 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_173 : BitVec 32 := 1#32
  let v329 : BitVec 32 := Scalar.addi v22 c1_i32_173
  let v330 : Index := Scalar.indexCast v329
  let arg0 : BitVec 32 := BitVec.ofNat 32 (i 0).val
  let c16_i32 : BitVec 32 := 16#32
  let v0 : BitVec 32 := Scalar.muli arg0 c16_i32
  let c10_i32_170 : BitVec 32 := 10#32
  let v323 : BitVec 32 := Scalar.addi v0 c10_i32_170
  let c1_i32_171 : BitVec 32 := 1#32
  let v324 : BitVec 32 := Scalar.addi v323 c1_i32_171
  let v331 : Index := Scalar.indexCast v324
  ![v330.toNat, v331.toNat]
def k0_off81 (v328 : BitVec 32) : Fin 3 → Nat :=
  let v333 : Index := Scalar.indexCast v328
  let c0_174 : Index := 0#32
  let c0_175 : Index := 0#32
  ![v333.toNat, 0, 0]

def k0_chk27 (v328 : BitVec 32) : Prop :=
  (∀ a, (k0_off81 v328) a + S1x64x64.size a ≤ S1024x64x64.size a)
instance k0_chk27.dec : ∀ (v328 : BitVec 32), Decidable (k0_chk27 v328) := fun v328 => decidable_of_iff' _ (Iff.of_eq (k0_chk27.eq_1 v328))
theorem k0_off81_inb : ∀ (v328 : BitVec 32) (k0_hw27 : k0_chk27 v328), ∀ a, (k0_off81 v328) a + S1x64x64.size a ≤ S1024x64x64.size a := fun v328 k0_hw27 => k0_hw27

def k0_off82 (v332 : BitVec 32) : Fin 3 → Nat :=
  let v336 : Index := Scalar.indexCast v332
  let c0_176 : Index := 0#32
  let c0_177 : Index := 0#32
  ![v336.toNat, 0, 0]

def k0_chk28 (v332 : BitVec 32) : Prop :=
  (∀ a, (k0_off82 v332) a + S1x64x64.size a ≤ S1024x64x64.size a)
instance k0_chk28.dec : ∀ (v332 : BitVec 32), Decidable (k0_chk28 v332) := fun v332 => decidable_of_iff' _ (Iff.of_eq (k0_chk28.eq_1 v332))
theorem k0_off82_inb : ∀ (v332 : BitVec 32) (k0_hw28 : k0_chk28 v332), ∀ a, (k0_off82 v332) a + S1x64x64.size a ≤ S1024x64x64.size a := fun v332 k0_hw28 => k0_hw28

def k0_off83 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_178 : BitVec 32 := 0#32
  let c0_i32_179 : BitVec 32 := 0#32
  ![v21.toNat, 0, 0]
def k0_off84 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 64, 640]
def k0_off85 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_185 : BitVec 32 := 1#32
  let v348 : BitVec 32 := Scalar.addi v22 c1_i32_185
  let v349 : Index := Scalar.indexCast v348
  let arg0 : BitVec 32 := BitVec.ofNat 32 (i 0).val
  let c16_i32 : BitVec 32 := 16#32
  let v0 : BitVec 32 := Scalar.muli arg0 c16_i32
  let c12_i32_182 : BitVec 32 := 12#32
  let v345 : BitVec 32 := Scalar.addi v0 c12_i32_182
  let v350 : Index := Scalar.indexCast v345
  ![v349.toNat, v350.toNat]
def k0_off86 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_186 : BitVec 32 := 1#32
  let v352 : BitVec 32 := Scalar.addi v22 c1_i32_186
  let v353 : Index := Scalar.indexCast v352
  let arg0 : BitVec 32 := BitVec.ofNat 32 (i 0).val
  let c16_i32 : BitVec 32 := 16#32
  let v0 : BitVec 32 := Scalar.muli arg0 c16_i32
  let c12_i32_183 : BitVec 32 := 12#32
  let v346 : BitVec 32 := Scalar.addi v0 c12_i32_183
  let c1_i32_184 : BitVec 32 := 1#32
  let v347 : BitVec 32 := Scalar.addi v346 c1_i32_184
  let v354 : Index := Scalar.indexCast v347
  ![v353.toNat, v354.toNat]
def k0_off87 (v351 : BitVec 32) : Fin 3 → Nat :=
  let v356 : Index := Scalar.indexCast v351
  let c0_187 : Index := 0#32
  let c0_188 : Index := 0#32
  ![v356.toNat, 0, 0]

def k0_chk29 (v351 : BitVec 32) : Prop :=
  (∀ a, (k0_off87 v351) a + S1x64x64.size a ≤ S1024x64x64.size a)
instance k0_chk29.dec : ∀ (v351 : BitVec 32), Decidable (k0_chk29 v351) := fun v351 => decidable_of_iff' _ (Iff.of_eq (k0_chk29.eq_1 v351))
theorem k0_off87_inb : ∀ (v351 : BitVec 32) (k0_hw29 : k0_chk29 v351), ∀ a, (k0_off87 v351) a + S1x64x64.size a ≤ S1024x64x64.size a := fun v351 k0_hw29 => k0_hw29

def k0_off88 (v355 : BitVec 32) : Fin 3 → Nat :=
  let v359 : Index := Scalar.indexCast v355
  let c0_189 : Index := 0#32
  let c0_190 : Index := 0#32
  ![v359.toNat, 0, 0]

def k0_chk30 (v355 : BitVec 32) : Prop :=
  (∀ a, (k0_off88 v355) a + S1x64x64.size a ≤ S1024x64x64.size a)
instance k0_chk30.dec : ∀ (v355 : BitVec 32), Decidable (k0_chk30 v355) := fun v355 => decidable_of_iff' _ (Iff.of_eq (k0_chk30.eq_1 v355))
theorem k0_off88_inb : ∀ (v355 : BitVec 32) (k0_hw30 : k0_chk30 v355), ∀ a, (k0_off88 v355) a + S1x64x64.size a ≤ S1024x64x64.size a := fun v355 k0_hw30 => k0_hw30

def k0_off89 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_191 : BitVec 32 := 0#32
  let c0_i32_192 : BitVec 32 := 0#32
  ![v21.toNat, 0, 0]
def k0_off90 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 64, 768]
def k0_off91 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_198 : BitVec 32 := 1#32
  let v371 : BitVec 32 := Scalar.addi v22 c1_i32_198
  let v372 : Index := Scalar.indexCast v371
  let arg0 : BitVec 32 := BitVec.ofNat 32 (i 0).val
  let c16_i32 : BitVec 32 := 16#32
  let v0 : BitVec 32 := Scalar.muli arg0 c16_i32
  let c14_i32_195 : BitVec 32 := 14#32
  let v368 : BitVec 32 := Scalar.addi v0 c14_i32_195
  let v373 : Index := Scalar.indexCast v368
  ![v372.toNat, v373.toNat]
def k0_off92 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c1_i32_199 : BitVec 32 := 1#32
  let v375 : BitVec 32 := Scalar.addi v22 c1_i32_199
  let v376 : Index := Scalar.indexCast v375
  let arg0 : BitVec 32 := BitVec.ofNat 32 (i 0).val
  let c16_i32 : BitVec 32 := 16#32
  let v0 : BitVec 32 := Scalar.muli arg0 c16_i32
  let c14_i32_196 : BitVec 32 := 14#32
  let v369 : BitVec 32 := Scalar.addi v0 c14_i32_196
  let c1_i32_197 : BitVec 32 := 1#32
  let v370 : BitVec 32 := Scalar.addi v369 c1_i32_197
  let v377 : Index := Scalar.indexCast v370
  ![v376.toNat, v377.toNat]
def k0_off93 (v374 : BitVec 32) : Fin 3 → Nat :=
  let v379 : Index := Scalar.indexCast v374
  let c0_200 : Index := 0#32
  let c0_201 : Index := 0#32
  ![v379.toNat, 0, 0]

def k0_chk31 (v374 : BitVec 32) : Prop :=
  (∀ a, (k0_off93 v374) a + S1x64x64.size a ≤ S1024x64x64.size a)
instance k0_chk31.dec : ∀ (v374 : BitVec 32), Decidable (k0_chk31 v374) := fun v374 => decidable_of_iff' _ (Iff.of_eq (k0_chk31.eq_1 v374))
theorem k0_off93_inb : ∀ (v374 : BitVec 32) (k0_hw31 : k0_chk31 v374), ∀ a, (k0_off93 v374) a + S1x64x64.size a ≤ S1024x64x64.size a := fun v374 k0_hw31 => k0_hw31

def k0_off94 (v378 : BitVec 32) : Fin 3 → Nat :=
  let v382 : Index := Scalar.indexCast v378
  let c0_202 : Index := 0#32
  let c0_203 : Index := 0#32
  ![v382.toNat, 0, 0]

def k0_chk32 (v378 : BitVec 32) : Prop :=
  (∀ a, (k0_off94 v378) a + S1x64x64.size a ≤ S1024x64x64.size a)
instance k0_chk32.dec : ∀ (v378 : BitVec 32), Decidable (k0_chk32 v378) := fun v378 => decidable_of_iff' _ (Iff.of_eq (k0_chk32.eq_1 v378))
theorem k0_off94_inb : ∀ (v378 : BitVec 32) (k0_hw32 : k0_chk32 v378), ∀ a, (k0_off94 v378) a + S1x64x64.size a ≤ S1024x64x64.size a := fun v378 k0_hw32 => k0_hw32

def k0_off95 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_204 : BitVec 32 := 0#32
  let c0_i32_205 : BitVec 32 := 0#32
  ![v21.toNat, 0, 0]
def k0_off96 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 64, 896]
def k0_off97 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_211 : BitVec 32 := 2#32
  let v394 : BitVec 32 := Scalar.addi v22 c2_i32_211
  let v395 : Index := Scalar.indexCast v394
  let arg0 : BitVec 32 := BitVec.ofNat 32 (i 0).val
  let c16_i32 : BitVec 32 := 16#32
  let v0 : BitVec 32 := Scalar.muli arg0 c16_i32
  let c0_i32_208 : BitVec 32 := 0#32
  let v391 : BitVec 32 := Scalar.addi v0 c0_i32_208
  let v396 : Index := Scalar.indexCast v391
  ![v395.toNat, v396.toNat]
def k0_off98 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_212 : BitVec 32 := 2#32
  let v398 : BitVec 32 := Scalar.addi v22 c2_i32_212
  let v399 : Index := Scalar.indexCast v398
  let arg0 : BitVec 32 := BitVec.ofNat 32 (i 0).val
  let c16_i32 : BitVec 32 := 16#32
  let v0 : BitVec 32 := Scalar.muli arg0 c16_i32
  let c0_i32_209 : BitVec 32 := 0#32
  let v392 : BitVec 32 := Scalar.addi v0 c0_i32_209
  let c1_i32_210 : BitVec 32 := 1#32
  let v393 : BitVec 32 := Scalar.addi v392 c1_i32_210
  let v400 : Index := Scalar.indexCast v393
  ![v399.toNat, v400.toNat]
def k0_off99 (v397 : BitVec 32) : Fin 3 → Nat :=
  let v402 : Index := Scalar.indexCast v397
  let c0_213 : Index := 0#32
  let c0_214 : Index := 0#32
  ![v402.toNat, 0, 0]

def k0_chk33 (v397 : BitVec 32) : Prop :=
  (∀ a, (k0_off99 v397) a + S1x64x64.size a ≤ S1024x64x64.size a)
instance k0_chk33.dec : ∀ (v397 : BitVec 32), Decidable (k0_chk33 v397) := fun v397 => decidable_of_iff' _ (Iff.of_eq (k0_chk33.eq_1 v397))
theorem k0_off99_inb : ∀ (v397 : BitVec 32) (k0_hw33 : k0_chk33 v397), ∀ a, (k0_off99 v397) a + S1x64x64.size a ≤ S1024x64x64.size a := fun v397 k0_hw33 => k0_hw33

def k0_off100 (v401 : BitVec 32) : Fin 3 → Nat :=
  let v405 : Index := Scalar.indexCast v401
  let c0_215 : Index := 0#32
  let c0_216 : Index := 0#32
  ![v405.toNat, 0, 0]

def k0_chk34 (v401 : BitVec 32) : Prop :=
  (∀ a, (k0_off100 v401) a + S1x64x64.size a ≤ S1024x64x64.size a)
instance k0_chk34.dec : ∀ (v401 : BitVec 32), Decidable (k0_chk34 v401) := fun v401 => decidable_of_iff' _ (Iff.of_eq (k0_chk34.eq_1 v401))
theorem k0_off100_inb : ∀ (v401 : BitVec 32) (k0_hw34 : k0_chk34 v401), ∀ a, (k0_off100 v401) a + S1x64x64.size a ≤ S1024x64x64.size a := fun v401 k0_hw34 => k0_hw34

def k0_off101 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_217 : BitVec 32 := 0#32
  let c0_i32_218 : BitVec 32 := 0#32
  ![v21.toNat, 0, 0]
def k0_off102 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_218 : BitVec 32 := 0#32
  ![v21.toNat, 128, 0]
def k0_off103 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_224 : BitVec 32 := 2#32
  let v417 : BitVec 32 := Scalar.addi v22 c2_i32_224
  let v418 : Index := Scalar.indexCast v417
  let arg0 : BitVec 32 := BitVec.ofNat 32 (i 0).val
  let c16_i32 : BitVec 32 := 16#32
  let v0 : BitVec 32 := Scalar.muli arg0 c16_i32
  let c2_i32_221 : BitVec 32 := 2#32
  let v414 : BitVec 32 := Scalar.addi v0 c2_i32_221
  let v419 : Index := Scalar.indexCast v414
  ![v418.toNat, v419.toNat]
def k0_off104 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_225 : BitVec 32 := 2#32
  let v421 : BitVec 32 := Scalar.addi v22 c2_i32_225
  let v422 : Index := Scalar.indexCast v421
  let arg0 : BitVec 32 := BitVec.ofNat 32 (i 0).val
  let c16_i32 : BitVec 32 := 16#32
  let v0 : BitVec 32 := Scalar.muli arg0 c16_i32
  let c2_i32_222 : BitVec 32 := 2#32
  let v415 : BitVec 32 := Scalar.addi v0 c2_i32_222
  let c1_i32_223 : BitVec 32 := 1#32
  let v416 : BitVec 32 := Scalar.addi v415 c1_i32_223
  let v423 : Index := Scalar.indexCast v416
  ![v422.toNat, v423.toNat]
def k0_off105 (v420 : BitVec 32) : Fin 3 → Nat :=
  let v425 : Index := Scalar.indexCast v420
  let c0_226 : Index := 0#32
  let c0_227 : Index := 0#32
  ![v425.toNat, 0, 0]

def k0_chk35 (v420 : BitVec 32) : Prop :=
  (∀ a, (k0_off105 v420) a + S1x64x64.size a ≤ S1024x64x64.size a)
instance k0_chk35.dec : ∀ (v420 : BitVec 32), Decidable (k0_chk35 v420) := fun v420 => decidable_of_iff' _ (Iff.of_eq (k0_chk35.eq_1 v420))
theorem k0_off105_inb : ∀ (v420 : BitVec 32) (k0_hw35 : k0_chk35 v420), ∀ a, (k0_off105 v420) a + S1x64x64.size a ≤ S1024x64x64.size a := fun v420 k0_hw35 => k0_hw35

def k0_off106 (v424 : BitVec 32) : Fin 3 → Nat :=
  let v428 : Index := Scalar.indexCast v424
  let c0_228 : Index := 0#32
  let c0_229 : Index := 0#32
  ![v428.toNat, 0, 0]

def k0_chk36 (v424 : BitVec 32) : Prop :=
  (∀ a, (k0_off106 v424) a + S1x64x64.size a ≤ S1024x64x64.size a)
instance k0_chk36.dec : ∀ (v424 : BitVec 32), Decidable (k0_chk36 v424) := fun v424 => decidable_of_iff' _ (Iff.of_eq (k0_chk36.eq_1 v424))
theorem k0_off106_inb : ∀ (v424 : BitVec 32) (k0_hw36 : k0_chk36 v424), ∀ a, (k0_off106 v424) a + S1x64x64.size a ≤ S1024x64x64.size a := fun v424 k0_hw36 => k0_hw36

def k0_off107 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_230 : BitVec 32 := 0#32
  let c0_i32_231 : BitVec 32 := 0#32
  ![v21.toNat, 0, 0]
def k0_off108 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 128, 128]
def k0_off109 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_237 : BitVec 32 := 2#32
  let v440 : BitVec 32 := Scalar.addi v22 c2_i32_237
  let v441 : Index := Scalar.indexCast v440
  let arg0 : BitVec 32 := BitVec.ofNat 32 (i 0).val
  let c16_i32 : BitVec 32 := 16#32
  let v0 : BitVec 32 := Scalar.muli arg0 c16_i32
  let c4_i32_234 : BitVec 32 := 4#32
  let v437 : BitVec 32 := Scalar.addi v0 c4_i32_234
  let v442 : Index := Scalar.indexCast v437
  ![v441.toNat, v442.toNat]
def k0_off110 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_238 : BitVec 32 := 2#32
  let v444 : BitVec 32 := Scalar.addi v22 c2_i32_238
  let v445 : Index := Scalar.indexCast v444
  let arg0 : BitVec 32 := BitVec.ofNat 32 (i 0).val
  let c16_i32 : BitVec 32 := 16#32
  let v0 : BitVec 32 := Scalar.muli arg0 c16_i32
  let c4_i32_235 : BitVec 32 := 4#32
  let v438 : BitVec 32 := Scalar.addi v0 c4_i32_235
  let c1_i32_236 : BitVec 32 := 1#32
  let v439 : BitVec 32 := Scalar.addi v438 c1_i32_236
  let v446 : Index := Scalar.indexCast v439
  ![v445.toNat, v446.toNat]
def k0_off111 (v443 : BitVec 32) : Fin 3 → Nat :=
  let v448 : Index := Scalar.indexCast v443
  let c0_239 : Index := 0#32
  let c0_240 : Index := 0#32
  ![v448.toNat, 0, 0]

def k0_chk37 (v443 : BitVec 32) : Prop :=
  (∀ a, (k0_off111 v443) a + S1x64x64.size a ≤ S1024x64x64.size a)
instance k0_chk37.dec : ∀ (v443 : BitVec 32), Decidable (k0_chk37 v443) := fun v443 => decidable_of_iff' _ (Iff.of_eq (k0_chk37.eq_1 v443))
theorem k0_off111_inb : ∀ (v443 : BitVec 32) (k0_hw37 : k0_chk37 v443), ∀ a, (k0_off111 v443) a + S1x64x64.size a ≤ S1024x64x64.size a := fun v443 k0_hw37 => k0_hw37

def k0_off112 (v447 : BitVec 32) : Fin 3 → Nat :=
  let v451 : Index := Scalar.indexCast v447
  let c0_241 : Index := 0#32
  let c0_242 : Index := 0#32
  ![v451.toNat, 0, 0]

def k0_chk38 (v447 : BitVec 32) : Prop :=
  (∀ a, (k0_off112 v447) a + S1x64x64.size a ≤ S1024x64x64.size a)
instance k0_chk38.dec : ∀ (v447 : BitVec 32), Decidable (k0_chk38 v447) := fun v447 => decidable_of_iff' _ (Iff.of_eq (k0_chk38.eq_1 v447))
theorem k0_off112_inb : ∀ (v447 : BitVec 32) (k0_hw38 : k0_chk38 v447), ∀ a, (k0_off112 v447) a + S1x64x64.size a ≤ S1024x64x64.size a := fun v447 k0_hw38 => k0_hw38

def k0_off113 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_243 : BitVec 32 := 0#32
  let c0_i32_244 : BitVec 32 := 0#32
  ![v21.toNat, 0, 0]
def k0_off114 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 128, 256]
def k0_off115 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_250 : BitVec 32 := 2#32
  let v463 : BitVec 32 := Scalar.addi v22 c2_i32_250
  let v464 : Index := Scalar.indexCast v463
  let arg0 : BitVec 32 := BitVec.ofNat 32 (i 0).val
  let c16_i32 : BitVec 32 := 16#32
  let v0 : BitVec 32 := Scalar.muli arg0 c16_i32
  let c6_i32_247 : BitVec 32 := 6#32
  let v460 : BitVec 32 := Scalar.addi v0 c6_i32_247
  let v465 : Index := Scalar.indexCast v460
  ![v464.toNat, v465.toNat]
def k0_off116 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_251 : BitVec 32 := 2#32
  let v467 : BitVec 32 := Scalar.addi v22 c2_i32_251
  let v468 : Index := Scalar.indexCast v467
  let arg0 : BitVec 32 := BitVec.ofNat 32 (i 0).val
  let c16_i32 : BitVec 32 := 16#32
  let v0 : BitVec 32 := Scalar.muli arg0 c16_i32
  let c6_i32_248 : BitVec 32 := 6#32
  let v461 : BitVec 32 := Scalar.addi v0 c6_i32_248
  let c1_i32_249 : BitVec 32 := 1#32
  let v462 : BitVec 32 := Scalar.addi v461 c1_i32_249
  let v469 : Index := Scalar.indexCast v462
  ![v468.toNat, v469.toNat]
def k0_off117 (v466 : BitVec 32) : Fin 3 → Nat :=
  let v471 : Index := Scalar.indexCast v466
  let c0_252 : Index := 0#32
  let c0_253 : Index := 0#32
  ![v471.toNat, 0, 0]

def k0_chk39 (v466 : BitVec 32) : Prop :=
  (∀ a, (k0_off117 v466) a + S1x64x64.size a ≤ S1024x64x64.size a)
instance k0_chk39.dec : ∀ (v466 : BitVec 32), Decidable (k0_chk39 v466) := fun v466 => decidable_of_iff' _ (Iff.of_eq (k0_chk39.eq_1 v466))
theorem k0_off117_inb : ∀ (v466 : BitVec 32) (k0_hw39 : k0_chk39 v466), ∀ a, (k0_off117 v466) a + S1x64x64.size a ≤ S1024x64x64.size a := fun v466 k0_hw39 => k0_hw39

def k0_off118 (v470 : BitVec 32) : Fin 3 → Nat :=
  let v474 : Index := Scalar.indexCast v470
  let c0_254 : Index := 0#32
  let c0_255 : Index := 0#32
  ![v474.toNat, 0, 0]

def k0_chk40 (v470 : BitVec 32) : Prop :=
  (∀ a, (k0_off118 v470) a + S1x64x64.size a ≤ S1024x64x64.size a)
instance k0_chk40.dec : ∀ (v470 : BitVec 32), Decidable (k0_chk40 v470) := fun v470 => decidable_of_iff' _ (Iff.of_eq (k0_chk40.eq_1 v470))
theorem k0_off118_inb : ∀ (v470 : BitVec 32) (k0_hw40 : k0_chk40 v470), ∀ a, (k0_off118 v470) a + S1x64x64.size a ≤ S1024x64x64.size a := fun v470 k0_hw40 => k0_hw40

def k0_off119 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_256 : BitVec 32 := 0#32
  let c0_i32_257 : BitVec 32 := 0#32
  ![v21.toNat, 0, 0]
def k0_off120 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 128, 384]
def k0_off121 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_263 : BitVec 32 := 2#32
  let v486 : BitVec 32 := Scalar.addi v22 c2_i32_263
  let v487 : Index := Scalar.indexCast v486
  let arg0 : BitVec 32 := BitVec.ofNat 32 (i 0).val
  let c16_i32 : BitVec 32 := 16#32
  let v0 : BitVec 32 := Scalar.muli arg0 c16_i32
  let c8_i32_260 : BitVec 32 := 8#32
  let v483 : BitVec 32 := Scalar.addi v0 c8_i32_260
  let v488 : Index := Scalar.indexCast v483
  ![v487.toNat, v488.toNat]
def k0_off122 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_264 : BitVec 32 := 2#32
  let v490 : BitVec 32 := Scalar.addi v22 c2_i32_264
  let v491 : Index := Scalar.indexCast v490
  let arg0 : BitVec 32 := BitVec.ofNat 32 (i 0).val
  let c16_i32 : BitVec 32 := 16#32
  let v0 : BitVec 32 := Scalar.muli arg0 c16_i32
  let c8_i32_261 : BitVec 32 := 8#32
  let v484 : BitVec 32 := Scalar.addi v0 c8_i32_261
  let c1_i32_262 : BitVec 32 := 1#32
  let v485 : BitVec 32 := Scalar.addi v484 c1_i32_262
  let v492 : Index := Scalar.indexCast v485
  ![v491.toNat, v492.toNat]
def k0_off123 (v489 : BitVec 32) : Fin 3 → Nat :=
  let v494 : Index := Scalar.indexCast v489
  let c0_265 : Index := 0#32
  let c0_266 : Index := 0#32
  ![v494.toNat, 0, 0]

def k0_chk41 (v489 : BitVec 32) : Prop :=
  (∀ a, (k0_off123 v489) a + S1x64x64.size a ≤ S1024x64x64.size a)
instance k0_chk41.dec : ∀ (v489 : BitVec 32), Decidable (k0_chk41 v489) := fun v489 => decidable_of_iff' _ (Iff.of_eq (k0_chk41.eq_1 v489))
theorem k0_off123_inb : ∀ (v489 : BitVec 32) (k0_hw41 : k0_chk41 v489), ∀ a, (k0_off123 v489) a + S1x64x64.size a ≤ S1024x64x64.size a := fun v489 k0_hw41 => k0_hw41

def k0_off124 (v493 : BitVec 32) : Fin 3 → Nat :=
  let v497 : Index := Scalar.indexCast v493
  let c0_267 : Index := 0#32
  let c0_268 : Index := 0#32
  ![v497.toNat, 0, 0]

def k0_chk42 (v493 : BitVec 32) : Prop :=
  (∀ a, (k0_off124 v493) a + S1x64x64.size a ≤ S1024x64x64.size a)
instance k0_chk42.dec : ∀ (v493 : BitVec 32), Decidable (k0_chk42 v493) := fun v493 => decidable_of_iff' _ (Iff.of_eq (k0_chk42.eq_1 v493))
theorem k0_off124_inb : ∀ (v493 : BitVec 32) (k0_hw42 : k0_chk42 v493), ∀ a, (k0_off124 v493) a + S1x64x64.size a ≤ S1024x64x64.size a := fun v493 k0_hw42 => k0_hw42

def k0_off125 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_269 : BitVec 32 := 0#32
  let c0_i32_270 : BitVec 32 := 0#32
  ![v21.toNat, 0, 0]
def k0_off126 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 128, 512]
def k0_off127 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_276 : BitVec 32 := 2#32
  let v509 : BitVec 32 := Scalar.addi v22 c2_i32_276
  let v510 : Index := Scalar.indexCast v509
  let arg0 : BitVec 32 := BitVec.ofNat 32 (i 0).val
  let c16_i32 : BitVec 32 := 16#32
  let v0 : BitVec 32 := Scalar.muli arg0 c16_i32
  let c10_i32_273 : BitVec 32 := 10#32
  let v506 : BitVec 32 := Scalar.addi v0 c10_i32_273
  let v511 : Index := Scalar.indexCast v506
  ![v510.toNat, v511.toNat]
def k0_off128 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_277 : BitVec 32 := 2#32
  let v513 : BitVec 32 := Scalar.addi v22 c2_i32_277
  let v514 : Index := Scalar.indexCast v513
  let arg0 : BitVec 32 := BitVec.ofNat 32 (i 0).val
  let c16_i32 : BitVec 32 := 16#32
  let v0 : BitVec 32 := Scalar.muli arg0 c16_i32
  let c10_i32_274 : BitVec 32 := 10#32
  let v507 : BitVec 32 := Scalar.addi v0 c10_i32_274
  let c1_i32_275 : BitVec 32 := 1#32
  let v508 : BitVec 32 := Scalar.addi v507 c1_i32_275
  let v515 : Index := Scalar.indexCast v508
  ![v514.toNat, v515.toNat]
def k0_off129 (v512 : BitVec 32) : Fin 3 → Nat :=
  let v517 : Index := Scalar.indexCast v512
  let c0_278 : Index := 0#32
  let c0_279 : Index := 0#32
  ![v517.toNat, 0, 0]

def k0_chk43 (v512 : BitVec 32) : Prop :=
  (∀ a, (k0_off129 v512) a + S1x64x64.size a ≤ S1024x64x64.size a)
instance k0_chk43.dec : ∀ (v512 : BitVec 32), Decidable (k0_chk43 v512) := fun v512 => decidable_of_iff' _ (Iff.of_eq (k0_chk43.eq_1 v512))
theorem k0_off129_inb : ∀ (v512 : BitVec 32) (k0_hw43 : k0_chk43 v512), ∀ a, (k0_off129 v512) a + S1x64x64.size a ≤ S1024x64x64.size a := fun v512 k0_hw43 => k0_hw43

def k0_off130 (v516 : BitVec 32) : Fin 3 → Nat :=
  let v520 : Index := Scalar.indexCast v516
  let c0_280 : Index := 0#32
  let c0_281 : Index := 0#32
  ![v520.toNat, 0, 0]

def k0_chk44 (v516 : BitVec 32) : Prop :=
  (∀ a, (k0_off130 v516) a + S1x64x64.size a ≤ S1024x64x64.size a)
instance k0_chk44.dec : ∀ (v516 : BitVec 32), Decidable (k0_chk44 v516) := fun v516 => decidable_of_iff' _ (Iff.of_eq (k0_chk44.eq_1 v516))
theorem k0_off130_inb : ∀ (v516 : BitVec 32) (k0_hw44 : k0_chk44 v516), ∀ a, (k0_off130 v516) a + S1x64x64.size a ≤ S1024x64x64.size a := fun v516 k0_hw44 => k0_hw44

def k0_off131 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_282 : BitVec 32 := 0#32
  let c0_i32_283 : BitVec 32 := 0#32
  ![v21.toNat, 0, 0]
def k0_off132 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 128, 640]
def k0_off133 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_289 : BitVec 32 := 2#32
  let v532 : BitVec 32 := Scalar.addi v22 c2_i32_289
  let v533 : Index := Scalar.indexCast v532
  let arg0 : BitVec 32 := BitVec.ofNat 32 (i 0).val
  let c16_i32 : BitVec 32 := 16#32
  let v0 : BitVec 32 := Scalar.muli arg0 c16_i32
  let c12_i32_286 : BitVec 32 := 12#32
  let v529 : BitVec 32 := Scalar.addi v0 c12_i32_286
  let v534 : Index := Scalar.indexCast v529
  ![v533.toNat, v534.toNat]
def k0_off134 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_290 : BitVec 32 := 2#32
  let v536 : BitVec 32 := Scalar.addi v22 c2_i32_290
  let v537 : Index := Scalar.indexCast v536
  let arg0 : BitVec 32 := BitVec.ofNat 32 (i 0).val
  let c16_i32 : BitVec 32 := 16#32
  let v0 : BitVec 32 := Scalar.muli arg0 c16_i32
  let c12_i32_287 : BitVec 32 := 12#32
  let v530 : BitVec 32 := Scalar.addi v0 c12_i32_287
  let c1_i32_288 : BitVec 32 := 1#32
  let v531 : BitVec 32 := Scalar.addi v530 c1_i32_288
  let v538 : Index := Scalar.indexCast v531
  ![v537.toNat, v538.toNat]
def k0_off135 (v535 : BitVec 32) : Fin 3 → Nat :=
  let v540 : Index := Scalar.indexCast v535
  let c0_291 : Index := 0#32
  let c0_292 : Index := 0#32
  ![v540.toNat, 0, 0]

def k0_chk45 (v535 : BitVec 32) : Prop :=
  (∀ a, (k0_off135 v535) a + S1x64x64.size a ≤ S1024x64x64.size a)
instance k0_chk45.dec : ∀ (v535 : BitVec 32), Decidable (k0_chk45 v535) := fun v535 => decidable_of_iff' _ (Iff.of_eq (k0_chk45.eq_1 v535))
theorem k0_off135_inb : ∀ (v535 : BitVec 32) (k0_hw45 : k0_chk45 v535), ∀ a, (k0_off135 v535) a + S1x64x64.size a ≤ S1024x64x64.size a := fun v535 k0_hw45 => k0_hw45

def k0_off136 (v539 : BitVec 32) : Fin 3 → Nat :=
  let v543 : Index := Scalar.indexCast v539
  let c0_293 : Index := 0#32
  let c0_294 : Index := 0#32
  ![v543.toNat, 0, 0]

def k0_chk46 (v539 : BitVec 32) : Prop :=
  (∀ a, (k0_off136 v539) a + S1x64x64.size a ≤ S1024x64x64.size a)
instance k0_chk46.dec : ∀ (v539 : BitVec 32), Decidable (k0_chk46 v539) := fun v539 => decidable_of_iff' _ (Iff.of_eq (k0_chk46.eq_1 v539))
theorem k0_off136_inb : ∀ (v539 : BitVec 32) (k0_hw46 : k0_chk46 v539), ∀ a, (k0_off136 v539) a + S1x64x64.size a ≤ S1024x64x64.size a := fun v539 k0_hw46 => k0_hw46

def k0_off137 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_295 : BitVec 32 := 0#32
  let c0_i32_296 : BitVec 32 := 0#32
  ![v21.toNat, 0, 0]
def k0_off138 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 128, 768]
def k0_off139 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_302 : BitVec 32 := 2#32
  let v555 : BitVec 32 := Scalar.addi v22 c2_i32_302
  let v556 : Index := Scalar.indexCast v555
  let arg0 : BitVec 32 := BitVec.ofNat 32 (i 0).val
  let c16_i32 : BitVec 32 := 16#32
  let v0 : BitVec 32 := Scalar.muli arg0 c16_i32
  let c14_i32_299 : BitVec 32 := 14#32
  let v552 : BitVec 32 := Scalar.addi v0 c14_i32_299
  let v557 : Index := Scalar.indexCast v552
  ![v556.toNat, v557.toNat]
def k0_off140 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c2_i32_303 : BitVec 32 := 2#32
  let v559 : BitVec 32 := Scalar.addi v22 c2_i32_303
  let v560 : Index := Scalar.indexCast v559
  let arg0 : BitVec 32 := BitVec.ofNat 32 (i 0).val
  let c16_i32 : BitVec 32 := 16#32
  let v0 : BitVec 32 := Scalar.muli arg0 c16_i32
  let c14_i32_300 : BitVec 32 := 14#32
  let v553 : BitVec 32 := Scalar.addi v0 c14_i32_300
  let c1_i32_301 : BitVec 32 := 1#32
  let v554 : BitVec 32 := Scalar.addi v553 c1_i32_301
  let v561 : Index := Scalar.indexCast v554
  ![v560.toNat, v561.toNat]
def k0_off141 (v558 : BitVec 32) : Fin 3 → Nat :=
  let v563 : Index := Scalar.indexCast v558
  let c0_304 : Index := 0#32
  let c0_305 : Index := 0#32
  ![v563.toNat, 0, 0]

def k0_chk47 (v558 : BitVec 32) : Prop :=
  (∀ a, (k0_off141 v558) a + S1x64x64.size a ≤ S1024x64x64.size a)
instance k0_chk47.dec : ∀ (v558 : BitVec 32), Decidable (k0_chk47 v558) := fun v558 => decidable_of_iff' _ (Iff.of_eq (k0_chk47.eq_1 v558))
theorem k0_off141_inb : ∀ (v558 : BitVec 32) (k0_hw47 : k0_chk47 v558), ∀ a, (k0_off141 v558) a + S1x64x64.size a ≤ S1024x64x64.size a := fun v558 k0_hw47 => k0_hw47

def k0_off142 (v562 : BitVec 32) : Fin 3 → Nat :=
  let v566 : Index := Scalar.indexCast v562
  let c0_306 : Index := 0#32
  let c0_307 : Index := 0#32
  ![v566.toNat, 0, 0]

def k0_chk48 (v562 : BitVec 32) : Prop :=
  (∀ a, (k0_off142 v562) a + S1x64x64.size a ≤ S1024x64x64.size a)
instance k0_chk48.dec : ∀ (v562 : BitVec 32), Decidable (k0_chk48 v562) := fun v562 => decidable_of_iff' _ (Iff.of_eq (k0_chk48.eq_1 v562))
theorem k0_off142_inb : ∀ (v562 : BitVec 32) (k0_hw48 : k0_chk48 v562), ∀ a, (k0_off142 v562) a + S1x64x64.size a ≤ S1024x64x64.size a := fun v562 k0_hw48 => k0_hw48

def k0_off143 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_308 : BitVec 32 := 0#32
  let c0_i32_309 : BitVec 32 := 0#32
  ![v21.toNat, 0, 0]
def k0_off144 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 128, 896]
def k0_off145 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32 : BitVec 32 := 3#32
  let v578 : BitVec 32 := Scalar.addi v22 c3_i32
  let v579 : Index := Scalar.indexCast v578
  let arg0 : BitVec 32 := BitVec.ofNat 32 (i 0).val
  let c16_i32 : BitVec 32 := 16#32
  let v0 : BitVec 32 := Scalar.muli arg0 c16_i32
  let c0_i32_312 : BitVec 32 := 0#32
  let v575 : BitVec 32 := Scalar.addi v0 c0_i32_312
  let v580 : Index := Scalar.indexCast v575
  ![v579.toNat, v580.toNat]
def k0_off146 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_315 : BitVec 32 := 3#32
  let v582 : BitVec 32 := Scalar.addi v22 c3_i32_315
  let v583 : Index := Scalar.indexCast v582
  let arg0 : BitVec 32 := BitVec.ofNat 32 (i 0).val
  let c16_i32 : BitVec 32 := 16#32
  let v0 : BitVec 32 := Scalar.muli arg0 c16_i32
  let c0_i32_313 : BitVec 32 := 0#32
  let v576 : BitVec 32 := Scalar.addi v0 c0_i32_313
  let c1_i32_314 : BitVec 32 := 1#32
  let v577 : BitVec 32 := Scalar.addi v576 c1_i32_314
  let v584 : Index := Scalar.indexCast v577
  ![v583.toNat, v584.toNat]
def k0_off147 (v581 : BitVec 32) : Fin 3 → Nat :=
  let v586 : Index := Scalar.indexCast v581
  let c0_316 : Index := 0#32
  let c0_317 : Index := 0#32
  ![v586.toNat, 0, 0]

def k0_chk49 (v581 : BitVec 32) : Prop :=
  (∀ a, (k0_off147 v581) a + S1x64x64.size a ≤ S1024x64x64.size a)
instance k0_chk49.dec : ∀ (v581 : BitVec 32), Decidable (k0_chk49 v581) := fun v581 => decidable_of_iff' _ (Iff.of_eq (k0_chk49.eq_1 v581))
theorem k0_off147_inb : ∀ (v581 : BitVec 32) (k0_hw49 : k0_chk49 v581), ∀ a, (k0_off147 v581) a + S1x64x64.size a ≤ S1024x64x64.size a := fun v581 k0_hw49 => k0_hw49

def k0_off148 (v585 : BitVec 32) : Fin 3 → Nat :=
  let v589 : Index := Scalar.indexCast v585
  let c0_318 : Index := 0#32
  let c0_319 : Index := 0#32
  ![v589.toNat, 0, 0]

def k0_chk50 (v585 : BitVec 32) : Prop :=
  (∀ a, (k0_off148 v585) a + S1x64x64.size a ≤ S1024x64x64.size a)
instance k0_chk50.dec : ∀ (v585 : BitVec 32), Decidable (k0_chk50 v585) := fun v585 => decidable_of_iff' _ (Iff.of_eq (k0_chk50.eq_1 v585))
theorem k0_off148_inb : ∀ (v585 : BitVec 32) (k0_hw50 : k0_chk50 v585), ∀ a, (k0_off148 v585) a + S1x64x64.size a ≤ S1024x64x64.size a := fun v585 k0_hw50 => k0_hw50

def k0_off149 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_320 : BitVec 32 := 0#32
  let c0_i32_321 : BitVec 32 := 0#32
  ![v21.toNat, 0, 0]
def k0_off150 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_321 : BitVec 32 := 0#32
  ![v21.toNat, 192, 0]
def k0_off151 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_326 : BitVec 32 := 3#32
  let v601 : BitVec 32 := Scalar.addi v22 c3_i32_326
  let v602 : Index := Scalar.indexCast v601
  let arg0 : BitVec 32 := BitVec.ofNat 32 (i 0).val
  let c16_i32 : BitVec 32 := 16#32
  let v0 : BitVec 32 := Scalar.muli arg0 c16_i32
  let c2_i32_323 : BitVec 32 := 2#32
  let v598 : BitVec 32 := Scalar.addi v0 c2_i32_323
  let v603 : Index := Scalar.indexCast v598
  ![v602.toNat, v603.toNat]
def k0_off152 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_327 : BitVec 32 := 3#32
  let v605 : BitVec 32 := Scalar.addi v22 c3_i32_327
  let v606 : Index := Scalar.indexCast v605
  let arg0 : BitVec 32 := BitVec.ofNat 32 (i 0).val
  let c16_i32 : BitVec 32 := 16#32
  let v0 : BitVec 32 := Scalar.muli arg0 c16_i32
  let c2_i32_324 : BitVec 32 := 2#32
  let v599 : BitVec 32 := Scalar.addi v0 c2_i32_324
  let c1_i32_325 : BitVec 32 := 1#32
  let v600 : BitVec 32 := Scalar.addi v599 c1_i32_325
  let v607 : Index := Scalar.indexCast v600
  ![v606.toNat, v607.toNat]
def k0_off153 (v604 : BitVec 32) : Fin 3 → Nat :=
  let v609 : Index := Scalar.indexCast v604
  let c0_328 : Index := 0#32
  let c0_329 : Index := 0#32
  ![v609.toNat, 0, 0]

def k0_chk51 (v604 : BitVec 32) : Prop :=
  (∀ a, (k0_off153 v604) a + S1x64x64.size a ≤ S1024x64x64.size a)
instance k0_chk51.dec : ∀ (v604 : BitVec 32), Decidable (k0_chk51 v604) := fun v604 => decidable_of_iff' _ (Iff.of_eq (k0_chk51.eq_1 v604))
theorem k0_off153_inb : ∀ (v604 : BitVec 32) (k0_hw51 : k0_chk51 v604), ∀ a, (k0_off153 v604) a + S1x64x64.size a ≤ S1024x64x64.size a := fun v604 k0_hw51 => k0_hw51

def k0_off154 (v608 : BitVec 32) : Fin 3 → Nat :=
  let v612 : Index := Scalar.indexCast v608
  let c0_330 : Index := 0#32
  let c0_331 : Index := 0#32
  ![v612.toNat, 0, 0]

def k0_chk52 (v608 : BitVec 32) : Prop :=
  (∀ a, (k0_off154 v608) a + S1x64x64.size a ≤ S1024x64x64.size a)
instance k0_chk52.dec : ∀ (v608 : BitVec 32), Decidable (k0_chk52 v608) := fun v608 => decidable_of_iff' _ (Iff.of_eq (k0_chk52.eq_1 v608))
theorem k0_off154_inb : ∀ (v608 : BitVec 32) (k0_hw52 : k0_chk52 v608), ∀ a, (k0_off154 v608) a + S1x64x64.size a ≤ S1024x64x64.size a := fun v608 k0_hw52 => k0_hw52

def k0_off155 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_332 : BitVec 32 := 0#32
  let c0_i32_333 : BitVec 32 := 0#32
  ![v21.toNat, 0, 0]
def k0_off156 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 192, 128]
def k0_off157 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_339 : BitVec 32 := 3#32
  let v624 : BitVec 32 := Scalar.addi v22 c3_i32_339
  let v625 : Index := Scalar.indexCast v624
  let arg0 : BitVec 32 := BitVec.ofNat 32 (i 0).val
  let c16_i32 : BitVec 32 := 16#32
  let v0 : BitVec 32 := Scalar.muli arg0 c16_i32
  let c4_i32_336 : BitVec 32 := 4#32
  let v621 : BitVec 32 := Scalar.addi v0 c4_i32_336
  let v626 : Index := Scalar.indexCast v621
  ![v625.toNat, v626.toNat]
def k0_off158 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_340 : BitVec 32 := 3#32
  let v628 : BitVec 32 := Scalar.addi v22 c3_i32_340
  let v629 : Index := Scalar.indexCast v628
  let arg0 : BitVec 32 := BitVec.ofNat 32 (i 0).val
  let c16_i32 : BitVec 32 := 16#32
  let v0 : BitVec 32 := Scalar.muli arg0 c16_i32
  let c4_i32_337 : BitVec 32 := 4#32
  let v622 : BitVec 32 := Scalar.addi v0 c4_i32_337
  let c1_i32_338 : BitVec 32 := 1#32
  let v623 : BitVec 32 := Scalar.addi v622 c1_i32_338
  let v630 : Index := Scalar.indexCast v623
  ![v629.toNat, v630.toNat]
def k0_off159 (v627 : BitVec 32) : Fin 3 → Nat :=
  let v632 : Index := Scalar.indexCast v627
  let c0_341 : Index := 0#32
  let c0_342 : Index := 0#32
  ![v632.toNat, 0, 0]

def k0_chk53 (v627 : BitVec 32) : Prop :=
  (∀ a, (k0_off159 v627) a + S1x64x64.size a ≤ S1024x64x64.size a)
instance k0_chk53.dec : ∀ (v627 : BitVec 32), Decidable (k0_chk53 v627) := fun v627 => decidable_of_iff' _ (Iff.of_eq (k0_chk53.eq_1 v627))
theorem k0_off159_inb : ∀ (v627 : BitVec 32) (k0_hw53 : k0_chk53 v627), ∀ a, (k0_off159 v627) a + S1x64x64.size a ≤ S1024x64x64.size a := fun v627 k0_hw53 => k0_hw53

def k0_off160 (v631 : BitVec 32) : Fin 3 → Nat :=
  let v635 : Index := Scalar.indexCast v631
  let c0_343 : Index := 0#32
  let c0_344 : Index := 0#32
  ![v635.toNat, 0, 0]

def k0_chk54 (v631 : BitVec 32) : Prop :=
  (∀ a, (k0_off160 v631) a + S1x64x64.size a ≤ S1024x64x64.size a)
instance k0_chk54.dec : ∀ (v631 : BitVec 32), Decidable (k0_chk54 v631) := fun v631 => decidable_of_iff' _ (Iff.of_eq (k0_chk54.eq_1 v631))
theorem k0_off160_inb : ∀ (v631 : BitVec 32) (k0_hw54 : k0_chk54 v631), ∀ a, (k0_off160 v631) a + S1x64x64.size a ≤ S1024x64x64.size a := fun v631 k0_hw54 => k0_hw54

def k0_off161 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_345 : BitVec 32 := 0#32
  let c0_i32_346 : BitVec 32 := 0#32
  ![v21.toNat, 0, 0]
def k0_off162 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 192, 256]
def k0_off163 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_352 : BitVec 32 := 3#32
  let v647 : BitVec 32 := Scalar.addi v22 c3_i32_352
  let v648 : Index := Scalar.indexCast v647
  let arg0 : BitVec 32 := BitVec.ofNat 32 (i 0).val
  let c16_i32 : BitVec 32 := 16#32
  let v0 : BitVec 32 := Scalar.muli arg0 c16_i32
  let c6_i32_349 : BitVec 32 := 6#32
  let v644 : BitVec 32 := Scalar.addi v0 c6_i32_349
  let v649 : Index := Scalar.indexCast v644
  ![v648.toNat, v649.toNat]
def k0_off164 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_353 : BitVec 32 := 3#32
  let v651 : BitVec 32 := Scalar.addi v22 c3_i32_353
  let v652 : Index := Scalar.indexCast v651
  let arg0 : BitVec 32 := BitVec.ofNat 32 (i 0).val
  let c16_i32 : BitVec 32 := 16#32
  let v0 : BitVec 32 := Scalar.muli arg0 c16_i32
  let c6_i32_350 : BitVec 32 := 6#32
  let v645 : BitVec 32 := Scalar.addi v0 c6_i32_350
  let c1_i32_351 : BitVec 32 := 1#32
  let v646 : BitVec 32 := Scalar.addi v645 c1_i32_351
  let v653 : Index := Scalar.indexCast v646
  ![v652.toNat, v653.toNat]
def k0_off165 (v650 : BitVec 32) : Fin 3 → Nat :=
  let v655 : Index := Scalar.indexCast v650
  let c0_354 : Index := 0#32
  let c0_355 : Index := 0#32
  ![v655.toNat, 0, 0]

def k0_chk55 (v650 : BitVec 32) : Prop :=
  (∀ a, (k0_off165 v650) a + S1x64x64.size a ≤ S1024x64x64.size a)
instance k0_chk55.dec : ∀ (v650 : BitVec 32), Decidable (k0_chk55 v650) := fun v650 => decidable_of_iff' _ (Iff.of_eq (k0_chk55.eq_1 v650))
theorem k0_off165_inb : ∀ (v650 : BitVec 32) (k0_hw55 : k0_chk55 v650), ∀ a, (k0_off165 v650) a + S1x64x64.size a ≤ S1024x64x64.size a := fun v650 k0_hw55 => k0_hw55

def k0_off166 (v654 : BitVec 32) : Fin 3 → Nat :=
  let v658 : Index := Scalar.indexCast v654
  let c0_356 : Index := 0#32
  let c0_357 : Index := 0#32
  ![v658.toNat, 0, 0]

def k0_chk56 (v654 : BitVec 32) : Prop :=
  (∀ a, (k0_off166 v654) a + S1x64x64.size a ≤ S1024x64x64.size a)
instance k0_chk56.dec : ∀ (v654 : BitVec 32), Decidable (k0_chk56 v654) := fun v654 => decidable_of_iff' _ (Iff.of_eq (k0_chk56.eq_1 v654))
theorem k0_off166_inb : ∀ (v654 : BitVec 32) (k0_hw56 : k0_chk56 v654), ∀ a, (k0_off166 v654) a + S1x64x64.size a ≤ S1024x64x64.size a := fun v654 k0_hw56 => k0_hw56

def k0_off167 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_358 : BitVec 32 := 0#32
  let c0_i32_359 : BitVec 32 := 0#32
  ![v21.toNat, 0, 0]
def k0_off168 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 192, 384]
def k0_off169 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_365 : BitVec 32 := 3#32
  let v670 : BitVec 32 := Scalar.addi v22 c3_i32_365
  let v671 : Index := Scalar.indexCast v670
  let arg0 : BitVec 32 := BitVec.ofNat 32 (i 0).val
  let c16_i32 : BitVec 32 := 16#32
  let v0 : BitVec 32 := Scalar.muli arg0 c16_i32
  let c8_i32_362 : BitVec 32 := 8#32
  let v667 : BitVec 32 := Scalar.addi v0 c8_i32_362
  let v672 : Index := Scalar.indexCast v667
  ![v671.toNat, v672.toNat]
def k0_off170 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_366 : BitVec 32 := 3#32
  let v674 : BitVec 32 := Scalar.addi v22 c3_i32_366
  let v675 : Index := Scalar.indexCast v674
  let arg0 : BitVec 32 := BitVec.ofNat 32 (i 0).val
  let c16_i32 : BitVec 32 := 16#32
  let v0 : BitVec 32 := Scalar.muli arg0 c16_i32
  let c8_i32_363 : BitVec 32 := 8#32
  let v668 : BitVec 32 := Scalar.addi v0 c8_i32_363
  let c1_i32_364 : BitVec 32 := 1#32
  let v669 : BitVec 32 := Scalar.addi v668 c1_i32_364
  let v676 : Index := Scalar.indexCast v669
  ![v675.toNat, v676.toNat]
def k0_off171 (v673 : BitVec 32) : Fin 3 → Nat :=
  let v678 : Index := Scalar.indexCast v673
  let c0_367 : Index := 0#32
  let c0_368 : Index := 0#32
  ![v678.toNat, 0, 0]

def k0_chk57 (v673 : BitVec 32) : Prop :=
  (∀ a, (k0_off171 v673) a + S1x64x64.size a ≤ S1024x64x64.size a)
instance k0_chk57.dec : ∀ (v673 : BitVec 32), Decidable (k0_chk57 v673) := fun v673 => decidable_of_iff' _ (Iff.of_eq (k0_chk57.eq_1 v673))
theorem k0_off171_inb : ∀ (v673 : BitVec 32) (k0_hw57 : k0_chk57 v673), ∀ a, (k0_off171 v673) a + S1x64x64.size a ≤ S1024x64x64.size a := fun v673 k0_hw57 => k0_hw57

def k0_off172 (v677 : BitVec 32) : Fin 3 → Nat :=
  let v681 : Index := Scalar.indexCast v677
  let c0_369 : Index := 0#32
  let c0_370 : Index := 0#32
  ![v681.toNat, 0, 0]

def k0_chk58 (v677 : BitVec 32) : Prop :=
  (∀ a, (k0_off172 v677) a + S1x64x64.size a ≤ S1024x64x64.size a)
instance k0_chk58.dec : ∀ (v677 : BitVec 32), Decidable (k0_chk58 v677) := fun v677 => decidable_of_iff' _ (Iff.of_eq (k0_chk58.eq_1 v677))
theorem k0_off172_inb : ∀ (v677 : BitVec 32) (k0_hw58 : k0_chk58 v677), ∀ a, (k0_off172 v677) a + S1x64x64.size a ≤ S1024x64x64.size a := fun v677 k0_hw58 => k0_hw58

def k0_off173 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_371 : BitVec 32 := 0#32
  let c0_i32_372 : BitVec 32 := 0#32
  ![v21.toNat, 0, 0]
def k0_off174 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 192, 512]
def k0_off175 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_378 : BitVec 32 := 3#32
  let v693 : BitVec 32 := Scalar.addi v22 c3_i32_378
  let v694 : Index := Scalar.indexCast v693
  let arg0 : BitVec 32 := BitVec.ofNat 32 (i 0).val
  let c16_i32 : BitVec 32 := 16#32
  let v0 : BitVec 32 := Scalar.muli arg0 c16_i32
  let c10_i32_375 : BitVec 32 := 10#32
  let v690 : BitVec 32 := Scalar.addi v0 c10_i32_375
  let v695 : Index := Scalar.indexCast v690
  ![v694.toNat, v695.toNat]
def k0_off176 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_379 : BitVec 32 := 3#32
  let v697 : BitVec 32 := Scalar.addi v22 c3_i32_379
  let v698 : Index := Scalar.indexCast v697
  let arg0 : BitVec 32 := BitVec.ofNat 32 (i 0).val
  let c16_i32 : BitVec 32 := 16#32
  let v0 : BitVec 32 := Scalar.muli arg0 c16_i32
  let c10_i32_376 : BitVec 32 := 10#32
  let v691 : BitVec 32 := Scalar.addi v0 c10_i32_376
  let c1_i32_377 : BitVec 32 := 1#32
  let v692 : BitVec 32 := Scalar.addi v691 c1_i32_377
  let v699 : Index := Scalar.indexCast v692
  ![v698.toNat, v699.toNat]
def k0_off177 (v696 : BitVec 32) : Fin 3 → Nat :=
  let v701 : Index := Scalar.indexCast v696
  let c0_380 : Index := 0#32
  let c0_381 : Index := 0#32
  ![v701.toNat, 0, 0]

def k0_chk59 (v696 : BitVec 32) : Prop :=
  (∀ a, (k0_off177 v696) a + S1x64x64.size a ≤ S1024x64x64.size a)
instance k0_chk59.dec : ∀ (v696 : BitVec 32), Decidable (k0_chk59 v696) := fun v696 => decidable_of_iff' _ (Iff.of_eq (k0_chk59.eq_1 v696))
theorem k0_off177_inb : ∀ (v696 : BitVec 32) (k0_hw59 : k0_chk59 v696), ∀ a, (k0_off177 v696) a + S1x64x64.size a ≤ S1024x64x64.size a := fun v696 k0_hw59 => k0_hw59

def k0_off178 (v700 : BitVec 32) : Fin 3 → Nat :=
  let v704 : Index := Scalar.indexCast v700
  let c0_382 : Index := 0#32
  let c0_383 : Index := 0#32
  ![v704.toNat, 0, 0]

def k0_chk60 (v700 : BitVec 32) : Prop :=
  (∀ a, (k0_off178 v700) a + S1x64x64.size a ≤ S1024x64x64.size a)
instance k0_chk60.dec : ∀ (v700 : BitVec 32), Decidable (k0_chk60 v700) := fun v700 => decidable_of_iff' _ (Iff.of_eq (k0_chk60.eq_1 v700))
theorem k0_off178_inb : ∀ (v700 : BitVec 32) (k0_hw60 : k0_chk60 v700), ∀ a, (k0_off178 v700) a + S1x64x64.size a ≤ S1024x64x64.size a := fun v700 k0_hw60 => k0_hw60

def k0_off179 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_384 : BitVec 32 := 0#32
  let c0_i32_385 : BitVec 32 := 0#32
  ![v21.toNat, 0, 0]
def k0_off180 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 192, 640]
def k0_off181 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_391 : BitVec 32 := 3#32
  let v716 : BitVec 32 := Scalar.addi v22 c3_i32_391
  let v717 : Index := Scalar.indexCast v716
  let arg0 : BitVec 32 := BitVec.ofNat 32 (i 0).val
  let c16_i32 : BitVec 32 := 16#32
  let v0 : BitVec 32 := Scalar.muli arg0 c16_i32
  let c12_i32_388 : BitVec 32 := 12#32
  let v713 : BitVec 32 := Scalar.addi v0 c12_i32_388
  let v718 : Index := Scalar.indexCast v713
  ![v717.toNat, v718.toNat]
def k0_off182 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_392 : BitVec 32 := 3#32
  let v720 : BitVec 32 := Scalar.addi v22 c3_i32_392
  let v721 : Index := Scalar.indexCast v720
  let arg0 : BitVec 32 := BitVec.ofNat 32 (i 0).val
  let c16_i32 : BitVec 32 := 16#32
  let v0 : BitVec 32 := Scalar.muli arg0 c16_i32
  let c12_i32_389 : BitVec 32 := 12#32
  let v714 : BitVec 32 := Scalar.addi v0 c12_i32_389
  let c1_i32_390 : BitVec 32 := 1#32
  let v715 : BitVec 32 := Scalar.addi v714 c1_i32_390
  let v722 : Index := Scalar.indexCast v715
  ![v721.toNat, v722.toNat]
def k0_off183 (v719 : BitVec 32) : Fin 3 → Nat :=
  let v724 : Index := Scalar.indexCast v719
  let c0_393 : Index := 0#32
  let c0_394 : Index := 0#32
  ![v724.toNat, 0, 0]

def k0_chk61 (v719 : BitVec 32) : Prop :=
  (∀ a, (k0_off183 v719) a + S1x64x64.size a ≤ S1024x64x64.size a)
instance k0_chk61.dec : ∀ (v719 : BitVec 32), Decidable (k0_chk61 v719) := fun v719 => decidable_of_iff' _ (Iff.of_eq (k0_chk61.eq_1 v719))
theorem k0_off183_inb : ∀ (v719 : BitVec 32) (k0_hw61 : k0_chk61 v719), ∀ a, (k0_off183 v719) a + S1x64x64.size a ≤ S1024x64x64.size a := fun v719 k0_hw61 => k0_hw61

def k0_off184 (v723 : BitVec 32) : Fin 3 → Nat :=
  let v727 : Index := Scalar.indexCast v723
  let c0_395 : Index := 0#32
  let c0_396 : Index := 0#32
  ![v727.toNat, 0, 0]

def k0_chk62 (v723 : BitVec 32) : Prop :=
  (∀ a, (k0_off184 v723) a + S1x64x64.size a ≤ S1024x64x64.size a)
instance k0_chk62.dec : ∀ (v723 : BitVec 32), Decidable (k0_chk62 v723) := fun v723 => decidable_of_iff' _ (Iff.of_eq (k0_chk62.eq_1 v723))
theorem k0_off184_inb : ∀ (v723 : BitVec 32) (k0_hw62 : k0_chk62 v723), ∀ a, (k0_off184 v723) a + S1x64x64.size a ≤ S1024x64x64.size a := fun v723 k0_hw62 => k0_hw62

def k0_off185 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_397 : BitVec 32 := 0#32
  let c0_i32_398 : BitVec 32 := 0#32
  ![v21.toNat, 0, 0]
def k0_off186 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 192, 768]
def k0_off187 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_404 : BitVec 32 := 3#32
  let v739 : BitVec 32 := Scalar.addi v22 c3_i32_404
  let v740 : Index := Scalar.indexCast v739
  let arg0 : BitVec 32 := BitVec.ofNat 32 (i 0).val
  let c16_i32 : BitVec 32 := 16#32
  let v0 : BitVec 32 := Scalar.muli arg0 c16_i32
  let c14_i32_401 : BitVec 32 := 14#32
  let v736 : BitVec 32 := Scalar.addi v0 c14_i32_401
  let v741 : Index := Scalar.indexCast v736
  ![v740.toNat, v741.toNat]
def k0_off188 (i : grid0.Coords) (k0_t1 : Fin k0_t1_loop.trips) : Fin 2 → Nat :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c3_i32_405 : BitVec 32 := 3#32
  let v743 : BitVec 32 := Scalar.addi v22 c3_i32_405
  let v744 : Index := Scalar.indexCast v743
  let arg0 : BitVec 32 := BitVec.ofNat 32 (i 0).val
  let c16_i32 : BitVec 32 := 16#32
  let v0 : BitVec 32 := Scalar.muli arg0 c16_i32
  let c14_i32_402 : BitVec 32 := 14#32
  let v737 : BitVec 32 := Scalar.addi v0 c14_i32_402
  let c1_i32_403 : BitVec 32 := 1#32
  let v738 : BitVec 32 := Scalar.addi v737 c1_i32_403
  let v745 : Index := Scalar.indexCast v738
  ![v744.toNat, v745.toNat]
def k0_off189 (v742 : BitVec 32) : Fin 3 → Nat :=
  let v747 : Index := Scalar.indexCast v742
  let c0_406 : Index := 0#32
  let c0_407 : Index := 0#32
  ![v747.toNat, 0, 0]

def k0_chk63 (v742 : BitVec 32) : Prop :=
  (∀ a, (k0_off189 v742) a + S1x64x64.size a ≤ S1024x64x64.size a)
instance k0_chk63.dec : ∀ (v742 : BitVec 32), Decidable (k0_chk63 v742) := fun v742 => decidable_of_iff' _ (Iff.of_eq (k0_chk63.eq_1 v742))
theorem k0_off189_inb : ∀ (v742 : BitVec 32) (k0_hw63 : k0_chk63 v742), ∀ a, (k0_off189 v742) a + S1x64x64.size a ≤ S1024x64x64.size a := fun v742 k0_hw63 => k0_hw63

def k0_off190 (v746 : BitVec 32) : Fin 3 → Nat :=
  let v750 : Index := Scalar.indexCast v746
  let c0_408 : Index := 0#32
  let c0_409 : Index := 0#32
  ![v750.toNat, 0, 0]

def k0_chk64 (v746 : BitVec 32) : Prop :=
  (∀ a, (k0_off190 v746) a + S1x64x64.size a ≤ S1024x64x64.size a)
instance k0_chk64.dec : ∀ (v746 : BitVec 32), Decidable (k0_chk64 v746) := fun v746 => decidable_of_iff' _ (Iff.of_eq (k0_chk64.eq_1 v746))
theorem k0_off190_inb : ∀ (v746 : BitVec 32) (k0_hw64 : k0_chk64 v746), ∀ a, (k0_off190 v746) a + S1x64x64.size a ≤ S1024x64x64.size a := fun v746 k0_hw64 => k0_hw64

def k0_off191 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_410 : BitVec 32 := 0#32
  let c0_i32_411 : BitVec 32 := 0#32
  ![v21.toNat, 0, 0]
def k0_off192 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  ![v21.toNat, 192, 896]
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c64_i32 : BitVec 32 := 64#32
  let v759 : BitVec 32 := Scalar.muli v22 c64_i32
  v759
def k0_off193 (k0_t1 : Fin k0_t1_loop.trips) : Fin 2 → Nat :=
  let c0_414 : Index := 0#32
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let c64_i32 : BitVec 32 := 64#32
  let v759 : BitVec 32 := Scalar.muli v22 c64_i32
  let v760 : BitVec 32 := v759
  let v761 : Index := Scalar.indexCast v760
  ![0, v761.toNat]
def k0_off194 (k0_t1 : Fin k0_t1_loop.trips) : Fin 3 → Nat :=
  let c0_i32 : BitVec 32 := 0#32
  let c1_i32 : BitVec 32 := 1#32
  let arg8 : BitVec 32 := Scf.iv c0_i32 c1_i32 k0_t1
  let c2_i32 : BitVec 32 := 2#32
  let c0_i32_8 : BitVec 32 := 0#32
  let v12 : BitVec 1 := Scalar.cmpi .eq c2_i32 c0_i32_8
  let c1_i32_9 : BitVec 32 := 1#32
  let v13 : BitVec 32 := Scalar.select v12 c1_i32_9 c2_i32
  let v14 : BitVec 32 := Scalar.remsi arg8 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v765 : Index := Scalar.indexCast v21
  let c0_417 : Index := 0#32
  let c0_418 : Index := 0#32
  ![v765.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128x128 : S_.BroadcastsInDim S128x128 (![] : Fin 0 → Fin S128x128.rank)
  bitsLt_bf16_f32 : FTy.bits .bf16 < FTy.bits .f32
  shapeCasts_S8192_S1x8192 : S8192.ShapeCasts S1x8192
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  numel1_S1x1 : S1x1.numel = 1
  h_S1x64x64 : 0 < S1x64x64.numel
  shapeCasts_S1x64x64_S64x64 : S1x64x64.ShapeCasts S64x64
  concatenates_S64x64_S64x64_S64x128_d1 : Shape.Concatenates [S64x64, S64x64] S64x128 1
  squeezes_S1x256x1024_S256x1024 : S1x256x1024.Squeezes S256x1024
  inb_S256x1024_S64x128_0_0 : ∀ a, (![0, 0] : Fin 2 → Nat) a + S64x128.size a ≤ S256x1024.size a
  h_S64x128 : 0 < S64x128.numel
  shapeCasts_S64x128_S64x128 : S64x128.ShapeCasts S64x128
  h_S1x64x128 : 0 < S1x64x128.numel
  shapeCasts_S64x128_S1x64x128 : S64x128.ShapeCasts S1x64x128
  inb_S256x1024_S64x128_0_128 : ∀ a, (![0, 128] : Fin 2 → Nat) a + S64x128.size a ≤ S256x1024.size a
  inb_S256x1024_S64x128_0_256 : ∀ a, (![0, 256] : Fin 2 → Nat) a + S64x128.size a ≤ S256x1024.size a
  inb_S256x1024_S64x128_0_384 : ∀ a, (![0, 384] : Fin 2 → Nat) a + S64x128.size a ≤ S256x1024.size a
  inb_S256x1024_S64x128_0_512 : ∀ a, (![0, 512] : Fin 2 → Nat) a + S64x128.size a ≤ S256x1024.size a
  inb_S256x1024_S64x128_0_640 : ∀ a, (![0, 640] : Fin 2 → Nat) a + S64x128.size a ≤ S256x1024.size a
  inb_S256x1024_S64x128_0_768 : ∀ a, (![0, 768] : Fin 2 → Nat) a + S64x128.size a ≤ S256x1024.size a
  inb_S256x1024_S64x128_0_896 : ∀ a, (![0, 896] : Fin 2 → Nat) a + S64x128.size a ≤ S256x1024.size a
  inb_S256x1024_S64x128_64_0 : ∀ a, (![64, 0] : Fin 2 → Nat) a + S64x128.size a ≤ S256x1024.size a
  inb_S256x1024_S64x128_64_128 : ∀ a, (![64, 128] : Fin 2 → Nat) a + S64x128.size a ≤ S256x1024.size a
  inb_S256x1024_S64x128_64_256 : ∀ a, (![64, 256] : Fin 2 → Nat) a + S64x128.size a ≤ S256x1024.size a
  inb_S256x1024_S64x128_64_384 : ∀ a, (![64, 384] : Fin 2 → Nat) a + S64x128.size a ≤ S256x1024.size a
  inb_S256x1024_S64x128_64_512 : ∀ a, (![64, 512] : Fin 2 → Nat) a + S64x128.size a ≤ S256x1024.size a
  inb_S256x1024_S64x128_64_640 : ∀ a, (![64, 640] : Fin 2 → Nat) a + S64x128.size a ≤ S256x1024.size a
  inb_S256x1024_S64x128_64_768 : ∀ a, (![64, 768] : Fin 2 → Nat) a + S64x128.size a ≤ S256x1024.size a
  inb_S256x1024_S64x128_64_896 : ∀ a, (![64, 896] : Fin 2 → Nat) a + S64x128.size a ≤ S256x1024.size a
  inb_S256x1024_S64x128_128_0 : ∀ a, (![128, 0] : Fin 2 → Nat) a + S64x128.size a ≤ S256x1024.size a
  inb_S256x1024_S64x128_128_128 : ∀ a, (![128, 128] : Fin 2 → Nat) a + S64x128.size a ≤ S256x1024.size a
  inb_S256x1024_S64x128_128_256 : ∀ a, (![128, 256] : Fin 2 → Nat) a + S64x128.size a ≤ S256x1024.size a
  inb_S256x1024_S64x128_128_384 : ∀ a, (![128, 384] : Fin 2 → Nat) a + S64x128.size a ≤ S256x1024.size a
  inb_S256x1024_S64x128_128_512 : ∀ a, (![128, 512] : Fin 2 → Nat) a + S64x128.size a ≤ S256x1024.size a
  inb_S256x1024_S64x128_128_640 : ∀ a, (![128, 640] : Fin 2 → Nat) a + S64x128.size a ≤ S256x1024.size a
  inb_S256x1024_S64x128_128_768 : ∀ a, (![128, 768] : Fin 2 → Nat) a + S64x128.size a ≤ S256x1024.size a
  inb_S256x1024_S64x128_128_896 : ∀ a, (![128, 896] : Fin 2 → Nat) a + S64x128.size a ≤ S256x1024.size a
  inb_S256x1024_S64x128_192_0 : ∀ a, (![192, 0] : Fin 2 → Nat) a + S64x128.size a ≤ S256x1024.size a
  inb_S256x1024_S64x128_192_128 : ∀ a, (![192, 128] : Fin 2 → Nat) a + S64x128.size a ≤ S256x1024.size a
  inb_S256x1024_S64x128_192_256 : ∀ a, (![192, 256] : Fin 2 → Nat) a + S64x128.size a ≤ S256x1024.size a
  inb_S256x1024_S64x128_192_384 : ∀ a, (![192, 384] : Fin 2 → Nat) a + S64x128.size a ≤ S256x1024.size a
  inb_S256x1024_S64x128_192_512 : ∀ a, (![192, 512] : Fin 2 → Nat) a + S64x128.size a ≤ S256x1024.size a
  inb_S256x1024_S64x128_192_640 : ∀ a, (![192, 640] : Fin 2 → Nat) a + S64x128.size a ≤ S256x1024.size a
  inb_S256x1024_S64x128_192_768 : ∀ a, (![192, 768] : Fin 2 → Nat) a + S64x128.size a ≤ S256x1024.size a
  inb_S256x1024_S64x128_192_896 : ∀ a, (![192, 896] : Fin 2 → Nat) a + S64x128.size a ≤ S256x1024.size a
  h_S256x256 : 0 < S256x256.numel
  shapeCasts_S256x256_S256x256 : S256x256.ShapeCasts S256x256
  h_S1x256x1024 : 0 < S1x256x1024.numel
  shapeCasts_S1x256x1024_S256x1024 : S1x256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x256_S256x1024_S256x1024_1_0_0_1_n_n_wf : DotDims.WF S256x256 S256x1024 S256x1024 [1] [0] [0] [1] [] []
  hrank0 : 0 < grid0.rank
  k0_t1_ok : k0_t1_loop.OK
  k0_off1_inb : ∀ (i : grid0.Coords) (k0_t1 : Fin k0_t1_loop.trips), ∀ a, (k0_off1 i k0_t1) a + S1x1.size a ≤ S128x128.size a
  k0_off2_inb : ∀ (i : grid0.Coords) (k0_t1 : Fin k0_t1_loop.trips), ∀ a, (k0_off2 i k0_t1) a + S1x1.size a ≤ S128x128.size a
  k0_off5_inb : ∀ k0_t1 : Fin k0_t1_loop.trips, ∀ a, (k0_off5 k0_t1) a + S1x256x1024.size a ≤ S2x256x1024.size a
  k0_off6_inb : ∀ k0_t1 : Fin k0_t1_loop.trips, ∀ a, (k0_off6 k0_t1) a + S1x64x128.size a ≤ S2x256x1024.size a
  k0_off6_packedbf16 : ∀ k0_t1 : Fin k0_t1_loop.trips, (Rect.unit (s := S2x256x1024) (k0_off6 k0_t1) S1x64x128.size (k0_off6_inb k0_t1)).PackedRows (EltTy.packing .bf16)
  k0_off7_inb : ∀ (i : grid0.Coords) (k0_t1 : Fin k0_t1_loop.trips), ∀ a, (k0_off7 i k0_t1) a + S1x1.size a ≤ S128x128.size a
  k0_off8_inb : ∀ (i : grid0.Coords) (k0_t1 : Fin k0_t1_loop.trips), ∀ a, (k0_off8 i k0_t1) a + S1x1.size a ≤ S128x128.size a
  k0_off11_inb : ∀ k0_t1 : Fin k0_t1_loop.trips, ∀ a, (k0_off11 k0_t1) a + S1x256x1024.size a ≤ S2x256x1024.size a
  k0_off12_inb : ∀ k0_t1 : Fin k0_t1_loop.trips, ∀ a, (k0_off12 k0_t1) a + S1x64x128.size a ≤ S2x256x1024.size a
  k0_off12_packedbf16 : ∀ k0_t1 : Fin k0_t1_loop.trips, (Rect.unit (s := S2x256x1024) (k0_off12 k0_t1) S1x64x128.size (k0_off12_inb k0_t1)).PackedRows (EltTy.packing .bf16)
  k0_off13_inb : ∀ (i : grid0.Coords) (k0_t1 : Fin k0_t1_loop.trips), ∀ a, (k0_off13 i k0_t1) a + S1x1.size a ≤ S128x128.size a
  k0_off14_inb : ∀ (i : grid0.Coords) (k0_t1 : Fin k0_t1_loop.trips), ∀ a, (k0_off14 i k0_t1) a + S1x1.size a ≤ S128x128.size a
  k0_off17_inb : ∀ k0_t1 : Fin k0_t1_loop.trips, ∀ a, (k0_off17 k0_t1) a + S1x256x1024.size a ≤ S2x256x1024.size a
  k0_off18_inb : ∀ k0_t1 : Fin k0_t1_loop.trips, ∀ a, (k0_off18 k0_t1) a + S1x64x128.size a ≤ S2x256x1024.size a
  k0_off18_packedbf16 : ∀ k0_t1 : Fin k0_t1_loop.trips, (Rect.unit (s := S2x256x1024) (k0_off18 k0_t1) S1x64x128.size (k0_off18_inb k0_t1)).PackedRows (EltTy.packing .bf16)
  k0_off19_inb : ∀ (i : grid0.Coords) (k0_t1 : Fin k0_t1_loop.trips), ∀ a, (k0_off19 i k0_t1) a + S1x1.size a ≤ S128x128.size a
  k0_off20_inb : ∀ (i : grid0.Coords) (k0_t1 : Fin k0_t1_loop.trips), ∀ a, (k0_off20 i k0_t1) a + S1x1.size a ≤ S128x128.size a
  k0_off23_inb : ∀ k0_t1 : Fin k0_t1_loop.trips, ∀ a, (k0_off23 k0_t1) a + S1x256x1024.size a ≤ S2x256x1024.size a
  k0_off24_inb : ∀ k0_t1 : Fin k0_t1_loop.trips, ∀ a, (k0_off24 k0_t1) a + S1x64x128.size a ≤ S2x256x1024.size a
  k0_off24_packedbf16 : ∀ k0_t1 : Fin k0_t1_loop.trips, (Rect.unit (s := S2x256x1024) (k0_off24 k0_t1) S1x64x128.size (k0_off24_inb k0_t1)).PackedRows (EltTy.packing .bf16)
  k0_off25_inb : ∀ (i : grid0.Coords) (k0_t1 : Fin k0_t1_loop.trips), ∀ a, (k0_off25 i k0_t1) a + S1x1.size a ≤ S128x128.size a
  k0_off26_inb : ∀ (i : grid0.Coords) (k0_t1 : Fin k0_t1_loop.trips), ∀ a, (k0_off26 i k0_t1) a + S1x1.size a ≤ S128x128.size a
  k0_off29_inb : ∀ k0_t1 : Fin k0_t1_loop.trips, ∀ a, (k0_off29 k0_t1) a + S1x256x1024.size a ≤ S2x256x1024.size a
  k0_off30_inb : ∀ k0_t1 : Fin k0_t1_loop.trips, ∀ a, (k0_off30 k0_t1) a + S1x64x128.size a ≤ S2x256x1024.size a
  k0_off30_packedbf16 : ∀ k0_t1 : Fin k0_t1_loop.trips, (Rect.unit (s := S2x256x1024) (k0_off30 k0_t1) S1x64x128.size (k0_off30_inb k0_t1)).PackedRows (EltTy.packing .bf16)
  k0_off31_inb : ∀ (i : grid0.Coords) (k0_t1 : Fin k0_t1_loop.trips), ∀ a, (k0_off31 i k0_t1) a + S1x1.size a ≤ S128x128.size a
  k0_off32_inb : ∀ (i : grid0.Coords) (k0_t1 : Fin k0_t1_loop.trips), ∀ a, (k0_off32 i k0_t1) a + S1x1.size a ≤ S128x128.size a
  k0_off35_inb : ∀ k0_t1 : Fin k0_t1_loop.trips, ∀ a, (k0_off35 k0_t1) a + S1x256x1024.size a ≤ S2x256x1024.size a
  k0_off36_inb : ∀ k0_t1 : Fin k0_t1_loop.trips, ∀ a, (k0_off36 k0_t1) a + S1x64x128.size a ≤ S2x256x1024.size a
  k0_off36_packedbf16 : ∀ k0_t1 : Fin k0_t1_loop.trips, (Rect.unit (s := S2x256x1024) (k0_off36 k0_t1) S1x64x128.size (k0_off36_inb k0_t1)).PackedRows (EltTy.packing .bf16)
  k0_off37_inb : ∀ (i : grid0.Coords) (k0_t1 : Fin k0_t1_loop.trips), ∀ a, (k0_off37 i k0_t1) a + S1x1.size a ≤ S128x128.size a
  k0_off38_inb : ∀ (i : grid0.Coords) (k0_t1 : Fin k0_t1_loop.trips), ∀ a, (k0_off38 i k0_t1) a + S1x1.size a ≤ S128x128.size a
  k0_off41_inb : ∀ k0_t1 : Fin k0_t1_loop.trips, ∀ a, (k0_off41 k0_t1) a + S1x256x1024.size a ≤ S2x256x1024.size a
  k0_off42_inb : ∀ k0_t1 : Fin k0_t1_loop.trips, ∀ a, (k0_off42 k0_t1) a + S1x64x128.size a ≤ S2x256x1024.size a
  k0_off42_packedbf16 : ∀ k0_t1 : Fin k0_t1_loop.trips, (Rect.unit (s := S2x256x1024) (k0_off42 k0_t1) S1x64x128.size (k0_off42_inb k0_t1)).PackedRows (EltTy.packing .bf16)
  k0_off43_inb : ∀ (i : grid0.Coords) (k0_t1 : Fin k0_t1_loop.trips), ∀ a, (k0_off43 i k0_t1) a + S1x1.size a ≤ S128x128.size a
  k0_off44_inb : ∀ (i : grid0.Coords) (k0_t1 : Fin k0_t1_loop.trips), ∀ a, (k0_off44 i k0_t1) a + S1x1.size a ≤ S128x128.size a
  k0_off47_inb : ∀ k0_t1 : Fin k0_t1_loop.trips, ∀ a, (k0_off47 k0_t1) a + S1x256x1024.size a ≤ S2x256x1024.size a
  k0_off48_inb : ∀ k0_t1 : Fin k0_t1_loop.trips, ∀ a, (k0_off48 k0_t1) a + S1x64x128.size a ≤ S2x256x1024.size a
  k0_off48_packedbf16 : ∀ k0_t1 : Fin k0_t1_loop.trips, (Rect.unit (s := S2x256x1024) (k0_off48 k0_t1) S1x64x128.size (k0_off48_inb k0_t1)).PackedRows (EltTy.packing .bf16)
  k0_off49_inb : ∀ (i : grid0.Coords) (k0_t1 : Fin k0_t1_loop.trips), ∀ a, (k0_off49 i k0_t1) a + S1x1.size a ≤ S128x128.size a
  k0_off50_inb : ∀ (i : grid0.Coords) (k0_t1 : Fin k0_t1_loop.trips), ∀ a, (k0_off50 i k0_t1) a + S1x1.size a ≤ S128x128.size a
  k0_off53_inb : ∀ k0_t1 : Fin k0_t1_loop.trips, ∀ a, (k0_off53 k0_t1) a + S1x256x1024.size a ≤ S2x256x1024.size a
  k0_off54_inb : ∀ k0_t1 : Fin k0_t1_loop.trips, ∀ a, (k0_off54 k0_t1) a + S1x64x128.size a ≤ S2x256x1024.size a
  k0_off54_packedbf16 : ∀ k0_t1 : Fin k0_t1_loop.trips, (Rect.unit (s := S2x256x1024) (k0_off54 k0_t1) S1x64x128.size (k0_off54_inb k0_t1)).PackedRows (EltTy.packing .bf16)
  k0_off55_inb : ∀ (i : grid0.Coords) (k0_t1 : Fin k0_t1_loop.trips), ∀ a, (k0_off55 i k0_t1) a + S1x1.size a ≤ S128x128.size a
  k0_off56_inb : ∀ (i : grid0.Coords) (k0_t1 : Fin k0_t1_loop.trips), ∀ a, (k0_off56 i k0_t1) a + S1x1.size a ≤ S128x128.size a
  k0_off59_inb : ∀ k0_t1 : Fin k0_t1_loop.trips, ∀ a, (k0_off59 k0_t1) a + S1x256x1024.size a ≤ S2x256x1024.size a
  k0_off60_inb : ∀ k0_t1 : Fin k0_t1_loop.trips, ∀ a, (k0_off60 k0_t1) a + S1x64x128.size a ≤ S2x256x1024.size a
  k0_off60_packedbf16 : ∀ k0_t1 : Fin k0_t1_loop.trips, (Rect.unit (s := S2x256x1024) (k0_off60 k0_t1) S1x64x128.size (k0_off60_inb k0_t1)).PackedRows (EltTy.packing .bf16)
  k0_off61_inb : ∀ (i : grid0.Coords) (k0_t1 : Fin k0_t1_loop.trips), ∀ a, (k0_off61 i k0_t1) a + S1x1.size a ≤ S128x128.size a
  k0_off62_inb : ∀ (i : grid0.Coords) (k0_t1 : Fin k0_t1_loop.trips), ∀ a, (k0_off62 i k0_t1) a + S1x1.size a ≤ S128x128.size a
  k0_off65_inb : ∀ k0_t1 : Fin k0_t1_loop.trips, ∀ a, (k0_off65 k0_t1) a + S1x256x1024.size a ≤ S2x256x1024.size a
  k0_off66_inb : ∀ k0_t1 : Fin k0_t1_loop.trips, ∀ a, (k0_off66 k0_t1) a + S1x64x128.size a ≤ S2x256x1024.size a
  k0_off66_packedbf16 : ∀ k0_t1 : Fin k0_t1_loop.trips, (Rect.unit (s := S2x256x1024) (k0_off66 k0_t1) S1x64x128.size (k0_off66_inb k0_t1)).PackedRows (EltTy.packing .bf16)
  k0_off67_inb : ∀ (i : grid0.Coords) (k0_t1 : Fin k0_t1_loop.trips), ∀ a, (k0_off67 i k0_t1) a + S1x1.size a ≤ S128x128.size a
  k0_off68_inb : ∀ (i : grid0.Coords) (k0_t1 : Fin k0_t1_loop.trips), ∀ a, (k0_off68 i k0_t1) a + S1x1.size a ≤ S128x128.size a
  k0_off71_inb : ∀ k0_t1 : Fin k0_t1_loop.trips, ∀ a, (k0_off71 k0_t1) a + S1x256x1024.size a ≤ S2x256x1024.size a
  k0_off72_inb : ∀ k0_t1 : Fin k0_t1_loop.trips, ∀ a, (k0_off72 k0_t1) a + S1x64x128.size a ≤ S2x256x1024.size a
  k0_off72_packedbf16 : ∀ k0_t1 : Fin k0_t1_loop.trips, (Rect.unit (s := S2x256x1024) (k0_off72 k0_t1) S1x64x128.size (k0_off72_inb k0_t1)).PackedRows (EltTy.packing .bf16)
  k0_off73_inb : ∀ (i : grid0.Coords) (k0_t1 : Fin k0_t1_loop.trips), ∀ a, (k0_off73 i k0_t1) a + S1x1.size a ≤ S128x128.size a
  k0_off74_inb : ∀ (i : grid0.Coords) (k0_t1 : Fin k0_t1_loop.trips), ∀ a, (k0_off74 i k0_t1) a + S1x1.size a ≤ S128x128.size a
  k0_off77_inb : ∀ k0_t1 : Fin k0_t1_loop.trips, ∀ a, (k0_off77 k0_t1) a + S1x256x1024.size a ≤ S2x256x1024.size a
  k0_off78_inb : ∀ k0_t1 : Fin k0_t1_loop.trips, ∀ a, (k0_off78 k0_t1) a + S1x64x128.size a ≤ S2x256x1024.size a
  k0_off78_packedbf16 : ∀ k0_t1 : Fin k0_t1_loop.trips, (Rect.unit (s := S2x256x1024) (k0_off78 k0_t1) S1x64x128.size (k0_off78_inb k0_t1)).PackedRows (EltTy.packing .bf16)
  k0_off79_inb : ∀ (i : grid0.Coords) (k0_t1 : Fin k0_t1_loop.trips), ∀ a, (k0_off79 i k0_t1) a + S1x1.size a ≤ S128x128.size a
  k0_off80_inb : ∀ (i : grid0.Coords) (k0_t1 : Fin k0_t1_loop.trips), ∀ a, (k0_off80 i k0_t1) a + S1x1.size a ≤ S128x128.size a
  k0_off83_inb : ∀ k0_t1 : Fin k0_t1_loop.trips, ∀ a, (k0_off83 k0_t1) a + S1x256x1024.size a ≤ S2x256x1024.size a
  k0_off84_inb : ∀ k0_t1 : Fin k0_t1_loop.trips, ∀ a, (k0_off84 k0_t1) a + S1x64x128.size a ≤ S2x256x1024.size a
  k0_off84_packedbf16 : ∀ k0_t1 : Fin k0_t1_loop.trips, (Rect.unit (s := S2x256x1024) (k0_off84 k0_t1) S1x64x128.size (k0_off84_inb k0_t1)).PackedRows (EltTy.packing .bf16)
  k0_off85_inb : ∀ (i : grid0.Coords) (k0_t1 : Fin k0_t1_loop.trips), ∀ a, (k0_off85 i k0_t1) a + S1x1.size a ≤ S128x128.size a
  k0_off86_inb : ∀ (i : grid0.Coords) (k0_t1 : Fin k0_t1_loop.trips), ∀ a, (k0_off86 i k0_t1) a + S1x1.size a ≤ S128x128.size a
  k0_off89_inb : ∀ k0_t1 : Fin k0_t1_loop.trips, ∀ a, (k0_off89 k0_t1) a + S1x256x1024.size a ≤ S2x256x1024.size a
  k0_off90_inb : ∀ k0_t1 : Fin k0_t1_loop.trips, ∀ a, (k0_off90 k0_t1) a + S1x64x128.size a ≤ S2x256x1024.size a
  k0_off90_packedbf16 : ∀ k0_t1 : Fin k0_t1_loop.trips, (Rect.unit (s := S2x256x1024) (k0_off90 k0_t1) S1x64x128.size (k0_off90_inb k0_t1)).PackedRows (EltTy.packing .bf16)
  k0_off91_inb : ∀ (i : grid0.Coords) (k0_t1 : Fin k0_t1_loop.trips), ∀ a, (k0_off91 i k0_t1) a + S1x1.size a ≤ S128x128.size a
  k0_off92_inb : ∀ (i : grid0.Coords) (k0_t1 : Fin k0_t1_loop.trips), ∀ a, (k0_off92 i k0_t1) a + S1x1.size a ≤ S128x128.size a
  k0_off95_inb : ∀ k0_t1 : Fin k0_t1_loop.trips, ∀ a, (k0_off95 k0_t1) a + S1x256x1024.size a ≤ S2x256x1024.size a
  k0_off96_inb : ∀ k0_t1 : Fin k0_t1_loop.trips, ∀ a, (k0_off96 k0_t1) a + S1x64x128.size a ≤ S2x256x1024.size a
  k0_off96_packedbf16 : ∀ k0_t1 : Fin k0_t1_loop.trips, (Rect.unit (s := S2x256x1024) (k0_off96 k0_t1) S1x64x128.size (k0_off96_inb k0_t1)).PackedRows (EltTy.packing .bf16)
  k0_off97_inb : ∀ (i : grid0.Coords) (k0_t1 : Fin k0_t1_loop.trips), ∀ a, (k0_off97 i k0_t1) a + S1x1.size a ≤ S128x128.size a
  k0_off98_inb : ∀ (i : grid0.Coords) (k0_t1 : Fin k0_t1_loop.trips), ∀ a, (k0_off98 i k0_t1) a + S1x1.size a ≤ S128x128.size a
  k0_off101_inb : ∀ k0_t1 : Fin k0_t1_loop.trips, ∀ a, (k0_off101 k0_t1) a + S1x256x1024.size a ≤ S2x256x1024.size a
  k0_off102_inb : ∀ k0_t1 : Fin k0_t1_loop.trips, ∀ a, (k0_off102 k0_t1) a + S1x64x128.size a ≤ S2x256x1024.size a
  k0_off102_packedbf16 : ∀ k0_t1 : Fin k0_t1_loop.trips, (Rect.unit (s := S2x256x1024) (k0_off102 k0_t1) S1x64x128.size (k0_off102_inb k0_t1)).PackedRows (EltTy.packing .bf16)
  k0_off103_inb : ∀ (i : grid0.Coords) (k0_t1 : Fin k0_t1_loop.trips), ∀ a, (k0_off103 i k0_t1) a + S1x1.size a ≤ S128x128.size a
  k0_off104_inb : ∀ (i : grid0.Coords) (k0_t1 : Fin k0_t1_loop.trips), ∀ a, (k0_off104 i k0_t1) a + S1x1.size a ≤ S128x128.size a
  k0_off107_inb : ∀ k0_t1 : Fin k0_t1_loop.trips, ∀ a, (k0_off107 k0_t1) a + S1x256x1024.size a ≤ S2x256x1024.size a
  k0_off108_inb : ∀ k0_t1 : Fin k0_t1_loop.trips, ∀ a, (k0_off108 k0_t1) a + S1x64x128.size a ≤ S2x256x1024.size a
  k0_off108_packedbf16 : ∀ k0_t1 : Fin k0_t1_loop.trips, (Rect.unit (s := S2x256x1024) (k0_off108 k0_t1) S1x64x128.size (k0_off108_inb k0_t1)).PackedRows (EltTy.packing .bf16)
  k0_off109_inb : ∀ (i : grid0.Coords) (k0_t1 : Fin k0_t1_loop.trips), ∀ a, (k0_off109 i k0_t1) a + S1x1.size a ≤ S128x128.size a
  k0_off110_inb : ∀ (i : grid0.Coords) (k0_t1 : Fin k0_t1_loop.trips), ∀ a, (k0_off110 i k0_t1) a + S1x1.size a ≤ S128x128.size a
  k0_off113_inb : ∀ k0_t1 : Fin k0_t1_loop.trips, ∀ a, (k0_off113 k0_t1) a + S1x256x1024.size a ≤ S2x256x1024.size a
  k0_off114_inb : ∀ k0_t1 : Fin k0_t1_loop.trips, ∀ a, (k0_off114 k0_t1) a + S1x64x128.size a ≤ S2x256x1024.size a
  k0_off114_packedbf16 : ∀ k0_t1 : Fin k0_t1_loop.trips, (Rect.unit (s := S2x256x1024) (k0_off114 k0_t1) S1x64x128.size (k0_off114_inb k0_t1)).PackedRows (EltTy.packing .bf16)
  k0_off115_inb : ∀ (i : grid0.Coords) (k0_t1 : Fin k0_t1_loop.trips), ∀ a, (k0_off115 i k0_t1) a + S1x1.size a ≤ S128x128.size a
  k0_off116_inb : ∀ (i : grid0.Coords) (k0_t1 : Fin k0_t1_loop.trips), ∀ a, (k0_off116 i k0_t1) a + S1x1.size a ≤ S128x128.size a
  k0_off119_inb : ∀ k0_t1 : Fin k0_t1_loop.trips, ∀ a, (k0_off119 k0_t1) a + S1x256x1024.size a ≤ S2x256x1024.size a
  k0_off120_inb : ∀ k0_t1 : Fin k0_t1_loop.trips, ∀ a, (k0_off120 k0_t1) a + S1x64x128.size a ≤ S2x256x1024.size a
  k0_off120_packedbf16 : ∀ k0_t1 : Fin k0_t1_loop.trips, (Rect.unit (s := S2x256x1024) (k0_off120 k0_t1) S1x64x128.size (k0_off120_inb k0_t1)).PackedRows (EltTy.packing .bf16)
  k0_off121_inb : ∀ (i : grid0.Coords) (k0_t1 : Fin k0_t1_loop.trips), ∀ a, (k0_off121 i k0_t1) a + S1x1.size a ≤ S128x128.size a
  k0_off122_inb : ∀ (i : grid0.Coords) (k0_t1 : Fin k0_t1_loop.trips), ∀ a, (k0_off122 i k0_t1) a + S1x1.size a ≤ S128x128.size a
  k0_off125_inb : ∀ k0_t1 : Fin k0_t1_loop.trips, ∀ a, (k0_off125 k0_t1) a + S1x256x1024.size a ≤ S2x256x1024.size a
  k0_off126_inb : ∀ k0_t1 : Fin k0_t1_loop.trips, ∀ a, (k0_off126 k0_t1) a + S1x64x128.size a ≤ S2x256x1024.size a
  k0_off126_packedbf16 : ∀ k0_t1 : Fin k0_t1_loop.trips, (Rect.unit (s := S2x256x1024) (k0_off126 k0_t1) S1x64x128.size (k0_off126_inb k0_t1)).PackedRows (EltTy.packing .bf16)
  k0_off127_inb : ∀ (i : grid0.Coords) (k0_t1 : Fin k0_t1_loop.trips), ∀ a, (k0_off127 i k0_t1) a + S1x1.size a ≤ S128x128.size a
  k0_off128_inb : ∀ (i : grid0.Coords) (k0_t1 : Fin k0_t1_loop.trips), ∀ a, (k0_off128 i k0_t1) a + S1x1.size a ≤ S128x128.size a
  k0_off131_inb : ∀ k0_t1 : Fin k0_t1_loop.trips, ∀ a, (k0_off131 k0_t1) a + S1x256x1024.size a ≤ S2x256x1024.size a
  k0_off132_inb : ∀ k0_t1 : Fin k0_t1_loop.trips, ∀ a, (k0_off132 k0_t1) a + S1x64x128.size a ≤ S2x256x1024.size a
  k0_off132_packedbf16 : ∀ k0_t1 : Fin k0_t1_loop.trips, (Rect.unit (s := S2x256x1024) (k0_off132 k0_t1) S1x64x128.size (k0_off132_inb k0_t1)).PackedRows (EltTy.packing .bf16)
  k0_off133_inb : ∀ (i : grid0.Coords) (k0_t1 : Fin k0_t1_loop.trips), ∀ a, (k0_off133 i k0_t1) a + S1x1.size a ≤ S128x128.size a
  k0_off134_inb : ∀ (i : grid0.Coords) (k0_t1 : Fin k0_t1_loop.trips), ∀ a, (k0_off134 i k0_t1) a + S1x1.size a ≤ S128x128.size a
  k0_off137_inb : ∀ k0_t1 : Fin k0_t1_loop.trips, ∀ a, (k0_off137 k0_t1) a + S1x256x1024.size a ≤ S2x256x1024.size a
  k0_off138_inb : ∀ k0_t1 : Fin k0_t1_loop.trips, ∀ a, (k0_off138 k0_t1) a + S1x64x128.size a ≤ S2x256x1024.size a
  k0_off138_packedbf16 : ∀ k0_t1 : Fin k0_t1_loop.trips, (Rect.unit (s := S2x256x1024) (k0_off138 k0_t1) S1x64x128.size (k0_off138_inb k0_t1)).PackedRows (EltTy.packing .bf16)
  k0_off139_inb : ∀ (i : grid0.Coords) (k0_t1 : Fin k0_t1_loop.trips), ∀ a, (k0_off139 i k0_t1) a + S1x1.size a ≤ S128x128.size a
  k0_off140_inb : ∀ (i : grid0.Coords) (k0_t1 : Fin k0_t1_loop.trips), ∀ a, (k0_off140 i k0_t1) a + S1x1.size a ≤ S128x128.size a
  k0_off143_inb : ∀ k0_t1 : Fin k0_t1_loop.trips, ∀ a, (k0_off143 k0_t1) a + S1x256x1024.size a ≤ S2x256x1024.size a
  k0_off144_inb : ∀ k0_t1 : Fin k0_t1_loop.trips, ∀ a, (k0_off144 k0_t1) a + S1x64x128.size a ≤ S2x256x1024.size a
  k0_off144_packedbf16 : ∀ k0_t1 : Fin k0_t1_loop.trips, (Rect.unit (s := S2x256x1024) (k0_off144 k0_t1) S1x64x128.size (k0_off144_inb k0_t1)).PackedRows (EltTy.packing .bf16)
  k0_off145_inb : ∀ (i : grid0.Coords) (k0_t1 : Fin k0_t1_loop.trips), ∀ a, (k0_off145 i k0_t1) a + S1x1.size a ≤ S128x128.size a
  k0_off146_inb : ∀ (i : grid0.Coords) (k0_t1 : Fin k0_t1_loop.trips), ∀ a, (k0_off146 i k0_t1) a + S1x1.size a ≤ S128x128.size a
  k0_off149_inb : ∀ k0_t1 : Fin k0_t1_loop.trips, ∀ a, (k0_off149 k0_t1) a + S1x256x1024.size a ≤ S2x256x1024.size a
  k0_off150_inb : ∀ k0_t1 : Fin k0_t1_loop.trips, ∀ a, (k0_off150 k0_t1) a + S1x64x128.size a ≤ S2x256x1024.size a
  k0_off150_packedbf16 : ∀ k0_t1 : Fin k0_t1_loop.trips, (Rect.unit (s := S2x256x1024) (k0_off150 k0_t1) S1x64x128.size (k0_off150_inb k0_t1)).PackedRows (EltTy.packing .bf16)
  k0_off151_inb : ∀ (i : grid0.Coords) (k0_t1 : Fin k0_t1_loop.trips), ∀ a, (k0_off151 i k0_t1) a + S1x1.size a ≤ S128x128.size a
  k0_off152_inb : ∀ (i : grid0.Coords) (k0_t1 : Fin k0_t1_loop.trips), ∀ a, (k0_off152 i k0_t1) a + S1x1.size a ≤ S128x128.size a
  k0_off155_inb : ∀ k0_t1 : Fin k0_t1_loop.trips, ∀ a, (k0_off155 k0_t1) a + S1x256x1024.size a ≤ S2x256x1024.size a
  k0_off156_inb : ∀ k0_t1 : Fin k0_t1_loop.trips, ∀ a, (k0_off156 k0_t1) a + S1x64x128.size a ≤ S2x256x1024.size a
  k0_off156_packedbf16 : ∀ k0_t1 : Fin k0_t1_loop.trips, (Rect.unit (s := S2x256x1024) (k0_off156 k0_t1) S1x64x128.size (k0_off156_inb k0_t1)).PackedRows (EltTy.packing .bf16)
  k0_off157_inb : ∀ (i : grid0.Coords) (k0_t1 : Fin k0_t1_loop.trips), ∀ a, (k0_off157 i k0_t1) a + S1x1.size a ≤ S128x128.size a
  k0_off158_inb : ∀ (i : grid0.Coords) (k0_t1 : Fin k0_t1_loop.trips), ∀ a, (k0_off158 i k0_t1) a + S1x1.size a ≤ S128x128.size a
  k0_off161_inb : ∀ k0_t1 : Fin k0_t1_loop.trips, ∀ a, (k0_off161 k0_t1) a + S1x256x1024.size a ≤ S2x256x1024.size a
  k0_off162_inb : ∀ k0_t1 : Fin k0_t1_loop.trips, ∀ a, (k0_off162 k0_t1) a + S1x64x128.size a ≤ S2x256x1024.size a
  k0_off162_packedbf16 : ∀ k0_t1 : Fin k0_t1_loop.trips, (Rect.unit (s := S2x256x1024) (k0_off162 k0_t1) S1x64x128.size (k0_off162_inb k0_t1)).PackedRows (EltTy.packing .bf16)
  k0_off163_inb : ∀ (i : grid0.Coords) (k0_t1 : Fin k0_t1_loop.trips), ∀ a, (k0_off163 i k0_t1) a + S1x1.size a ≤ S128x128.size a
  k0_off164_inb : ∀ (i : grid0.Coords) (k0_t1 : Fin k0_t1_loop.trips), ∀ a, (k0_off164 i k0_t1) a + S1x1.size a ≤ S128x128.size a
  k0_off167_inb : ∀ k0_t1 : Fin k0_t1_loop.trips, ∀ a, (k0_off167 k0_t1) a + S1x256x1024.size a ≤ S2x256x1024.size a
  k0_off168_inb : ∀ k0_t1 : Fin k0_t1_loop.trips, ∀ a, (k0_off168 k0_t1) a + S1x64x128.size a ≤ S2x256x1024.size a
  k0_off168_packedbf16 : ∀ k0_t1 : Fin k0_t1_loop.trips, (Rect.unit (s := S2x256x1024) (k0_off168 k0_t1) S1x64x128.size (k0_off168_inb k0_t1)).PackedRows (EltTy.packing .bf16)
  k0_off169_inb : ∀ (i : grid0.Coords) (k0_t1 : Fin k0_t1_loop.trips), ∀ a, (k0_off169 i k0_t1) a + S1x1.size a ≤ S128x128.size a
  k0_off170_inb : ∀ (i : grid0.Coords) (k0_t1 : Fin k0_t1_loop.trips), ∀ a, (k0_off170 i k0_t1) a + S1x1.size a ≤ S128x128.size a
  k0_off173_inb : ∀ k0_t1 : Fin k0_t1_loop.trips, ∀ a, (k0_off173 k0_t1) a + S1x256x1024.size a ≤ S2x256x1024.size a
  k0_off174_inb : ∀ k0_t1 : Fin k0_t1_loop.trips, ∀ a, (k0_off174 k0_t1) a + S1x64x128.size a ≤ S2x256x1024.size a
  k0_off174_packedbf16 : ∀ k0_t1 : Fin k0_t1_loop.trips, (Rect.unit (s := S2x256x1024) (k0_off174 k0_t1) S1x64x128.size (k0_off174_inb k0_t1)).PackedRows (EltTy.packing .bf16)
  k0_off175_inb : ∀ (i : grid0.Coords) (k0_t1 : Fin k0_t1_loop.trips), ∀ a, (k0_off175 i k0_t1) a + S1x1.size a ≤ S128x128.size a
  k0_off176_inb : ∀ (i : grid0.Coords) (k0_t1 : Fin k0_t1_loop.trips), ∀ a, (k0_off176 i k0_t1) a + S1x1.size a ≤ S128x128.size a
  k0_off179_inb : ∀ k0_t1 : Fin k0_t1_loop.trips, ∀ a, (k0_off179 k0_t1) a + S1x256x1024.size a ≤ S2x256x1024.size a
  k0_off180_inb : ∀ k0_t1 : Fin k0_t1_loop.trips, ∀ a, (k0_off180 k0_t1) a + S1x64x128.size a ≤ S2x256x1024.size a
  k0_off180_packedbf16 : ∀ k0_t1 : Fin k0_t1_loop.trips, (Rect.unit (s := S2x256x1024) (k0_off180 k0_t1) S1x64x128.size (k0_off180_inb k0_t1)).PackedRows (EltTy.packing .bf16)
  k0_off181_inb : ∀ (i : grid0.Coords) (k0_t1 : Fin k0_t1_loop.trips), ∀ a, (k0_off181 i k0_t1) a + S1x1.size a ≤ S128x128.size a
  k0_off182_inb : ∀ (i : grid0.Coords) (k0_t1 : Fin k0_t1_loop.trips), ∀ a, (k0_off182 i k0_t1) a + S1x1.size a ≤ S128x128.size a
  k0_off185_inb : ∀ k0_t1 : Fin k0_t1_loop.trips, ∀ a, (k0_off185 k0_t1) a + S1x256x1024.size a ≤ S2x256x1024.size a
  k0_off186_inb : ∀ k0_t1 : Fin k0_t1_loop.trips, ∀ a, (k0_off186 k0_t1) a + S1x64x128.size a ≤ S2x256x1024.size a
  k0_off186_packedbf16 : ∀ k0_t1 : Fin k0_t1_loop.trips, (Rect.unit (s := S2x256x1024) (k0_off186 k0_t1) S1x64x128.size (k0_off186_inb k0_t1)).PackedRows (EltTy.packing .bf16)
  k0_off187_inb : ∀ (i : grid0.Coords) (k0_t1 : Fin k0_t1_loop.trips), ∀ a, (k0_off187 i k0_t1) a + S1x1.size a ≤ S128x128.size a
  k0_off188_inb : ∀ (i : grid0.Coords) (k0_t1 : Fin k0_t1_loop.trips), ∀ a, (k0_off188 i k0_t1) a + S1x1.size a ≤ S128x128.size a
  k0_off191_inb : ∀ k0_t1 : Fin k0_t1_loop.trips, ∀ a, (k0_off191 k0_t1) a + S1x256x1024.size a ≤ S2x256x1024.size a
  k0_off192_inb : ∀ k0_t1 : Fin k0_t1_loop.trips, ∀ a, (k0_off192 k0_t1) a + S1x64x128.size a ≤ S2x256x1024.size a
  k0_off192_packedbf16 : ∀ k0_t1 : Fin k0_t1_loop.trips, (Rect.unit (s := S2x256x1024) (k0_off192 k0_t1) S1x64x128.size (k0_off192_inb k0_t1)).PackedRows (EltTy.packing .bf16)
  k0_mult1_dvd : ∀ k0_t1 : Fin k0_t1_loop.trips, 256 ∣ (k0_mult1 k0_t1).toNat
  k0_off193_inb : ∀ k0_t1 : Fin k0_t1_loop.trips, ∀ a, (k0_off193 k0_t1) a + S256x256.size a ≤ S256x8192.size a
  k0_off194_inb : ∀ k0_t1 : Fin k0_t1_loop.trips, ∀ a, (k0_off194 k0_t1) a + S1x256x1024.size a ≤ S2x256x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x8192.size a
  hwx0_0 : ∀ i : grid0.Coords, EltTy.bits .bf16 = 32 ∨ (Rect.block (s := S256x8192) S256x8192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64x64.size a ≤ S1024x64x64.size a
  hwx0_1 : ∀ i : grid0.Coords, EltTy.bits .bf16 = 32 ∨ (Rect.block (s := S1024x64x64) S1024x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x8192.size a
  hwx0_3 : ∀ i : grid0.Coords, EltTy.bits .f32 = 32 ∨ (Rect.block (s := S256x8192) S256x1024.size (cc0_transform_3 i) (hinb0_3 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev spec0_0 : Pipeline.WinSpec sig grid0.rank :=
  Pipeline.WinSpec.ofSpec (Memref.whole main_v1) S256x8192.size reads0_0 false true 1 stage0_0 sem0_0 nbuf0_0 hstage0_0

abbrev spec0_1 : Pipeline.WinSpec sig grid0.rank :=
  Pipeline.WinSpec.ofSpec (Memref.whole main_v2) S1024x64x64.size reads0_1 false true 1 stage0_1 sem0_1 nbuf0_1 hstage0_1

abbrev spec0_2 : Pipeline.WinSpec sig grid0.rank :=
  Pipeline.WinSpec.ofSpec (Memref.whole main_v3) S1x1024.size reads0_2 false false 2 stage0_2 sem0_2 nbuf0_2 hstage0_2

abbrev spec0_3 : Pipeline.WinSpec sig grid0.rank :=
  Pipeline.WinSpec.ofSpec (Memref.whole main_v4) S256x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S256x8192 : Shape := ⟨2, ![256, 8192]⟩
abbrev S1024x64x64 : Shape := ⟨3, ![1024, 64, 64]⟩
abbrev S8192 : Shape := ⟨1, ![8192]⟩
abbrev S128x128 : Shape := ⟨2, ![128, 128]⟩
abbrev S_ : Shape := ⟨0, ![]⟩
abbrev S128x128x1 : Shape := ⟨3, ![128, 128, 1]⟩
abbrev S128x128x64x64 : Shape := ⟨4, ![128, 128, 64, 64]⟩
abbrev S128x64x128x64 : Shape := ⟨4, ![128, 64, 128, 64]⟩
abbrev S8192x8192 : Shape := ⟨2, ![8192, 8192]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S1024x64x64, .f32⟩
  | .hbm, ⟨2, _⟩ => ⟨S8192, .f32⟩
  | .hbm, ⟨3, _⟩ => ⟨S128x128, .i32⟩
  | .hbm, ⟨4, _⟩ => ⟨S_, .i32⟩
  | .hbm, ⟨5, _⟩ => ⟨S128x128, .i32⟩
  | .hbm, ⟨6, _⟩ => ⟨S128x128, .i1⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128x1, .i32⟩
  | .hbm, ⟨12, _⟩ => ⟨S128x128x64x64, .f32⟩
  | .hbm, ⟨13, _⟩ => ⟨S128x64x128x64, .f32⟩
  | .hbm, ⟨14, _⟩ => ⟨S8192x8192, .f32⟩
  | .hbm, ⟨15, _⟩ => ⟨S256x8192, .f32⟩
  | .hbm, ⟨16, _⟩ => ⟨S1x8192, .f32⟩
  | .hbm, ⟨17, _⟩ => ⟨S256x8192, .f32⟩
  | .hbm, ⟨18, _⟩ => ⟨S256x8192, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  transposes_S128x128x64x64_S128x64x128x64_0_2_1_3 : S128x128x64x64.Transposes [0, 2, 1, 3] S128x64x128x64
  shapeCasts_S128x64x128x64_S8192x8192 : S128x64x128x64.ShapeCasts S8192x8192
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  gather_S1024x64x64_S128x128x1_S128x128x64x64_23_0_n_n_0_2_16464_wf : GatherDims.WF S1024x64x64 S128x128x1 S128x128x64x64 [2, 3] [0] [] [0] [] 2 ![1, 64, 64]
  dot_S256x8192_S8192x8192_S256x8192_1_0_0_1_n_n_wf : DotDims.WF S256x8192 S8192x8192 S256x8192 [1] [0] [0] [1] [] []

variable [Facts₀]

def gather_S1024x64x64_S128x128x1_S128x128x64x64_23_0_n_n_0_2_16464 : GatherDims S1024x64x64 S128x128x1 S128x128x64x64 where
  offsetDims := [2, 3]
  collapsedSliceDims := [0]
  operandBatchingDims := []
  startIndicesBatchingDims := []
  startIndexMap := [0]
  indexVectorDim := 2
  sliceSizes := ![1, 64, 64]
  wf := gather_S1024x64x64_S128x128x1_S128x128x64x64_23_0_n_n_0_2_16464_wf
def dot_S256x8192_S8192x8192_S256x8192_1_0_0_1_n_n : DotDims S256x8192 S8192x8192 S256x8192 where
  lhsContracting := [1]
  rhsContracting := [0]
  lhsNonContracting := [0]
  rhsNonContracting := [1]
  lhsBatch := []
  rhsBatch := []
  wf := dot_S256x8192_S8192x8192_S256x8192_1_0_0_1_n_n_wf

class Facts : Prop extends Facts₀ where

variable [Facts]
-- ==== Proof.K.Offsets.lean ====
/-
  The closed forms of the offsets the kernel computes inside the loop for the assembly scratch: trip k works in slot
  k mod 2; store number j (0 ≤ j < 32) goes to rows 64·(j div 8) … and columns 128·(j mod 8) … of that slot, and the
  load before the product reads the whole slot. And the side condition each table word must meet before its bank
  block is loaded: a word below 1024 names a block inside the bank.
-/
import proofs.«427164_j50603304682317_2_alg».proof.Proof.Gen.Kernel.Loops
import proofs.«427164_j50603304682317_2_alg».proof.Proof.Gen.Kernel.Launch

noncomputable section

namespace Cert.Kernel.Hand

open Cert.Kernel Cert.Kernel.Gen
open Idealize.ShloMosaic Idealize.ShloMosaic.TcCoe Idealize.ShloMosaic.Tactic

variable {F : FTy → Type} [FloatOps F]

theorem off6_eq : ∀ k : Fin k0_t1_loop.trips, ∀ a, k0_off6 k a = (![k.val % 2, 0, 0] : Fin 3 → ℕ) a := by decide +kernel
instance closedOff_k0_off6 (k : Fin k0_t1_loop.trips) : ClosedOff (k0_off6 k) := ⟨![k.val % 2, 0, 0], funext (off6_eq k)⟩
theorem off12_eq : ∀ k : Fin k0_t1_loop.trips, ∀ a, k0_off12 k a = (![k.val % 2, 0, 128] : Fin 3 → ℕ) a := by decide +kernel
instance closedOff_k0_off12 (k : Fin k0_t1_loop.trips) : ClosedOff (k0_off12 k) := ⟨![k.val % 2, 0, 128], funext (off12_eq k)⟩
theorem off18_eq : ∀ k : Fin k0_t1_loop.trips, ∀ a, k0_off18 k a = (![k.val % 2, 0, 256] : Fin 3 → ℕ) a := by decide +kernel
instance closedOff_k0_off18 (k : Fin k0_t1_loop.trips) : ClosedOff (k0_off18 k) := ⟨![k.val % 2, 0, 256], funext (off18_eq k)⟩
theorem off24_eq : ∀ k : Fin k0_t1_loop.trips, ∀ a, k0_off24 k a = (![k.val % 2, 0, 384] : Fin 3 → ℕ) a := by decide +kernel
instance closedOff_k0_off24 (k : Fin k0_t1_loop.trips) : ClosedOff (k0_off24 k) := ⟨![k.val % 2, 0, 384], funext (off24_eq k)⟩
theorem off30_eq : ∀ k : Fin k0_t1_loop.trips, ∀ a, k0_off30 k a = (![k.val % 2, 0, 512] : Fin 3 → ℕ) a := by decide +kernel
instance closedOff_k0_off30 (k : Fin k0_t1_loop.trips) : ClosedOff (k0_off30 k) := ⟨![k.val % 2, 0, 512], funext (off30_eq k)⟩
theorem off36_eq : ∀ k : Fin k0_t1_loop.trips, ∀ a, k0_off36 k a = (![k.val % 2, 0, 640] : Fin 3 → ℕ) a := by decide +kernel
instance closedOff_k0_off36 (k : Fin k0_t1_loop.trips) : ClosedOff (k0_off36 k) := ⟨![k.val % 2, 0, 640], funext (off36_eq k)⟩
theorem off42_eq : ∀ k : Fin k0_t1_loop.trips, ∀ a, k0_off42 k a = (![k.val % 2, 0, 768] : Fin 3 → ℕ) a := by decide +kernel
instance closedOff_k0_off42 (k : Fin k0_t1_loop.trips) : ClosedOff (k0_off42 k) := ⟨![k.val % 2, 0, 768], funext (off42_eq k)⟩
theorem off48_eq : ∀ k : Fin k0_t1_loop.trips, ∀ a, k0_off48 k a = (![k.val % 2, 0, 896] : Fin 3 → ℕ) a := by decide +kernel
instance closedOff_k0_off48 (k : Fin k0_t1_loop.trips) : ClosedOff (k0_off48 k) := ⟨![k.val % 2, 0, 896], funext (off48_eq k)⟩
theorem off54_eq : ∀ k : Fin k0_t1_loop.trips, ∀ a, k0_off54 k a = (![k.val % 2, 64, 0] : Fin 3 → ℕ) a := by decide +kernel
instance closedOff_k0_off54 (k : Fin k0_t1_loop.trips) : ClosedOff (k0_off54 k) := ⟨![k.val % 2, 64, 0], funext (off54_eq k)⟩
theorem off60_eq : ∀ k : Fin k0_t1_loop.trips, ∀ a, k0_off60 k a = (![k.val % 2, 64, 128] : Fin 3 → ℕ) a := by decide +kernel
instance closedOff_k0_off60 (k : Fin k0_t1_loop.trips) : ClosedOff (k0_off60 k) := ⟨![k.val % 2, 64, 128], funext (off60_eq k)⟩
theorem off66_eq : ∀ k : Fin k0_t1_loop.trips, ∀ a, k0_off66 k a = (![k.val % 2, 64, 256] : Fin 3 → ℕ) a := by decide +kernel
instance closedOff_k0_off66 (k : Fin k0_t1_loop.trips) : ClosedOff (k0_off66 k) := ⟨![k.val % 2, 64, 256], funext (off66_eq k)⟩
theorem off72_eq : ∀ k : Fin k0_t1_loop.trips, ∀ a, k0_off72 k a = (![k.val % 2, 64, 384] : Fin 3 → ℕ) a := by decide +kernel
instance closedOff_k0_off72 (k : Fin k0_t1_loop.trips) : ClosedOff (k0_off72 k) := ⟨![k.val % 2, 64, 384], funext (off72_eq k)⟩
theorem off78_eq : ∀ k : Fin k0_t1_loop.trips, ∀ a, k0_off78 k a = (![k.val % 2, 64, 512] : Fin 3 → ℕ) a := by decide +kernel
instance closedOff_k0_off78 (k : Fin k0_t1_loop.trips) : ClosedOff (k0_off78 k) := ⟨![k.val % 2, 64, 512], funext (off78_eq k)⟩
theorem off84_eq : ∀ k : Fin k0_t1_loop.trips, ∀ a, k0_off84 k a = (![k.val % 2, 64, 640] : Fin 3 → ℕ) a := by decide +kernel
instance closedOff_k0_off84 (k : Fin k0_t1_loop.trips) : ClosedOff (k0_off84 k) := ⟨![k.val % 2, 64, 640], funext (off84_eq k)⟩
theorem off90_eq : ∀ k : Fin k0_t1_loop.trips, ∀ a, k0_off90 k a = (![k.val % 2, 64, 768] : Fin 3 → ℕ) a := by decide +kernel
instance closedOff_k0_off90 (k : Fin k0_t1_loop.trips) : ClosedOff (k0_off90 k) := ⟨![k.val % 2, 64, 768], funext (off90_eq k)⟩
theorem off96_eq : ∀ k : Fin k0_t1_loop.trips, ∀ a, k0_off96 k a = (![k.val % 2, 64, 896] : Fin 3 → ℕ) a := by decide +kernel
instance closedOff_k0_off96 (k : Fin k0_t1_loop.trips) : ClosedOff (k0_off96 k) := ⟨![k.val % 2, 64, 896], funext (off96_eq k)⟩
theorem off102_eq : ∀ k : Fin k0_t1_loop.trips, ∀ a, k0_off102 k a = (![k.val % 2, 128, 0] : Fin 3 → ℕ) a := by decide +kernel
instance closedOff_k0_off102 (k : Fin k0_t1_loop.trips) : ClosedOff (k0_off102 k) := ⟨![k.val % 2, 128, 0], funext (off102_eq k)⟩
theorem off108_eq : ∀ k : Fin k0_t1_loop.trips, ∀ a, k0_off108 k a = (![k.val % 2, 128, 128] : Fin 3 → ℕ) a := by decide +kernel
instance closedOff_k0_off108 (k : Fin k0_t1_loop.trips) : ClosedOff (k0_off108 k) := ⟨![k.val % 2, 128, 128], funext (off108_eq k)⟩
theorem off114_eq : ∀ k : Fin k0_t1_loop.trips, ∀ a, k0_off114 k a = (![k.val % 2, 128, 256] : Fin 3 → ℕ) a := by decide +kernel
instance closedOff_k0_off114 (k : Fin k0_t1_loop.trips) : ClosedOff (k0_off114 k) := ⟨![k.val % 2, 128, 256], funext (off114_eq k)⟩
theorem off120_eq : ∀ k : Fin k0_t1_loop.trips, ∀ a, k0_off120 k a = (![k.val % 2, 128, 384] : Fin 3 → ℕ) a := by decide +kernel
instance closedOff_k0_off120 (k : Fin k0_t1_loop.trips) : ClosedOff (k0_off120 k) := ⟨![k.val % 2, 128, 384], funext (off120_eq k)⟩
theorem off126_eq : ∀ k : Fin k0_t1_loop.trips, ∀ a, k0_off126 k a = (![k.val % 2, 128, 512] : Fin 3 → ℕ) a := by decide +kernel
instance closedOff_k0_off126 (k : Fin k0_t1_loop.trips) : ClosedOff (k0_off126 k) := ⟨![k.val % 2, 128, 512], funext (off126_eq k)⟩
theorem off132_eq : ∀ k : Fin k0_t1_loop.trips, ∀ a, k0_off132 k a = (![k.val % 2, 128, 640] : Fin 3 → ℕ) a := by decide +kernel
instance closedOff_k0_off132 (k : Fin k0_t1_loop.trips) : ClosedOff (k0_off132 k) := ⟨![k.val % 2, 128, 640], funext (off132_eq k)⟩
theorem off138_eq : ∀ k : Fin k0_t1_loop.trips, ∀ a, k0_off138 k a = (![k.val % 2, 128, 768] : Fin 3 → ℕ) a := by decide +kernel
instance closedOff_k0_off138 (k : Fin k0_t1_loop.trips) : ClosedOff (k0_off138 k) := ⟨![k.val % 2, 128, 768], funext (off138_eq k)⟩
theorem off144_eq : ∀ k : Fin k0_t1_loop.trips, ∀ a, k0_off144 k a = (![k.val % 2, 128, 896] : Fin 3 → ℕ) a := by decide +kernel
instance closedOff_k0_off144 (k : Fin k0_t1_loop.trips) : ClosedOff (k0_off144 k) := ⟨![k.val % 2, 128, 896], funext (off144_eq k)⟩
theorem off150_eq : ∀ k : Fin k0_t1_loop.trips, ∀ a, k0_off150 k a = (![k.val % 2, 192, 0] : Fin 3 → ℕ) a := by decide +kernel
instance closedOff_k0_off150 (k : Fin k0_t1_loop.trips) : ClosedOff (k0_off150 k) := ⟨![k.val % 2, 192, 0], funext (off150_eq k)⟩
theorem off156_eq : ∀ k : Fin k0_t1_loop.trips, ∀ a, k0_off156 k a = (![k.val % 2, 192, 128] : Fin 3 → ℕ) a := by decide +kernel
instance closedOff_k0_off156 (k : Fin k0_t1_loop.trips) : ClosedOff (k0_off156 k) := ⟨![k.val % 2, 192, 128], funext (off156_eq k)⟩
theorem off162_eq : ∀ k : Fin k0_t1_loop.trips, ∀ a, k0_off162 k a = (![k.val % 2, 192, 256] : Fin 3 → ℕ) a := by decide +kernel
instance closedOff_k0_off162 (k : Fin k0_t1_loop.trips) : ClosedOff (k0_off162 k) := ⟨![k.val % 2, 192, 256], funext (off162_eq k)⟩
theorem off168_eq : ∀ k : Fin k0_t1_loop.trips, ∀ a, k0_off168 k a = (![k.val % 2, 192, 384] : Fin 3 → ℕ) a := by decide +kernel
instance closedOff_k0_off168 (k : Fin k0_t1_loop.trips) : ClosedOff (k0_off168 k) := ⟨![k.val % 2, 192, 384], funext (off168_eq k)⟩
theorem off174_eq : ∀ k : Fin k0_t1_loop.trips, ∀ a, k0_off174 k a = (![k.val % 2, 192, 512] : Fin 3 → ℕ) a := by decide +kernel
instance closedOff_k0_off174 (k : Fin k0_t1_loop.trips) : ClosedOff (k0_off174 k) := ⟨![k.val % 2, 192, 512], funext (off174_eq k)⟩
theorem off180_eq : ∀ k : Fin k0_t1_loop.trips, ∀ a, k0_off180 k a = (![k.val % 2, 192, 640] : Fin 3 → ℕ) a := by decide +kernel
instance closedOff_k0_off180 (k : Fin k0_t1_loop.trips) : ClosedOff (k0_off180 k) := ⟨![k.val % 2, 192, 640], funext (off180_eq k)⟩
theorem off186_eq : ∀ k : Fin k0_t1_loop.trips, ∀ a, k0_off186 k a = (![k.val % 2, 192, 768] : Fin 3 → ℕ) a := by decide +kernel
instance closedOff_k0_off186 (k : Fin k0_t1_loop.trips) : ClosedOff (k0_off186 k) := ⟨![k.val % 2, 192, 768], funext (off186_eq k)⟩
theorem off192_eq : ∀ k : Fin k0_t1_loop.trips, ∀ a, k0_off192 k a = (![k.val % 2, 192, 896] : Fin 3 → ℕ) a := by decide +kernel
instance closedOff_k0_off192 (k : Fin k0_t1_loop.trips) : ClosedOff (k0_off192 k) := ⟨![k.val % 2, 192, 896], funext (off192_eq k)⟩
theorem off194_eq : ∀ k : Fin k0_t1_loop.trips, ∀ a, k0_off194 k a = (![k.val % 2, 0, 0] : Fin 3 → ℕ) a := by decide +kernel
instance closedOff_k0_off194 (k : Fin k0_t1_loop.trips) : ClosedOff (k0_off194 k) := ⟨![k.val % 2, 0, 0], funext (off194_eq k)⟩
/-- A bank row below 1024 lies, with its whole 64 × 64 block, inside the bank. -/
theorem chk_gen (w : BitVec 32) (h : w.toNat < 1024) :
    ∀ a : Fin 3, (![(Scalar.indexCast w).toNat, 0, 0] : Fin 3 → ℕ) a + S1x64x64.size a ≤ S1024x64x64.size a := by
  intro a
  have h' : (Scalar.indexCast w).toNat = w.toNat := rfl
  match a with
  | ⟨0, _⟩ => show (Scalar.indexCast w).toNat + 1 ≤ 1024; omega
  | ⟨1, _⟩ => show 0 + 64 ≤ 64; omega
  | ⟨2, _⟩ => show 0 + 64 ≤ 64; omega

/-- The table as the words a scalar load returns. -/
abbrev tword (arg1 : Memref sig .tc .smem S128x128 .i32) (T : BufTy.Contents (Elt F) arg1.view.ty) (y : S128x128.Idx) : BitVec 32 :=
  arg1.view.read (Elt F) T y

end Cert.Kernel.Hand

end
-- ==== Proof.K.Trip.lean ====
/-
  One trip of the kernel's loop over the groups of four table rows, and the loop by its invariant.

  Trip k reads 64 words of the table (rows 4k … 4k+3, the 16 columns of the grid point), loads the 64 bank blocks they
  name — each load inside the bank because the word is below 1024 —, stores them pairwise into the 32 tiles of slot
  k mod 2 of the assembly scratch (which together cover the slot), loads the slot back, multiplies columns
  256k … 256k+255 of x by it and adds the product to the accumulator. What the trip leaves in the two scratch buffers
  is named by the run itself; the invariant says each holds the writes of the trips so far over what it held at entry.
-/
import proofs.«427164_j50603304682317_2_alg».proof.Proof.K.Offsets

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One trip's resources. -/
abbrev Trip (c : Dev nD) (q : PosShare TreeShare) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (T : BufTy.Contents (Elt F) arg1.view.ty) (X : BufTy.Contents (Elt F) arg2.view.ty) (B : BufTy.Contents (Elt F) arg3.view.ty) (f6 : BufTy.Contents (Elt F) arg6.view.ty) (f7 : BufTy.Contents (Elt F) arg7.view.ty) : sProp 𝕄G :=
  iprop((arg1.view.loc (c : Thread nD τ) ↦[arg1.view.set]{q} T) ∗ (arg2.view.loc (c : Thread nD τ) ↦[arg2.view.set]{fullShare} X) ∗ (arg3.view.loc (c : Thread nD τ) ↦[arg3.view.set]{fullShare} B) ∗ (arg6.view.loc (c : Thread nD τ) ↦[arg6.view.set]{fullShare} f6) ∗ (arg7.view.loc (c : Thread nD τ) ↦[arg7.view.set]{fullShare} f7))

set_option maxHeartbeats 4000000 in
/-- ONE TRIP at a symbolic k: the pieces it writes into the accumulator (a function of what the trip finds there: it
    loads it back) and into the assembly scratch are the run's own finds. -/
@[irreducible] def trip (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (k : Fin k0_t1_loop.trips) :
    Σ' (L6 : BufTy.Contents (Elt F) arg6.view.ty → List (View.Piece (Elt F) S256x1024 .f32)),
      { L7 : List (View.Piece (Elt F) S2x256x1024 .bf16) // ∀ (q : PosShare TreeShare) (E : Set ℕ) (f6 : BufTy.Contents (Elt F) arg6.view.ty) (f7 : BufTy.Contents (Elt F) arg7.view.ty),
      Trip (F := F) c q arg1 harg1 arg2 harg2 arg3 harg3 arg4 harg4 arg5 harg5 arg6 harg6 arg7 harg7 T X B f6 f7
      ⊢ wp frame (wpE (defs₀ (F := F)) 𝒱 (c : Thread nD τ) bd) E (k0_t1_body (F := F) i arg1 harg1 arg2 harg2 arg3 harg3 arg4 harg4 arg5 harg5 arg6 harg6 arg7 harg7 v0 k PUnit.unit)
          (fun _ => Trip (F := F) c q arg1 harg1 arg2 harg2 arg3 harg3 arg4 harg4 arg5 harg5 arg6 harg6 arg7 harg7 T X B (arg6.view.writes (Elt F) f6 (L6 f6)) (arg7.view.writes (Elt F) f7 L7)) } := by
  have hk : k.val < 32 := Nat.lt_of_lt_of_le k.isLt k0_t1_abs.2.1
  refine ⟨?_, ?_, fun q E f6 f7 => ?run⟩
  case run =>
    unfold k0_t1_body
    iintro ⟨HR1, HR2, HR3, HW6, HW7⟩
    sl_exec (disch := exact chk_gen _ (hT _))
    sl_step
    sl_close

/-- The trip's pieces (plain projections, for the recursions below). -/
abbrev tripL6 (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (k : Fin k0_t1_loop.trips) (f6 : BufTy.Contents (Elt F) arg6.view.ty) : List (View.Piece (Elt F) S256x1024 .f32) :=
  (trip (F := F) 𝒱 c bd i arg1 harg1 arg2 harg2 arg3 harg3 arg4 harg4 arg5 harg5 arg6 harg6 arg7 harg7 v0 T X B hT k).1 f6
abbrev tripL7 (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (k : Fin k0_t1_loop.trips) : List (View.Piece (Elt F) S2x256x1024 .bf16) :=
  (trip (F := F) 𝒱 c bd i arg1 harg1 arg2 harg2 arg3 harg3 arg4 harg4 arg5 harg5 arg6 harg6 arg7 harg7 v0 T X B hT k).2.1

/-- The accumulator's pieces of the trips before k (last first) over its contents G6 at loop entry, each trip's taken
    at what the earlier trips left. -/
def pb6 (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (G6 : BufTy.Contents (Elt F) arg6.view.ty) : ℕ → List (View.Piece (Elt F) S256x1024 .f32)
  | 0 => []
  | k + 1 =>
    if h : k < k0_t1_loop.trips then
      tripL6 (F := F) 𝒱 c bd i arg1 harg1 arg2 harg2 arg3 harg3 arg4 harg4 arg5 harg5 arg6 harg6 arg7 harg7 v0 T X B hT ⟨k, h⟩ (arg6.view.writes (Elt F) G6 (pb6 𝒱 c bd i arg1 harg1 arg2 harg2 arg3 harg3 arg4 harg4 arg5 harg5 arg6 harg6 arg7 harg7 v0 T X B hT G6 k))
        ++ pb6 𝒱 c bd i arg1 harg1 arg2 harg2 arg3 harg3 arg4 harg4 arg5 harg5 arg6 harg6 arg7 harg7 v0 T X B hT G6 k
    else pb6 𝒱 c bd i arg1 harg1 arg2 harg2 arg3 harg3 arg4 harg4 arg5 harg5 arg6 harg6 arg7 harg7 v0 T X B hT G6 k

/-- The assembly scratch's pieces of the trips before k (last first). -/
def pb7 (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) : ℕ → List (View.Piece (Elt F) S2x256x1024 .bf16)
  | 0 => []
  | k + 1 =>
    if h : k < k0_t1_loop.trips then
      tripL7 (F := F) 𝒱 c bd i arg1 harg1 arg2 harg2 arg3 harg3 arg4 harg4 arg5 harg5 arg6 harg6 arg7 harg7 v0 T X B hT ⟨k, h⟩ ++ pb7 𝒱 c bd i arg1 harg1 arg2 harg2 arg3 harg3 arg4 harg4 arg5 harg5 arg6 harg6 arg7 harg7 v0 T X B hT k
    else pb7 𝒱 c bd i arg1 harg1 arg2 harg2 arg3 harg3 arg4 harg4 arg5 harg5 arg6 harg6 arg7 harg7 v0 T X B hT k

theorem pb6_succ (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (G6 : BufTy.Contents (Elt F) arg6.view.ty) (k : Fin k0_t1_loop.trips) :
    pb6 (F := F) 𝒱 c bd i arg1 harg1 arg2 harg2 arg3 harg3 arg4 harg4 arg5 harg5 arg6 harg6 arg7 harg7 v0 T X B hT G6 (k.val + 1)
      = tripL6 (F := F) 𝒱 c bd i arg1 harg1 arg2 harg2 arg3 harg3 arg4 harg4 arg5 harg5 arg6 harg6 arg7 harg7 v0 T X B hT k (arg6.view.writes (Elt F) G6 (pb6 (F := F) 𝒱 c bd i arg1 harg1 arg2 harg2 arg3 harg3 arg4 harg4 arg5 harg5 arg6 harg6 arg7 harg7 v0 T X B hT G6 k.val))
        ++ pb6 (F := F) 𝒱 c bd i arg1 harg1 arg2 harg2 arg3 harg3 arg4 harg4 arg5 harg5 arg6 harg6 arg7 harg7 v0 T X B hT G6 k.val := by
  rw [pb6.eq_2]; exact dif_pos k.isLt

theorem pb7_succ (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (k : Fin k0_t1_loop.trips) :
    pb7 (F := F) 𝒱 c bd i arg1 harg1 arg2 harg2 arg3 harg3 arg4 harg4 arg5 harg5 arg6 harg6 arg7 harg7 v0 T X B hT (k.val + 1)
      = tripL7 (F := F) 𝒱 c bd i arg1 harg1 arg2 harg2 arg3 harg3 arg4 harg4 arg5 harg5 arg6 harg6 arg7 harg7 v0 T X B hT k ++ pb7 (F := F) 𝒱 c bd i arg1 harg1 arg2 harg2 arg3 harg3 arg4 harg4 arg5 harg5 arg6 harg6 arg7 harg7 v0 T X B hT k.val := by
  rw [pb7.eq_2]; exact dif_pos k.isLt

/-- THE INVARIANT before trip k: the table, x and the bank as they are; the accumulator and the assembly scratch
    holding the writes of the trips before k over their contents at loop entry. -/
abbrev inv (𝒱 : Variants) (c : Dev nD) (bd : Option 𝒱.V) (q : PosShare TreeShare) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (G6 : BufTy.Contents (Elt F) arg6.view.ty) (G7 : BufTy.Contents (Elt F) arg7.view.ty) (k : ℕ) (_u : PUnit) : sProp 𝕄G :=
  iprop((arg1.view.loc (c : Thread nD τ) ↦[arg1.view.set]{q} T) ∗ (arg2.view.loc (c : Thread nD τ) ↦[arg2.view.set]{fullShare} X) ∗ (arg3.view.loc (c : Thread nD τ) ↦[arg3.view.set]{fullShare} B)
    ∗ (∃ f, (arg6.view.loc (c : Thread nD τ) ↦[arg6.view.set]{fullShare} f) ∗ ⌜f = arg6.view.writes (Elt F) G6 (pb6 (F := F) 𝒱 c bd i arg1 harg1 arg2 harg2 arg3 harg3 arg4 harg4 arg5 harg5 arg6 harg6 arg7 harg7 v0 T X B hT G6 k)⌝)
    ∗ (∃ f, (arg7.view.loc (c : Thread nD τ) ↦[arg7.view.set]{fullShare} f) ∗ ⌜f = arg7.view.writes (Elt F) G7 (pb7 (F := F) 𝒱 c bd i arg1 harg1 arg2 harg2 arg3 harg3 arg4 harg4 arg5 harg5 arg6 harg6 arg7 harg7 v0 T X B hT k)⌝))

set_option warn.classDefReducibility false in
/-- THE LOOP BY ITS INVARIANT. -/
@[sl_loop] def loopInv (𝒱 : Variants) (c : Dev nD) (bd : Option 𝒱.V) (E : Set ℕ) (q : PosShare TreeShare) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (G6 : BufTy.Contents (Elt F) arg6.view.ty) (G7 : BufTy.Contents (Elt F) arg7.view.ty) :
    LoopInvTy_k0_t1 (F := F) Unit ℕ (UR sig nD τ) ℕ 𝒱 c bd E i arg1 harg1 arg2 harg2 arg3 harg3 arg4 harg4 arg5 harg5 arg6 harg6 arg7 harg7 v0 where
  inv := inv (F := F) 𝒱 c bd q i arg1 harg1 arg2 harg2 arg3 harg3 arg4 harg4 arg5 harg5 arg6 harg6 arg7 harg7 v0 T X B hT G6 G7
  step k acc := by
    iintro ⟨HR1, HR2, HR3, ⟨%f6, HW6, %h6⟩, ⟨%f7, HW7, %h7⟩⟩
    iapply (wp_wand_r Idealize.ShloMosaic.frame (wpE (defs₀ (F := F)) 𝒱 (c : Thread nD τ) bd) E)
    isplitl [HR1 HR2 HR3 HW6 HW7]
    · iapply ((trip (F := F) 𝒱 c bd i arg1 harg1 arg2 harg2 arg3 harg3 arg4 harg4 arg5 harg5 arg6 harg6 arg7 harg7 v0 T X B hT k).2.2 q E f6 f7)
      isplitl [HR1]; · iexact HR1
      isplitl [HR2]; · iexact HR2
      isplitl [HR3]; · iexact HR3
      isplitl [HW6]; · iexact HW6
      iexact HW7
    · iintro %_ ⟨HR1, HR2, HR3, HW6, HW7⟩
      isplitl [HR1]; · iexact HR1
      isplitl [HR2]; · iexact HR2
      isplitl [HR3]; · iexact HR3
      rw [pb6_succ, pb7_succ]
      isplitl [HW6]
      · iexists _; isplitl [HW6]; · iexact HW6
        ipureintro; rw [h6, ← View.writes_append]
      · iexists _; isplitl [HW7]; · iexact HW7
        ipureintro; rw [h7, ← View.writes_append]

end Cert.Kernel.Hand

end
-- ==== Proof.K.Run.lean ====
/-
  The kernel body on any whole memrefs, as a triple the run finds.

  At a grid point the body zeroes the accumulator, goes through the loop of 32 trips by its invariant, then loads the
  accumulator and the bias block and stores their sum over the whole output block. Handed the table at words below
  1024, x, the bank and the bias block at their contents, it runs to the end holding them as they were; what it leaves
  in the output block is named by the run, and the two scratch buffers end at contents nobody needs again.
-/
import proofs.«427164_j50603304682317_2_alg».proof.Proof.K.Trip
import Idealize.ShloMosaic.Lib.Pipeline.FrameBody
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block's staging memref, as pieces (last first), with the proof that
    the body runs to the continuation holding the inputs as they were and the output with its pieces written. -/
noncomputable def kernelRun (c : Dev nD) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole)
    (x0 : Vec F S256x8192 .bf16) (x1 : Vec F S1024x64x64 .bf16) (x2 : Vec F S1x1024 .f32) (xt : BufTy.Contents (Elt F) arg1.view.ty)
    (hT : ∀ y, (tword (F := F) arg1 xt y).toNat < 1024) :
    { L5 : List (View.Piece (Elt F) S256x1024 .f32) //
      ∀ (q : PosShare TreeShare) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (arg1.view.loc (c : Thread nD τ) ↦[arg1.view.set]{q} xt)
            ∗ (∃ f, arg6.view.loc (c : Thread nD τ) ↦[arg6.view.set]{fullShare} f)
            ∗ (∃ f, arg7.view.loc (c : Thread nD τ) ↦[arg7.view.set]{fullShare} f)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5)
                ∗ (arg1.view.loc (c : Thread nD τ) ↦[arg1.view.set]{q} xt)
                ∗ (∃ f, arg6.view.loc (c : Thread nD τ) ↦[arg6.view.set]{fullShare} f)
                ∗ (∃ f, arg7.view.loc (c : Thread nD τ) ↦[arg7.view.set]{fullShare} f)) -∗ K ⟨⟩))
          ⊢ wp frame (wpE (defs₀ (F := F)) Variants.none c none) E (cc0__mosaic_matmul_kernel i arg1 harg1 arg2 harg2 arg3 harg3 arg4 harg4 arg5 harg5 arg6 harg6 arg7 harg7) K } := by
  refine ⟨?_, fun q E K => ?run⟩
  case run =>
    simp only [cc0__mosaic_matmul_kernel_eq_skeleton]; unfold cc0__mosaic_matmul_kernel_skel
    unfold owns
    iintro ⟨⟨%f2, %hf2, H2⟩, ⟨%f3, %hf3, H3⟩, ⟨%f4, %hf4, H4⟩, ⟨%d5, %f5, -, H5⟩, HT, ⟨%f6, H6⟩, ⟨%f7, H7⟩, Hk⟩
    obtain rfl := harg2.eq_unread hf2
    obtain rfl := harg3.eq_unread hf3
    obtain rfl := harg4.eq_unread hf4
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [HT]; · iexact HT
    isplitl [H6]; · iexists _; iexact H6
    iexists _; iexact H7

end Cert.Kernel.Hand

end
-- ==== Proof.K.Kit.lean ====
/-
  @main up to the kernel region, the prefetched table as the region finds it, the windows' blocks, and the frame claim
  read off a frame run.

  Before the region @main clips the table of block numbers into [0, 1023] (a maximum with 0, then a minimum with 1023),
  converts x and the bank to bf16 and reshapes the bias to one row; none of these writes an argument array. The
  region's pipeline has four windows: x and the bank whole (fetched once), the bias and the output in blocks of 1024
  columns, one per grid point; the clipped table is prefetched into scalar memory.
-/
import proofs.«427164_j50603304682317_2_alg».proof.Proof.Gen.Kernel.Launch
import proofs.«427164_j50603304682317_2_alg».proof.Proof.Gen.Kernel.Skeleton
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's TensorCore buffers when the region is entered: the three stretches of host operations have run. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main up to the region: the lines of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The prefetched table, read off the region-entry contents -/

/-- The table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table: every contents is admissible. -/
abbrev adm : (pcfg0 (F := F)).Adm := ⟨tbl m, trivial⟩
abbrev cfgM : Pipeline.Cfg sig Λ₀ := cfg0 (adm m)

/-- The table as the body is handed it: its whole buffer as a memref. -/
abbrev tbM : Memref sig .tc .smem S128x128 .i32 := Memref.whole main_v0
abbrev htbM : tbM.IsWhole := Memref.isWhole_whole _
/-- The two scratch buffers, as the pipeline passes them. -/
abbrev accM : Memref sig .tc .vmem S256x1024 .f32 := Memref.whole cc0_scratch0
abbrev haccM : accM.IsWhole := Memref.isWhole_whole _
abbrev wtM : Memref sig .tc .vmem S2x256x1024 .bf16 := Memref.whole cc0_scratch1
abbrev hwtM : wtM.IsWhole := Memref.isWhole_whole _

/-- The table's half the region hands the body, as a points-to. -/
theorem PhiT_eq (c : Dev nD) : (Pipeline.ΦT pre0 (tbl m) c : sProp 𝕄) = (tbM.view.loc (c : Thread nD τ) ↦{fullShare.right} tbl m 0) := by
  unfold Pipeline.ΦT Pipeline.prefHeld
  rw [show (Finset.univ : Finset (Fin 1)) = {(0 : Fin 1)} from by decide, bigSep_singleton]
  rfl

/-! ## The windows' blocks and schedule -/

/-- Window w's block at point t, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point t, spelled as the pipeline passes it, and its wholeness. -/
abbrev ms0 (t : Fin (cfgM m).N) : Memref sig .tc .vmem S256x8192 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1024x64x64 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1024 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S256x1024 .f32 := spec0_3.stage ((cfgM m).slots t 3)
abbrev hs3 (t : Fin (cfgM m).N) : (ms3 m t).IsWhole := hstage0_3 (((cfgM m).slots t 3).cast nbuf0_3)

/-- The kernel body at point t, on what the pipeline calls it with. -/
abbrev bodyAt (t : Fin (cfgM m).N) : Prog (TpuEff nD τ sig (Elt F) Λ₀ .tc) PUnit :=
  cc0__mosaic_matmul_kernel (grid0.coords t) tbM htbM (ms0 m t) (hs0 m t) (ms1 m t) (hs1 m t) (ms2 m t) (hs2 m t) (ms3 m t) (hs3 m t) accM haccM wtM hwtM

/-! ## The frame claim's post from the frame run's -/

/-- The frame from a frame run: the argument arrays, which no window stages and no host operation writes, end as
    launched. -/
theorem frame_of (dats : (p : Fin 1) → (c : Dev nD) → Dat τ (Elt F) Unit ℕ (UR sig nD τ) ℕ ((Pipeline.pin pcfgs fun _ => adm m) p) c)
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

end Cert.Kernel.Hand

end
-- ==== Proof.K.Table.lean ====
/-
  The prefetched table as the region finds it: the table of block numbers clipped into [0, 1023]. Every word of it is
  below 1024, whatever the input table holds; and where every input word is already below 1024 (as a natural number:
  non-negative as a signed word and inside the bank) the clip leaves the table as it is.
-/
import proofs.«427164_j50603304682317_2_alg».proof.Proof.K.Kit
import proofs.«427164_j50603304682317_2_alg».proof.Proof.K.Offsets
import Idealize.ShloMosaic.Lib.StableHlo.Run

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- The input table of block numbers, as launched (there is one device). -/
abbrev parts : IVec S128x128 32 := m (((0 : Dev nD) : Thread nD τ).loc main_arg3)

/-- A word clipped into [0, 1023] (signed maximum with 0, then signed minimum with 1023) is below 1024. -/
theorem clip_lt (w : BitVec 32) : (IntOp.minsi (1023#32) (IntOp.maxsi (0#32) w)).toNat < 1024 := by
  unfold IntOp.minsi IntOp.maxsi
  have e := BitVec.toInt_eq_toNat_cond w
  have hw := w.isLt
  by_cases h0 : w.slt 0#32
  · -- a negative word: the maximum is 0, which 1023 is not below
    rw [if_pos h0]
    have : ¬ (1023#32).slt 0#32 := by decide
    rw [if_neg this]; decide
  · rw [if_neg h0]
    by_cases h1 : (1023#32).slt w
    · rw [if_pos h1]; decide
    · -- 0 ≤ w ≤ 1023 as signed words, so as naturals
      rw [if_neg h1]
      rw [BitVec.slt] at h0 h1
      have e0 : (0#32 : BitVec 32).toInt = 0 := by decide
      have e1 : (1023#32 : BitVec 32).toInt = 1023 := by decide
      rw [e0] at h0; rw [e1] at h1
      simp only [decide_eq_true_eq] at h0 h1
      omega

/-- A word already below 1024 is its own clip. -/
theorem clip_id (w : BitVec 32) (h : w.toNat < 1024) : IntOp.minsi (1023#32) (IntOp.maxsi (0#32) w) = w := by
  unfold IntOp.minsi IntOp.maxsi
  have e := BitVec.toInt_eq_toNat_cond w
  have e0 : (0#32 : BitVec 32).toInt = 0 := by decide
  have e1 : (1023#32 : BitVec 32).toInt = 1023 := by decide
  have h0 : ¬ w.slt 0#32 := by
    rw [BitVec.slt, e0]; simp only [decide_eq_true_eq]; omega
  rw [if_neg h0]
  have h1 : ¬ (1023#32).slt w := by
    rw [BitVec.slt, e1]; simp only [decide_eq_true_eq]; omega
  rw [if_neg h1]

/-- The table's array when the region is entered: the input table, its maximum with the constant 0 and then the minimum
    of that with the constant 1023, both pointwise. -/
theorem V_v0 : (V m (0 : Dev nD) main_v0 : IVec S128x128 32)
    = minsi (broadcastInDim S128x128 ![] bcast_S_S128x128 (constantI S_ 32 1023#32))
        (maxsi (broadcastInDim S128x128 ![] bcast_S_S128x128 (constantI S_ 32 0#32)) (parts m)) := by
  dsimp only [V]
  simp only [hostOps0, hostOps0_1, hostOps0_2, List.flatten_cons, List.flatten_nil, List.append_nil, List.cons_append, List.nil_append]
  after_results
  rfl

/-- A constant scalar broadcast over the table's shape reads the constant at every index. -/
theorem bcast_const (c : BitVec 32) (y : S128x128.Idx) :
    broadcastInDim S128x128 ![] bcast_S_S128x128 (constantI S_ 32 c) y = c := rfl

/-- Every word of the prefetched table, as a scalar load returns it, is the clip of the input table's word there. -/
theorem tbl_word (y : S128x128.Idx) :
    tword (F := F) tbM (tbl m 0) y = IntOp.minsi (1023#32) (IntOp.maxsi (0#32) (parts m y)) := by
  -- the whole buffer's view reads the buffer as it is, and the table's one buffer is the clipped array
  show (V m (0 : Dev nD) main_v0 : IVec S128x128 32) y = _
  rw [V_v0]
  -- the vector maximum and minimum are the word operations at each index
  show IntOp.minsi (broadcastInDim S128x128 ![] bcast_S_S128x128 (constantI S_ 32 1023#32) y)
      (IntOp.maxsi (broadcastInDim S128x128 ![] bcast_S_S128x128 (constantI S_ 32 0#32) y) (parts m y)) = _
  rw [bcast_const, bcast_const]

/-- Every word of the prefetched table is below 1024. -/
theorem tbl_lt (y : S128x128.Idx) : (tword (F := F) tbM (tbl m 0) y).toNat < 1024 := by
  rw [tbl_word]; exact clip_lt _

/-- Where the input table's words are below 1024 the prefetched table is the input table. -/
theorem tbl_eq_parts (hP : ∀ j : S128x128.Idx, (parts m j).toNat < 1024) (y : S128x128.Idx) :
    tword (F := F) tbM (tbl m 0) y = parts m y := by
  rw [tbl_word]; exact clip_id _ (hP y)

end Cert.Kernel.Hand

end
-- ==== Proof.K.Frame.lean ====
/-
  The frame of the program: the pipeline's proof data, the body obligation at every grid point, the run and the frame
  claim.

  At each grid point the body finds x, the bank and the point's bias block in their staging buffers (fetched there or
  not), the clipped table in scalar memory and the two scratch buffers at anything; it leaves the inputs as they were
  and the output block at what the run computes from them. Nothing is carried from point to point.
-/
import proofs.«427164_j50603304682317_2_alg».proof.Proof.K.Run
import proofs.«427164_j50603304682317_2_alg».proof.Proof.K.Table

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated (the choice does not matter). -/
abbrev VO : View sig .tc .vmem S256x1024 .f32 := (Memref.whole cc0_stg3_0 : Memref sig .tc .vmem S256x1024 .f32).view

/-- The pieces the run leaves in the output block at point t. -/
abbrev outL (c : Dev nD) (t : Fin (cfgM m).N) : List (View.Piece (Elt F) S256x1024 .f32) :=
  (kernelRun c (grid0.coords t) tbM htbM (ms0 m t) (hs0 m t) (ms1 m t) (hs1 m t) (ms2 m t) (hs2 m t) (ms3 m t) (hs3 m t) accM haccM wtM hwtM
    (iblk m c 0 t) (iblk m c 1 t) (iblk m c 2 t) (tbl m 0) (tbl_lt m)).1

/-- One of them is a store of the whole block, so they cover it. -/
theorem outL_cover (c : Dev nD) (t : Fin (cfgM m).N) (y : S256x1024.Idx) : ∃ pc ∈ outL m c t, y ∈ pc.1.set :=
  View.cover_of_wholeMem (outL m c t) (by sl_whole_mem) y

/-- What the output block holds after the body at point t: the run's pieces read back over junk. -/
def outAt (c : Dev nD) (t : Fin (cfgM m).N) : Vec F S256x1024 .f32 :=
  VO.read (Elt F) (VO.writes (Elt F) VO.junk (outL m c t))

/-- The proof data of the one pipeline on core c: the arrays as the region finds them; after the body each input's
    buffer at its block and the output's at `outAt`; the invariant the scoped rest with the generator register and the
    table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = outAt m c t := by dsimp only [dats]; try rfl

theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d

/-- A whole buffer's points-to, in the two spellings. -/
theorem pt_whole (c : Dev nD) {sp : Space} {S : Shape} {e : EltTy} (b : Ref sig .tc) (hs : b.space = sp) (q : PosShare TreeShare)
    (M : Memref sig .tc sp S e) (hM : M.view.set = Finset.univ) (f : Buf (Elt F) (M.view.loc (c : Thread nD τ))) :
    (M.view.loc (c : Thread nD τ) ↦[M.view.set]{q} f : sProp 𝕄) = (M.view.loc (c : Thread nD τ) ↦{q} f) := by
  rw [hM]

/-- What the body is called with at point t, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

/-- The body at any point: the inputs' memrefs hold their blocks; so the run applies; the invariant's scratch buffers
    and the table's half pass through the run and come back; the core owes nothing throughout. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = iprop(Pipeline.ΦA spec0 c ∗ Pipeline.ΦT pre0 (tbl m) c) from rfl, PhiT_eq]
  unfold Pipeline.ΦA
  rw [scopedRest0_eq]
  unfold outAt
  iintro ⟨⟨⟨⟨⟨%f6, H6⟩, ⟨%f7, H7⟩⟩, Hp⟩, HT⟩, Ho, ⟨%d0, H0⟩, ⟨%d1, H1⟩, ⟨%d2, H2⟩, ⟨%d3, H3⟩⟩
  iapply ((kernelRun c (grid0.coords t) tbM htbM (ms0 m t) (hs0 m t) (ms1 m t) (hs1 m t) (ms2 m t) (hs2 m t) (ms3 m t) (hs3 m t) accM haccM wtM hwtM
    (iblk m c 0 t) (iblk m c 1 t) (iblk m c 2 t) (tbl m 0) (tbl_lt m)).2 fullShare.right Set.univ _)
  isplitl [H0]; · iexact H0
  isplitl [H1]; · iexact H1
  isplitl [H2]; · iexact H2
  isplitl [H3]; · iexists _; iexact H3
  isplitl [HT]
  · simp only [Memref.view_whole, View.set_whole]; iexact HT
  isplitl [H6]
  · iexists f6; simp only [Memref.view_whole, View.set_whole]; iexact H6
  isplitl [H7]
  · iexists f7; simp only [Memref.view_whole, View.set_whole]; iexact H7
  iintro ⟨H0, H1, H2, ⟨%e3, H3⟩, HT, ⟨%g6, H6⟩, ⟨%g7, H7⟩⟩
  isplitl [H6 H7 Hp HT]
  · isplitl [H6 H7 Hp]
    · isplitl [H6 H7]
      · isplitl [H6]
        · iexists g6; simp only [Memref.view_whole, View.set_whole]; iexact H6
        · iexists g7; simp only [Memref.view_whole, View.set_whole]; iexact H7
      · iexact Hp
    · simp only [Memref.view_whole, View.set_whole]; iexact HT
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outL_cover m c t)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- THE FRAME: the program runs, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Hand

end
-- ==== Proof.KI.Offsets.lean ====
/-
  The closed forms of the offsets the kernel computes inside the loop for the assembly scratch: trip k works in slot
  k mod 2; store number j (0 ≤ j < 32) goes to rows 64·(j div 8) … and columns 128·(j mod 8) … of that slot, and the
  load before the product reads the whole slot. And the side condition each table word must meet before its bank
  block is loaded: a word below 1024 names a block inside the bank.
-/
import proofs.«427164_j50603304682317_2_alg».proof.Proof.Gen.KernelIdeal.Loops
import proofs.«427164_j50603304682317_2_alg».proof.Proof.Gen.KernelIdeal.Launch

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem off6_eq : ∀ k : Fin k0_t1_loop.trips, ∀ a, k0_off6 k a = (![k.val % 2, 0, 0] : Fin 3 → ℕ) a := by decide +kernel
instance closedOff_k0_off6 (k : Fin k0_t1_loop.trips) : ClosedOff (k0_off6 k) := ⟨![k.val % 2, 0, 0], funext (off6_eq k)⟩
theorem off12_eq : ∀ k : Fin k0_t1_loop.trips, ∀ a, k0_off12 k a = (![k.val % 2, 0, 128] : Fin 3 → ℕ) a := by decide +kernel
instance closedOff_k0_off12 (k : Fin k0_t1_loop.trips) : ClosedOff (k0_off12 k) := ⟨![k.val % 2, 0, 128], funext (off12_eq k)⟩
theorem off18_eq : ∀ k : Fin k0_t1_loop.trips, ∀ a, k0_off18 k a = (![k.val % 2, 0, 256] : Fin 3 → ℕ) a := by decide +kernel
instance closedOff_k0_off18 (k : Fin k0_t1_loop.trips) : ClosedOff (k0_off18 k) := ⟨![k.val % 2, 0, 256], funext (off18_eq k)⟩
theorem off24_eq : ∀ k : Fin k0_t1_loop.trips, ∀ a, k0_off24 k a = (![k.val % 2, 0, 384] : Fin 3 → ℕ) a := by decide +kernel
instance closedOff_k0_off24 (k : Fin k0_t1_loop.trips) : ClosedOff (k0_off24 k) := ⟨![k.val % 2, 0, 384], funext (off24_eq k)⟩
theorem off30_eq : ∀ k : Fin k0_t1_loop.trips, ∀ a, k0_off30 k a = (![k.val % 2, 0, 512] : Fin 3 → ℕ) a := by decide +kernel
instance closedOff_k0_off30 (k : Fin k0_t1_loop.trips) : ClosedOff (k0_off30 k) := ⟨![k.val % 2, 0, 512], funext (off30_eq k)⟩
theorem off36_eq : ∀ k : Fin k0_t1_loop.trips, ∀ a, k0_off36 k a = (![k.val % 2, 0, 640] : Fin 3 → ℕ) a := by decide +kernel
instance closedOff_k0_off36 (k : Fin k0_t1_loop.trips) : ClosedOff (k0_off36 k) := ⟨![k.val % 2, 0, 640], funext (off36_eq k)⟩
theorem off42_eq : ∀ k : Fin k0_t1_loop.trips, ∀ a, k0_off42 k a = (![k.val % 2, 0, 768] : Fin 3 → ℕ) a := by decide +kernel
instance closedOff_k0_off42 (k : Fin k0_t1_loop.trips) : ClosedOff (k0_off42 k) := ⟨![k.val % 2, 0, 768], funext (off42_eq k)⟩
theorem off48_eq : ∀ k : Fin k0_t1_loop.trips, ∀ a, k0_off48 k a = (![k.val % 2, 0, 896] : Fin 3 → ℕ) a := by decide +kernel
instance closedOff_k0_off48 (k : Fin k0_t1_loop.trips) : ClosedOff (k0_off48 k) := ⟨![k.val % 2, 0, 896], funext (off48_eq k)⟩
theorem off54_eq : ∀ k : Fin k0_t1_loop.trips, ∀ a, k0_off54 k a = (![k.val % 2, 64, 0] : Fin 3 → ℕ) a := by decide +kernel
instance closedOff_k0_off54 (k : Fin k0_t1_loop.trips) : ClosedOff (k0_off54 k) := ⟨![k.val % 2, 64, 0], funext (off54_eq k)⟩
theorem off60_eq : ∀ k : Fin k0_t1_loop.trips, ∀ a, k0_off60 k a = (![k.val % 2, 64, 128] : Fin 3 → ℕ) a := by decide +kernel
instance closedOff_k0_off60 (k : Fin k0_t1_loop.trips) : ClosedOff (k0_off60 k) := ⟨![k.val % 2, 64, 128], funext (off60_eq k)⟩
theorem off66_eq : ∀ k : Fin k0_t1_loop.trips, ∀ a, k0_off66 k a = (![k.val % 2, 64, 256] : Fin 3 → ℕ) a := by decide +kernel
instance closedOff_k0_off66 (k : Fin k0_t1_loop.trips) : ClosedOff (k0_off66 k) := ⟨![k.val % 2, 64, 256], funext (off66_eq k)⟩
theorem off72_eq : ∀ k : Fin k0_t1_loop.trips, ∀ a, k0_off72 k a = (![k.val % 2, 64, 384] : Fin 3 → ℕ) a := by decide +kernel
instance closedOff_k0_off72 (k : Fin k0_t1_loop.trips) : ClosedOff (k0_off72 k) := ⟨![k.val % 2, 64, 384], funext (off72_eq k)⟩
theorem off78_eq : ∀ k : Fin k0_t1_loop.trips, ∀ a, k0_off78 k a = (![k.val % 2, 64, 512] : Fin 3 → ℕ) a := by decide +kernel
instance closedOff_k0_off78 (k : Fin k0_t1_loop.trips) : ClosedOff (k0_off78 k) := ⟨![k.val % 2, 64, 512], funext (off78_eq k)⟩
theorem off84_eq : ∀ k : Fin k0_t1_loop.trips, ∀ a, k0_off84 k a = (![k.val % 2, 64, 640] : Fin 3 → ℕ) a := by decide +kernel
instance closedOff_k0_off84 (k : Fin k0_t1_loop.trips) : ClosedOff (k0_off84 k) := ⟨![k.val % 2, 64, 640], funext (off84_eq k)⟩
theorem off90_eq : ∀ k : Fin k0_t1_loop.trips, ∀ a, k0_off90 k a = (![k.val % 2, 64, 768] : Fin 3 → ℕ) a := by decide +kernel
instance closedOff_k0_off90 (k : Fin k0_t1_loop.trips) : ClosedOff (k0_off90 k) := ⟨![k.val % 2, 64, 768], funext (off90_eq k)⟩
theorem off96_eq : ∀ k : Fin k0_t1_loop.trips, ∀ a, k0_off96 k a = (![k.val % 2, 64, 896] : Fin 3 → ℕ) a := by decide +kernel
instance closedOff_k0_off96 (k : Fin k0_t1_loop.trips) : ClosedOff (k0_off96 k) := ⟨![k.val % 2, 64, 896], funext (off96_eq k)⟩
theorem off102_eq : ∀ k : Fin k0_t1_loop.trips, ∀ a, k0_off102 k a = (![k.val % 2, 128, 0] : Fin 3 → ℕ) a := by decide +kernel
instance closedOff_k0_off102 (k : Fin k0_t1_loop.trips) : ClosedOff (k0_off102 k) := ⟨![k.val % 2, 128, 0], funext (off102_eq k)⟩
theorem off108_eq : ∀ k : Fin k0_t1_loop.trips, ∀ a, k0_off108 k a = (![k.val % 2, 128, 128] : Fin 3 → ℕ) a := by decide +kernel
instance closedOff_k0_off108 (k : Fin k0_t1_loop.trips) : ClosedOff (k0_off108 k) := ⟨![k.val % 2, 128, 128], funext (off108_eq k)⟩
theorem off114_eq : ∀ k : Fin k0_t1_loop.trips, ∀ a, k0_off114 k a = (![k.val % 2, 128, 256] : Fin 3 → ℕ) a := by decide +kernel
instance closedOff_k0_off114 (k : Fin k0_t1_loop.trips) : ClosedOff (k0_off114 k) := ⟨![k.val % 2, 128, 256], funext (off114_eq k)⟩
theorem off120_eq : ∀ k : Fin k0_t1_loop.trips, ∀ a, k0_off120 k a = (![k.val % 2, 128, 384] : Fin 3 → ℕ) a := by decide +kernel
instance closedOff_k0_off120 (k : Fin k0_t1_loop.trips) : ClosedOff (k0_off120 k) := ⟨![k.val % 2, 128, 384], funext (off120_eq k)⟩
theorem off126_eq : ∀ k : Fin k0_t1_loop.trips, ∀ a, k0_off126 k a = (![k.val % 2, 128, 512] : Fin 3 → ℕ) a := by decide +kernel
instance closedOff_k0_off126 (k : Fin k0_t1_loop.trips) : ClosedOff (k0_off126 k) := ⟨![k.val % 2, 128, 512], funext (off126_eq k)⟩
theorem off132_eq : ∀ k : Fin k0_t1_loop.trips, ∀ a, k0_off132 k a = (![k.val % 2, 128, 640] : Fin 3 → ℕ) a := by decide +kernel
instance closedOff_k0_off132 (k : Fin k0_t1_loop.trips) : ClosedOff (k0_off132 k) := ⟨![k.val % 2, 128, 640], funext (off132_eq k)⟩
theorem off138_eq : ∀ k : Fin k0_t1_loop.trips, ∀ a, k0_off138 k a = (![k.val % 2, 128, 768] : Fin 3 → ℕ) a := by decide +kernel
instance closedOff_k0_off138 (k : Fin k0_t1_loop.trips) : ClosedOff (k0_off138 k) := ⟨![k.val % 2, 128, 768], funext (off138_eq k)⟩
theorem off144_eq : ∀ k : Fin k0_t1_loop.trips, ∀ a, k0_off144 k a = (![k.val % 2, 128, 896] : Fin 3 → ℕ) a := by decide +kernel
instance closedOff_k0_off144 (k : Fin k0_t1_loop.trips) : ClosedOff (k0_off144 k) := ⟨![k.val % 2, 128, 896], funext (off144_eq k)⟩
theorem off150_eq : ∀ k : Fin k0_t1_loop.trips, ∀ a, k0_off150 k a = (![k.val % 2, 192, 0] : Fin 3 → ℕ) a := by decide +kernel
instance closedOff_k0_off150 (k : Fin k0_t1_loop.trips) : ClosedOff (k0_off150 k) := ⟨![k.val % 2, 192, 0], funext (off150_eq k)⟩
theorem off156_eq : ∀ k : Fin k0_t1_loop.trips, ∀ a, k0_off156 k a = (![k.val % 2, 192, 128] : Fin 3 → ℕ) a := by decide +kernel
instance closedOff_k0_off156 (k : Fin k0_t1_loop.trips) : ClosedOff (k0_off156 k) := ⟨![k.val % 2, 192, 128], funext (off156_eq k)⟩
theorem off162_eq : ∀ k : Fin k0_t1_loop.trips, ∀ a, k0_off162 k a = (![k.val % 2, 192, 256] : Fin 3 → ℕ) a := by decide +kernel
instance closedOff_k0_off162 (k : Fin k0_t1_loop.trips) : ClosedOff (k0_off162 k) := ⟨![k.val % 2, 192, 256], funext (off162_eq k)⟩
theorem off168_eq : ∀ k : Fin k0_t1_loop.trips, ∀ a, k0_off168 k a = (![k.val % 2, 192, 384] : Fin 3 → ℕ) a := by decide +kernel
instance closedOff_k0_off168 (k : Fin k0_t1_loop.trips) : ClosedOff (k0_off168 k) := ⟨![k.val % 2, 192, 384], funext (off168_eq k)⟩
theorem off174_eq : ∀ k : Fin k0_t1_loop.trips, ∀ a, k0_off174 k a = (![k.val % 2, 192, 512] : Fin 3 → ℕ) a := by decide +kernel
instance closedOff_k0_off174 (k : Fin k0_t1_loop.trips) : ClosedOff (k0_off174 k) := ⟨![k.val % 2, 192, 512], funext (off174_eq k)⟩
theorem off180_eq : ∀ k : Fin k0_t1_loop.trips, ∀ a, k0_off180 k a = (![k.val % 2, 192, 640] : Fin 3 → ℕ) a := by decide +kernel
instance closedOff_k0_off180 (k : Fin k0_t1_loop.trips) : ClosedOff (k0_off180 k) := ⟨![k.val % 2, 192, 640], funext (off180_eq k)⟩
theorem off186_eq : ∀ k : Fin k0_t1_loop.trips, ∀ a, k0_off186 k a = (![k.val % 2, 192, 768] : Fin 3 → ℕ) a := by decide +kernel
instance closedOff_k0_off186 (k : Fin k0_t1_loop.trips) : ClosedOff (k0_off186 k) := ⟨![k.val % 2, 192, 768], funext (off186_eq k)⟩
theorem off192_eq : ∀ k : Fin k0_t1_loop.trips, ∀ a, k0_off192 k a = (![k.val % 2, 192, 896] : Fin 3 → ℕ) a := by decide +kernel
instance closedOff_k0_off192 (k : Fin k0_t1_loop.trips) : ClosedOff (k0_off192 k) := ⟨![k.val % 2, 192, 896], funext (off192_eq k)⟩
theorem off194_eq : ∀ k : Fin k0_t1_loop.trips, ∀ a, k0_off194 k a = (![k.val % 2, 0, 0] : Fin 3 → ℕ) a := by decide +kernel
instance closedOff_k0_off194 (k : Fin k0_t1_loop.trips) : ClosedOff (k0_off194 k) := ⟨![k.val % 2, 0, 0], funext (off194_eq k)⟩
/-- A bank row below 1024 lies, with its whole 64 × 64 block, inside the bank. -/
theorem chk_gen (w : BitVec 32) (h : w.toNat < 1024) :
    ∀ a : Fin 3, (![(Scalar.indexCast w).toNat, 0, 0] : Fin 3 → ℕ) a + S1x64x64.size a ≤ S1024x64x64.size a := by
  intro a
  have h' : (Scalar.indexCast w).toNat = w.toNat := rfl
  match a with
  | ⟨0, _⟩ => show (Scalar.indexCast w).toNat + 1 ≤ 1024; omega
  | ⟨1, _⟩ => show 0 + 64 ≤ 64; omega
  | ⟨2, _⟩ => show 0 + 64 ≤ 64; omega

/-- The table as the words a scalar load returns. -/
abbrev tword (arg1 : Memref sig .tc .smem S128x128 .i32) (T : BufTy.Contents (Elt F) arg1.view.ty) (y : S128x128.Idx) : BitVec 32 :=
  arg1.view.read (Elt F) T y

end Cert.KernelIdeal.Hand

end
-- ==== Proof.KI.Trip.lean ====
/-
  One trip of the kernel's loop over the groups of four table rows, and the loop by its invariant.

  Trip k reads 64 words of the table (rows 4k … 4k+3, the 16 columns of the grid point), loads the 64 bank blocks they
  name — each load inside the bank because the word is below 1024 —, stores them pairwise into the 32 tiles of slot
  k mod 2 of the assembly scratch (which together cover the slot), loads the slot back, multiplies columns
  256k … 256k+255 of x by it and adds the product to the accumulator. What the trip leaves in the two scratch buffers
  is named by the run itself; the invariant says each holds the writes of the trips so far over what it held at entry.
-/
import proofs.«427164_j50603304682317_2_alg».proof.Proof.KI.Offsets

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One trip's resources. -/
abbrev Trip (c : Dev nD) (q : PosShare TreeShare) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (T : BufTy.Contents (Elt F) arg1.view.ty) (X : BufTy.Contents (Elt F) arg2.view.ty) (B : BufTy.Contents (Elt F) arg3.view.ty) (f6 : BufTy.Contents (Elt F) arg6.view.ty) (f7 : BufTy.Contents (Elt F) arg7.view.ty) : sProp 𝕄G :=
  iprop((arg1.view.loc (c : Thread nD τ) ↦[arg1.view.set]{q} T) ∗ (arg2.view.loc (c : Thread nD τ) ↦[arg2.view.set]{fullShare} X) ∗ (arg3.view.loc (c : Thread nD τ) ↦[arg3.view.set]{fullShare} B) ∗ (arg6.view.loc (c : Thread nD τ) ↦[arg6.view.set]{fullShare} f6) ∗ (arg7.view.loc (c : Thread nD τ) ↦[arg7.view.set]{fullShare} f7))

set_option maxHeartbeats 4000000 in
/-- ONE TRIP at a symbolic k: the pieces it writes into the accumulator (a function of what the trip finds there: it
    loads it back) and into the assembly scratch are the run's own finds. -/
@[irreducible] def trip (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (k : Fin k0_t1_loop.trips) :
    Σ' (L6 : BufTy.Contents (Elt F) arg6.view.ty → List (View.Piece (Elt F) S256x1024 .f32)),
      { L7 : List (View.Piece (Elt F) S2x256x1024 .bf16) // ∀ (q : PosShare TreeShare) (E : Set ℕ) (f6 : BufTy.Contents (Elt F) arg6.view.ty) (f7 : BufTy.Contents (Elt F) arg7.view.ty),
      Trip (F := F) c q arg1 harg1 arg2 harg2 arg3 harg3 arg4 harg4 arg5 harg5 arg6 harg6 arg7 harg7 T X B f6 f7
      ⊢ wp frame (wpE (defs₀ (F := F)) 𝒱 (c : Thread nD τ) bd) E (k0_t1_body (F := F) i arg1 harg1 arg2 harg2 arg3 harg3 arg4 harg4 arg5 harg5 arg6 harg6 arg7 harg7 v0 k PUnit.unit)
          (fun _ => Trip (F := F) c q arg1 harg1 arg2 harg2 arg3 harg3 arg4 harg4 arg5 harg5 arg6 harg6 arg7 harg7 T X B (arg6.view.writes (Elt F) f6 (L6 f6)) (arg7.view.writes (Elt F) f7 L7)) } := by
  have hk : k.val < 32 := Nat.lt_of_lt_of_le k.isLt k0_t1_abs.2.1
  refine ⟨?_, ?_, fun q E f6 f7 => ?run⟩
  case run =>
    unfold k0_t1_body
    iintro ⟨HR1, HR2, HR3, HW6, HW7⟩
    sl_exec (disch := exact chk_gen _ (hT _))
    sl_step
    sl_close

/-- The trip's pieces (plain projections, for the recursions below). -/
abbrev tripL6 (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (k : Fin k0_t1_loop.trips) (f6 : BufTy.Contents (Elt F) arg6.view.ty) : List (View.Piece (Elt F) S256x1024 .f32) :=
  (trip (F := F) 𝒱 c bd i arg1 harg1 arg2 harg2 arg3 harg3 arg4 harg4 arg5 harg5 arg6 harg6 arg7 harg7 v0 T X B hT k).1 f6
abbrev tripL7 (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (k : Fin k0_t1_loop.trips) : List (View.Piece (Elt F) S2x256x1024 .bf16) :=
  (trip (F := F) 𝒱 c bd i arg1 harg1 arg2 harg2 arg3 harg3 arg4 harg4 arg5 harg5 arg6 harg6 arg7 harg7 v0 T X B hT k).2.1

/-- The accumulator's pieces of the trips before k (last first) over its contents G6 at loop entry, each trip's taken
    at what the earlier trips left. -/
def pb6 (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (G6 : BufTy.Contents (Elt F) arg6.view.ty) : ℕ → List (View.Piece (Elt F) S256x1024 .f32)
  | 0 => []
  | k + 1 =>
    if h : k < k0_t1_loop.trips then
      tripL6 (F := F) 𝒱 c bd i arg1 harg1 arg2 harg2 arg3 harg3 arg4 harg4 arg5 harg5 arg6 harg6 arg7 harg7 v0 T X B hT ⟨k, h⟩ (arg6.view.writes (Elt F) G6 (pb6 𝒱 c bd i arg1 harg1 arg2 harg2 arg3 harg3 arg4 harg4 arg5 harg5 arg6 harg6 arg7 harg7 v0 T X B hT G6 k))
        ++ pb6 𝒱 c bd i arg1 harg1 arg2 harg2 arg3 harg3 arg4 harg4 arg5 harg5 arg6 harg6 arg7 harg7 v0 T X B hT G6 k
    else pb6 𝒱 c bd i arg1 harg1 arg2 harg2 arg3 harg3 arg4 harg4 arg5 harg5 arg6 harg6 arg7 harg7 v0 T X B hT G6 k

/-- The assembly scratch's pieces of the trips before k (last first). -/
def pb7 (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) : ℕ → List (View.Piece (Elt F) S2x256x1024 .bf16)
  | 0 => []
  | k + 1 =>
    if h : k < k0_t1_loop.trips then
      tripL7 (F := F) 𝒱 c bd i arg1 harg1 arg2 harg2 arg3 harg3 arg4 harg4 arg5 harg5 arg6 harg6 arg7 harg7 v0 T X B hT ⟨k, h⟩ ++ pb7 𝒱 c bd i arg1 harg1 arg2 harg2 arg3 harg3 arg4 harg4 arg5 harg5 arg6 harg6 arg7 harg7 v0 T X B hT k
    else pb7 𝒱 c bd i arg1 harg1 arg2 harg2 arg3 harg3 arg4 harg4 arg5 harg5 arg6 harg6 arg7 harg7 v0 T X B hT k

theorem pb6_succ (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (G6 : BufTy.Contents (Elt F) arg6.view.ty) (k : Fin k0_t1_loop.trips) :
    pb6 (F := F) 𝒱 c bd i arg1 harg1 arg2 harg2 arg3 harg3 arg4 harg4 arg5 harg5 arg6 harg6 arg7 harg7 v0 T X B hT G6 (k.val + 1)
      = tripL6 (F := F) 𝒱 c bd i arg1 harg1 arg2 harg2 arg3 harg3 arg4 harg4 arg5 harg5 arg6 harg6 arg7 harg7 v0 T X B hT k (arg6.view.writes (Elt F) G6 (pb6 (F := F) 𝒱 c bd i arg1 harg1 arg2 harg2 arg3 harg3 arg4 harg4 arg5 harg5 arg6 harg6 arg7 harg7 v0 T X B hT G6 k.val))
        ++ pb6 (F := F) 𝒱 c bd i arg1 harg1 arg2 harg2 arg3 harg3 arg4 harg4 arg5 harg5 arg6 harg6 arg7 harg7 v0 T X B hT G6 k.val := by
  rw [pb6.eq_2]; exact dif_pos k.isLt

theorem pb7_succ (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (k : Fin k0_t1_loop.trips) :
    pb7 (F := F) 𝒱 c bd i arg1 harg1 arg2 harg2 arg3 harg3 arg4 harg4 arg5 harg5 arg6 harg6 arg7 harg7 v0 T X B hT (k.val + 1)
      = tripL7 (F := F) 𝒱 c bd i arg1 harg1 arg2 harg2 arg3 harg3 arg4 harg4 arg5 harg5 arg6 harg6 arg7 harg7 v0 T X B hT k ++ pb7 (F := F) 𝒱 c bd i arg1 harg1 arg2 harg2 arg3 harg3 arg4 harg4 arg5 harg5 arg6 harg6 arg7 harg7 v0 T X B hT k.val := by
  rw [pb7.eq_2]; exact dif_pos k.isLt

/-- THE INVARIANT before trip k: the table, x and the bank as they are; the accumulator and the assembly scratch
    holding the writes of the trips before k over their contents at loop entry. -/
abbrev inv (𝒱 : Variants) (c : Dev nD) (bd : Option 𝒱.V) (q : PosShare TreeShare) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (G6 : BufTy.Contents (Elt F) arg6.view.ty) (G7 : BufTy.Contents (Elt F) arg7.view.ty) (k : ℕ) (_u : PUnit) : sProp 𝕄G :=
  iprop((arg1.view.loc (c : Thread nD τ) ↦[arg1.view.set]{q} T) ∗ (arg2.view.loc (c : Thread nD τ) ↦[arg2.view.set]{fullShare} X) ∗ (arg3.view.loc (c : Thread nD τ) ↦[arg3.view.set]{fullShare} B)
    ∗ (∃ f, (arg6.view.loc (c : Thread nD τ) ↦[arg6.view.set]{fullShare} f) ∗ ⌜f = arg6.view.writes (Elt F) G6 (pb6 (F := F) 𝒱 c bd i arg1 harg1 arg2 harg2 arg3 harg3 arg4 harg4 arg5 harg5 arg6 harg6 arg7 harg7 v0 T X B hT G6 k)⌝)
    ∗ (∃ f, (arg7.view.loc (c : Thread nD τ) ↦[arg7.view.set]{fullShare} f) ∗ ⌜f = arg7.view.writes (Elt F) G7 (pb7 (F := F) 𝒱 c bd i arg1 harg1 arg2 harg2 arg3 harg3 arg4 harg4 arg5 harg5 arg6 harg6 arg7 harg7 v0 T X B hT k)⌝))

set_option warn.classDefReducibility false in
/-- THE LOOP BY ITS INVARIANT. -/
@[sl_loop] def loopInv (𝒱 : Variants) (c : Dev nD) (bd : Option 𝒱.V) (E : Set ℕ) (q : PosShare TreeShare) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (G6 : BufTy.Contents (Elt F) arg6.view.ty) (G7 : BufTy.Contents (Elt F) arg7.view.ty) :
    LoopInvTy_k0_t1 (F := F) Unit ℕ (UR sig nD τ) ℕ 𝒱 c bd E i arg1 harg1 arg2 harg2 arg3 harg3 arg4 harg4 arg5 harg5 arg6 harg6 arg7 harg7 v0 where
  inv := inv (F := F) 𝒱 c bd q i arg1 harg1 arg2 harg2 arg3 harg3 arg4 harg4 arg5 harg5 arg6 harg6 arg7 harg7 v0 T X B hT G6 G7
  step k acc := by
    iintro ⟨HR1, HR2, HR3, ⟨%f6, HW6, %h6⟩, ⟨%f7, HW7, %h7⟩⟩
    iapply (wp_wand_r Idealize.ShloMosaic.frame (wpE (defs₀ (F := F)) 𝒱 (c : Thread nD τ) bd) E)
    isplitl [HR1 HR2 HR3 HW6 HW7]
    · iapply ((trip (F := F) 𝒱 c bd i arg1 harg1 arg2 harg2 arg3 harg3 arg4 harg4 arg5 harg5 arg6 harg6 arg7 harg7 v0 T X B hT k).2.2 q E f6 f7)
      isplitl [HR1]; · iexact HR1
      isplitl [HR2]; · iexact HR2
      isplitl [HR3]; · iexact HR3
      isplitl [HW6]; · iexact HW6
      iexact HW7
    · iintro %_ ⟨HR1, HR2, HR3, HW6, HW7⟩
      isplitl [HR1]; · iexact HR1
      isplitl [HR2]; · iexact HR2
      isplitl [HR3]; · iexact HR3
      rw [pb6_succ, pb7_succ]
      isplitl [HW6]
      · iexists _; isplitl [HW6]; · iexact HW6
        ipureintro; rw [h6, ← View.writes_append]
      · iexists _; isplitl [HW7]; · iexact HW7
        ipureintro; rw [h7, ← View.writes_append]

end Cert.KernelIdeal.Hand

end
-- ==== Proof.KI.Tile.lean ====
/-
  What one trip of the loop reads and assembles, in closed form.

  Trip k multiplies the 256 columns 256k … 256k+255 of x by the 256 × 1024 tile it has just assembled in slot k mod 2 of
  the scratch: entry (kk, n) of the tile is entry (kk mod 64, n mod 64) of the bank block whose number is the table's
  word at row 4k + kk div 64 and column 16·t + n div 64 (t the grid point). The 32 stores of the trip, each a pair of
  bank blocks side by side, tile the slot, so the load that follows them reads exactly that function, whatever the
  scratch held before.
-/
import proofs.«427164_j50603304682317_2_alg».proof.Proof.KI.Trip
import Idealize.ShloMosaic.Lib.Pipeline.Value
import Idealize.ShloMosaic.Lib.ValueIdx
import Idealize.ShloMosaic.Lib.ValueLayout
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The columns of x that trip k multiplies: entry (r, kk) is x at (r, 256k + kk). -/
def xsl (arg2 : Memref sig .tc .vmem S256x8192 .bf16) (X : BufTy.Contents (Elt F) arg2.view.ty) (k : Fin k0_t1_loop.trips) : Vec F S256x256 .bf16 :=
  fun j => arg2.view.read (Elt F) X
    (ix2 (⟨(j 0).val, idx2_lt0 j⟩ : Fin 256) (⟨256 * k.val + (j 1).val, by have := idx2_lt1 j; have := Nat.lt_of_lt_of_le k.isLt k0_t1_abs.2.1; omega⟩ : Fin 8192))

/-- The table word that names the bank block under entry (kk, n) of trip k's tile at grid point i. -/
def tileWord (arg1 : Memref sig .tc .smem S128x128 .i32) (T : BufTy.Contents (Elt F) arg1.view.ty) (i : grid0.Coords) (k : Fin k0_t1_loop.trips)
    (kk : Fin 256) (n : Fin 1024) : BitVec 32 :=
  tword (F := F) arg1 T
    (ix2 (⟨4 * k.val + kk.val / 64, by have := kk.isLt; have := Nat.lt_of_lt_of_le k.isLt k0_t1_abs.2.1; omega⟩ : Fin 128)
         (⟨16 * (i 0).val + n.val / 64, by have := n.isLt; have h : (i 0).val < 8 := (i 0).isLt; omega⟩ : Fin 128))

/-- The tile trip k assembles at grid point i, as one function of the table and the bank: a word is read as a block
    number of the bank (a word below 1024 is its own value). -/
def wtile (arg1 : Memref sig .tc .smem S128x128 .i32) (arg3 : Memref sig .tc .vmem S1024x64x64 .bf16)
    (T : BufTy.Contents (Elt F) arg1.view.ty) (B : BufTy.Contents (Elt F) arg3.view.ty) (i : grid0.Coords) (k : Fin k0_t1_loop.trips) : Vec F S1x256x1024 .bf16 :=
  fun j => arg3.view.read (Elt F) B
    (ix3 (⟨(tileWord (F := F) arg1 T i k ⟨(j 1).val, (j 1).isLt⟩ ⟨(j 2).val, (j 2).isLt⟩).toNat % 1024, Nat.mod_lt _ (by decide)⟩ : Fin 1024)
         (⟨(j 1).val % 64, Nat.mod_lt _ (by decide)⟩ : Fin 64) (⟨(j 2).val % 64, Nat.mod_lt _ (by decide)⟩ : Fin 64))

open Idealize.ShloMosaic.Tactic

/-- Row word of the table: 4k + r. -/
theorem roww : ∀ k : Fin k0_t1_loop.trips, ∀ r, r < 4 →
    (Scalar.indexCast (Scalar.addi (Scalar.muli (Scf.iv 0#32 1#32 k) 4#32) (BitVec.ofNat 32 r))).toNat = 4 * k.val + r := by
  decide +kernel

/-- Column word of the table: 16n + c. -/
theorem colw0 : ∀ n, n < 8 → ∀ c, c < 16 →
    (Scalar.indexCast (Scalar.addi (Scalar.muli (BitVec.ofNat 32 n) 16#32) (BitVec.ofNat 32 c))).toNat = 16 * n + c := by
  decide +kernel

/-- Column word of the table, one further: 16n + c + 1. -/
theorem colw1 : ∀ n, n < 8 → ∀ c, c < 16 →
    (Scalar.indexCast (Scalar.addi (Scalar.addi (Scalar.muli (BitVec.ofNat 32 n) 16#32) (BitVec.ofNat 32 c)) 1#32)).toNat = 16 * n + c + 1 := by
  decide +kernel

theorem off1_eq (i : grid0.Coords) (k : Fin k0_t1_loop.trips) : ∀ a, k0_off1 i k a = (![4 * k.val + 0, 16 * (i 0).val + 2 * 0] : Fin 2 → ℕ) a := by
  intro a
  match a with
  | ⟨0, _⟩ => exact roww k 0 (by decide)
  | ⟨1, _⟩ => exact colw0 (i 0).val (i 0).isLt (2 * 0) (by decide)
theorem off2_eq (i : grid0.Coords) (k : Fin k0_t1_loop.trips) : ∀ a, k0_off2 i k a = (![4 * k.val + 0, 16 * (i 0).val + 2 * 0 + 1] : Fin 2 → ℕ) a := by
  intro a
  match a with
  | ⟨0, _⟩ => exact roww k 0 (by decide)
  | ⟨1, _⟩ => exact colw1 (i 0).val (i 0).isLt (2 * 0) (by decide)
theorem off7_eq (i : grid0.Coords) (k : Fin k0_t1_loop.trips) : ∀ a, k0_off7 i k a = (![4 * k.val + 0, 16 * (i 0).val + 2 * 1] : Fin 2 → ℕ) a := by
  intro a
  match a with
  | ⟨0, _⟩ => exact roww k 0 (by decide)
  | ⟨1, _⟩ => exact colw0 (i 0).val (i 0).isLt (2 * 1) (by decide)
theorem off8_eq (i : grid0.Coords) (k : Fin k0_t1_loop.trips) : ∀ a, k0_off8 i k a = (![4 * k.val + 0, 16 * (i 0).val + 2 * 1 + 1] : Fin 2 → ℕ) a := by
  intro a
  match a with
  | ⟨0, _⟩ => exact roww k 0 (by decide)
  | ⟨1, _⟩ => exact colw1 (i 0).val (i 0).isLt (2 * 1) (by decide)
theorem off13_eq (i : grid0.Coords) (k : Fin k0_t1_loop.trips) : ∀ a, k0_off13 i k a = (![4 * k.val + 0, 16 * (i 0).val + 2 * 2] : Fin 2 → ℕ) a := by
  intro a
  match a with
  | ⟨0, _⟩ => exact roww k 0 (by decide)
  | ⟨1, _⟩ => exact colw0 (i 0).val (i 0).isLt (2 * 2) (by decide)
theorem off14_eq (i : grid0.Coords) (k : Fin k0_t1_loop.trips) : ∀ a, k0_off14 i k a = (![4 * k.val + 0, 16 * (i 0).val + 2 * 2 + 1] : Fin 2 → ℕ) a := by
  intro a
  match a with
  | ⟨0, _⟩ => exact roww k 0 (by decide)
  | ⟨1, _⟩ => exact colw1 (i 0).val (i 0).isLt (2 * 2) (by decide)
theorem off19_eq (i : grid0.Coords) (k : Fin k0_t1_loop.trips) : ∀ a, k0_off19 i k a = (![4 * k.val + 0, 16 * (i 0).val + 2 * 3] : Fin 2 → ℕ) a := by
  intro a
  match a with
  | ⟨0, _⟩ => exact roww k 0 (by decide)
  | ⟨1, _⟩ => exact colw0 (i 0).val (i 0).isLt (2 * 3) (by decide)
theorem off20_eq (i : grid0.Coords) (k : Fin k0_t1_loop.trips) : ∀ a, k0_off20 i k a = (![4 * k.val + 0, 16 * (i 0).val + 2 * 3 + 1] : Fin 2 → ℕ) a := by
  intro a
  match a with
  | ⟨0, _⟩ => exact roww k 0 (by decide)
  | ⟨1, _⟩ => exact colw1 (i 0).val (i 0).isLt (2 * 3) (by decide)
theorem off25_eq (i : grid0.Coords) (k : Fin k0_t1_loop.trips) : ∀ a, k0_off25 i k a = (![4 * k.val + 0, 16 * (i 0).val + 2 * 4] : Fin 2 → ℕ) a := by
  intro a
  match a with
  | ⟨0, _⟩ => exact roww k 0 (by decide)
  | ⟨1, _⟩ => exact colw0 (i 0).val (i 0).isLt (2 * 4) (by decide)
theorem off26_eq (i : grid0.Coords) (k : Fin k0_t1_loop.trips) : ∀ a, k0_off26 i k a = (![4 * k.val + 0, 16 * (i 0).val + 2 * 4 + 1] : Fin 2 → ℕ) a := by
  intro a
  match a with
  | ⟨0, _⟩ => exact roww k 0 (by decide)
  | ⟨1, _⟩ => exact colw1 (i 0).val (i 0).isLt (2 * 4) (by decide)
theorem off31_eq (i : grid0.Coords) (k : Fin k0_t1_loop.trips) : ∀ a, k0_off31 i k a = (![4 * k.val + 0, 16 * (i 0).val + 2 * 5] : Fin 2 → ℕ) a := by
  intro a
  match a with
  | ⟨0, _⟩ => exact roww k 0 (by decide)
  | ⟨1, _⟩ => exact colw0 (i 0).val (i 0).isLt (2 * 5) (by decide)
theorem off32_eq (i : grid0.Coords) (k : Fin k0_t1_loop.trips) : ∀ a, k0_off32 i k a = (![4 * k.val + 0, 16 * (i 0).val + 2 * 5 + 1] : Fin 2 → ℕ) a := by
  intro a
  match a with
  | ⟨0, _⟩ => exact roww k 0 (by decide)
  | ⟨1, _⟩ => exact colw1 (i 0).val (i 0).isLt (2 * 5) (by decide)
theorem off37_eq (i : grid0.Coords) (k : Fin k0_t1_loop.trips) : ∀ a, k0_off37 i k a = (![4 * k.val + 0, 16 * (i 0).val + 2 * 6] : Fin 2 → ℕ) a := by
  intro a
  match a with
  | ⟨0, _⟩ => exact roww k 0 (by decide)
  | ⟨1, _⟩ => exact colw0 (i 0).val (i 0).isLt (2 * 6) (by decide)
theorem off38_eq (i : grid0.Coords) (k : Fin k0_t1_loop.trips) : ∀ a, k0_off38 i k a = (![4 * k.val + 0, 16 * (i 0).val + 2 * 6 + 1] : Fin 2 → ℕ) a := by
  intro a
  match a with
  | ⟨0, _⟩ => exact roww k 0 (by decide)
  | ⟨1, _⟩ => exact colw1 (i 0).val (i 0).isLt (2 * 6) (by decide)
theorem off43_eq (i : grid0.Coords) (k : Fin k0_t1_loop.trips) : ∀ a, k0_off43 i k a = (![4 * k.val + 0, 16 * (i 0).val + 2 * 7] : Fin 2 → ℕ) a := by
  intro a
  match a with
  | ⟨0, _⟩ => exact roww k 0 (by decide)
  | ⟨1, _⟩ => exact colw0 (i 0).val (i 0).isLt (2 * 7) (by decide)
theorem off44_eq (i : grid0.Coords) (k : Fin k0_t1_loop.trips) : ∀ a, k0_off44 i k a = (![4 * k.val + 0, 16 * (i 0).val + 2 * 7 + 1] : Fin 2 → ℕ) a := by
  intro a
  match a with
  | ⟨0, _⟩ => exact roww k 0 (by decide)
  | ⟨1, _⟩ => exact colw1 (i 0).val (i 0).isLt (2 * 7) (by decide)
theorem off49_eq (i : grid0.Coords) (k : Fin k0_t1_loop.trips) : ∀ a, k0_off49 i k a = (![4 * k.val + 1, 16 * (i 0).val + 2 * 0] : Fin 2 → ℕ) a := by
  intro a
  match a with
  | ⟨0, _⟩ => exact roww k 1 (by decide)
  | ⟨1, _⟩ => exact colw0 (i 0).val (i 0).isLt (2 * 0) (by decide)
theorem off50_eq (i : grid0.Coords) (k : Fin k0_t1_loop.trips) : ∀ a, k0_off50 i k a = (![4 * k.val + 1, 16 * (i 0).val + 2 * 0 + 1] : Fin 2 → ℕ) a := by
  intro a
  match a with
  | ⟨0, _⟩ => exact roww k 1 (by decide)
  | ⟨1, _⟩ => exact colw1 (i 0).val (i 0).isLt (2 * 0) (by decide)
theorem off55_eq (i : grid0.Coords) (k : Fin k0_t1_loop.trips) : ∀ a, k0_off55 i k a = (![4 * k.val + 1, 16 * (i 0).val + 2 * 1] : Fin 2 → ℕ) a := by
  intro a
  match a with
  | ⟨0, _⟩ => exact roww k 1 (by decide)
  | ⟨1, _⟩ => exact colw0 (i 0).val (i 0).isLt (2 * 1) (by decide)
theorem off56_eq (i : grid0.Coords) (k : Fin k0_t1_loop.trips) : ∀ a, k0_off56 i k a = (![4 * k.val + 1, 16 * (i 0).val + 2 * 1 + 1] : Fin 2 → ℕ) a := by
  intro a
  match a with
  | ⟨0, _⟩ => exact roww k 1 (by decide)
  | ⟨1, _⟩ => exact colw1 (i 0).val (i 0).isLt (2 * 1) (by decide)
theorem off61_eq (i : grid0.Coords) (k : Fin k0_t1_loop.trips) : ∀ a, k0_off61 i k a = (![4 * k.val + 1, 16 * (i 0).val + 2 * 2] : Fin 2 → ℕ) a := by
  intro a
  match a with
  | ⟨0, _⟩ => exact roww k 1 (by decide)
  | ⟨1, _⟩ => exact colw0 (i 0).val (i 0).isLt (2 * 2) (by decide)
theorem off62_eq (i : grid0.Coords) (k : Fin k0_t1_loop.trips) : ∀ a, k0_off62 i k a = (![4 * k.val + 1, 16 * (i 0).val + 2 * 2 + 1] : Fin 2 → ℕ) a := by
  intro a
  match a with
  | ⟨0, _⟩ => exact roww k 1 (by decide)
  | ⟨1, _⟩ => exact colw1 (i 0).val (i 0).isLt (2 * 2) (by decide)
theorem off67_eq (i : grid0.Coords) (k : Fin k0_t1_loop.trips) : ∀ a, k0_off67 i k a = (![4 * k.val + 1, 16 * (i 0).val + 2 * 3] : Fin 2 → ℕ) a := by
  intro a
  match a with
  | ⟨0, _⟩ => exact roww k 1 (by decide)
  | ⟨1, _⟩ => exact colw0 (i 0).val (i 0).isLt (2 * 3) (by decide)
theorem off68_eq (i : grid0.Coords) (k : Fin k0_t1_loop.trips) : ∀ a, k0_off68 i k a = (![4 * k.val + 1, 16 * (i 0).val + 2 * 3 + 1] : Fin 2 → ℕ) a := by
  intro a
  match a with
  | ⟨0, _⟩ => exact roww k 1 (by decide)
  | ⟨1, _⟩ => exact colw1 (i 0).val (i 0).isLt (2 * 3) (by decide)
theorem off73_eq (i : grid0.Coords) (k : Fin k0_t1_loop.trips) : ∀ a, k0_off73 i k a = (![4 * k.val + 1, 16 * (i 0).val + 2 * 4] : Fin 2 → ℕ) a := by
  intro a
  match a with
  | ⟨0, _⟩ => exact roww k 1 (by decide)
  | ⟨1, _⟩ => exact colw0 (i 0).val (i 0).isLt (2 * 4) (by decide)
theorem off74_eq (i : grid0.Coords) (k : Fin k0_t1_loop.trips) : ∀ a, k0_off74 i k a = (![4 * k.val + 1, 16 * (i 0).val + 2 * 4 + 1] : Fin 2 → ℕ) a := by
  intro a
  match a with
  | ⟨0, _⟩ => exact roww k 1 (by decide)
  | ⟨1, _⟩ => exact colw1 (i 0).val (i 0).isLt (2 * 4) (by decide)
theorem off79_eq (i : grid0.Coords) (k : Fin k0_t1_loop.trips) : ∀ a, k0_off79 i k a = (![4 * k.val + 1, 16 * (i 0).val + 2 * 5] : Fin 2 → ℕ) a := by
  intro a
  match a with
  | ⟨0, _⟩ => exact roww k 1 (by decide)
  | ⟨1, _⟩ => exact colw0 (i 0).val (i 0).isLt (2 * 5) (by decide)
theorem off80_eq (i : grid0.Coords) (k : Fin k0_t1_loop.trips) : ∀ a, k0_off80 i k a = (![4 * k.val + 1, 16 * (i 0).val + 2 * 5 + 1] : Fin 2 → ℕ) a := by
  intro a
  match a with
  | ⟨0, _⟩ => exact roww k 1 (by decide)
  | ⟨1, _⟩ => exact colw1 (i 0).val (i 0).isLt (2 * 5) (by decide)
theorem off85_eq (i : grid0.Coords) (k : Fin k0_t1_loop.trips) : ∀ a, k0_off85 i k a = (![4 * k.val + 1, 16 * (i 0).val + 2 * 6] : Fin 2 → ℕ) a := by
  intro a
  match a with
  | ⟨0, _⟩ => exact roww k 1 (by decide)
  | ⟨1, _⟩ => exact colw0 (i 0).val (i 0).isLt (2 * 6) (by decide)
theorem off86_eq (i : grid0.Coords) (k : Fin k0_t1_loop.trips) : ∀ a, k0_off86 i k a = (![4 * k.val + 1, 16 * (i 0).val + 2 * 6 + 1] : Fin 2 → ℕ) a := by
  intro a
  match a with
  | ⟨0, _⟩ => exact roww k 1 (by decide)
  | ⟨1, _⟩ => exact colw1 (i 0).val (i 0).isLt (2 * 6) (by decide)
theorem off91_eq (i : grid0.Coords) (k : Fin k0_t1_loop.trips) : ∀ a, k0_off91 i k a = (![4 * k.val + 1, 16 * (i 0).val + 2 * 7] : Fin 2 → ℕ) a := by
  intro a
  match a with
  | ⟨0, _⟩ => exact roww k 1 (by decide)
  | ⟨1, _⟩ => exact colw0 (i 0).val (i 0).isLt (2 * 7) (by decide)
theorem off92_eq (i : grid0.Coords) (k : Fin k0_t1_loop.trips) : ∀ a, k0_off92 i k a = (![4 * k.val + 1, 16 * (i 0).val + 2 * 7 + 1] : Fin 2 → ℕ) a := by
  intro a
  match a with
  | ⟨0, _⟩ => exact roww k 1 (by decide)
  | ⟨1, _⟩ => exact colw1 (i 0).val (i 0).isLt (2 * 7) (by decide)
theorem off97_eq (i : grid0.Coords) (k : Fin k0_t1_loop.trips) : ∀ a, k0_off97 i k a = (![4 * k.val + 2, 16 * (i 0).val + 2 * 0] : Fin 2 → ℕ) a := by
  intro a
  match a with
  | ⟨0, _⟩ => exact roww k 2 (by decide)
  | ⟨1, _⟩ => exact colw0 (i 0).val (i 0).isLt (2 * 0) (by decide)
theorem off98_eq (i : grid0.Coords) (k : Fin k0_t1_loop.trips) : ∀ a, k0_off98 i k a = (![4 * k.val + 2, 16 * (i 0).val + 2 * 0 + 1] : Fin 2 → ℕ) a := by
  intro a
  match a with
  | ⟨0, _⟩ => exact roww k 2 (by decide)
  | ⟨1, _⟩ => exact colw1 (i 0).val (i 0).isLt (2 * 0) (by decide)
theorem off103_eq (i : grid0.Coords) (k : Fin k0_t1_loop.trips) : ∀ a, k0_off103 i k a = (![4 * k.val + 2, 16 * (i 0).val + 2 * 1] : Fin 2 → ℕ) a := by
  intro a
  match a with
  | ⟨0, _⟩ => exact roww k 2 (by decide)
  | ⟨1, _⟩ => exact colw0 (i 0).val (i 0).isLt (2 * 1) (by decide)
theorem off104_eq (i : grid0.Coords) (k : Fin k0_t1_loop.trips) : ∀ a, k0_off104 i k a = (![4 * k.val + 2, 16 * (i 0).val + 2 * 1 + 1] : Fin 2 → ℕ) a := by
  intro a
  match a with
  | ⟨0, _⟩ => exact roww k 2 (by decide)
  | ⟨1, _⟩ => exact colw1 (i 0).val (i 0).isLt (2 * 1) (by decide)
theorem off109_eq (i : grid0.Coords) (k : Fin k0_t1_loop.trips) : ∀ a, k0_off109 i k a = (![4 * k.val + 2, 16 * (i 0).val + 2 * 2] : Fin 2 → ℕ) a := by
  intro a
  match a with
  | ⟨0, _⟩ => exact roww k 2 (by decide)
  | ⟨1, _⟩ => exact colw0 (i 0).val (i 0).isLt (2 * 2) (by decide)
theorem off110_eq (i : grid0.Coords) (k : Fin k0_t1_loop.trips) : ∀ a, k0_off110 i k a = (![4 * k.val + 2, 16 * (i 0).val + 2 * 2 + 1] : Fin 2 → ℕ) a := by
  intro a
  match a with
  | ⟨0, _⟩ => exact roww k 2 (by decide)
  | ⟨1, _⟩ => exact colw1 (i 0).val (i 0).isLt (2 * 2) (by decide)
theorem off115_eq (i : grid0.Coords) (k : Fin k0_t1_loop.trips) : ∀ a, k0_off115 i k a = (![4 * k.val + 2, 16 * (i 0).val + 2 * 3] : Fin 2 → ℕ) a := by
  intro a
  match a with
  | ⟨0, _⟩ => exact roww k 2 (by decide)
  | ⟨1, _⟩ => exact colw0 (i 0).val (i 0).isLt (2 * 3) (by decide)
theorem off116_eq (i : grid0.Coords) (k : Fin k0_t1_loop.trips) : ∀ a, k0_off116 i k a = (![4 * k.val + 2, 16 * (i 0).val + 2 * 3 + 1] : Fin 2 → ℕ) a := by
  intro a
  match a with
  | ⟨0, _⟩ => exact roww k 2 (by decide)
  | ⟨1, _⟩ => exact colw1 (i 0).val (i 0).isLt (2 * 3) (by decide)
theorem off121_eq (i : grid0.Coords) (k : Fin k0_t1_loop.trips) : ∀ a, k0_off121 i k a = (![4 * k.val + 2, 16 * (i 0).val + 2 * 4] : Fin 2 → ℕ) a := by
  intro a
  match a with
  | ⟨0, _⟩ => exact roww k 2 (by decide)
  | ⟨1, _⟩ => exact colw0 (i 0).val (i 0).isLt (2 * 4) (by decide)
theorem off122_eq (i : grid0.Coords) (k : Fin k0_t1_loop.trips) : ∀ a, k0_off122 i k a = (![4 * k.val + 2, 16 * (i 0).val + 2 * 4 + 1] : Fin 2 → ℕ) a := by
  intro a
  match a with
  | ⟨0, _⟩ => exact roww k 2 (by decide)
  | ⟨1, _⟩ => exact colw1 (i 0).val (i 0).isLt (2 * 4) (by decide)
theorem off127_eq (i : grid0.Coords) (k : Fin k0_t1_loop.trips) : ∀ a, k0_off127 i k a = (![4 * k.val + 2, 16 * (i 0).val + 2 * 5] : Fin 2 → ℕ) a := by
  intro a
  match a with
  | ⟨0, _⟩ => exact roww k 2 (by decide)
  | ⟨1, _⟩ => exact colw0 (i 0).val (i 0).isLt (2 * 5) (by decide)
theorem off128_eq (i : grid0.Coords) (k : Fin k0_t1_loop.trips) : ∀ a, k0_off128 i k a = (![4 * k.val + 2, 16 * (i 0).val + 2 * 5 + 1] : Fin 2 → ℕ) a := by
  intro a
  match a with
  | ⟨0, _⟩ => exact roww k 2 (by decide)
  | ⟨1, _⟩ => exact colw1 (i 0).val (i 0).isLt (2 * 5) (by decide)
theorem off133_eq (i : grid0.Coords) (k : Fin k0_t1_loop.trips) : ∀ a, k0_off133 i k a = (![4 * k.val + 2, 16 * (i 0).val + 2 * 6] : Fin 2 → ℕ) a := by
  intro a
  match a with
  | ⟨0, _⟩ => exact roww k 2 (by decide)
  | ⟨1, _⟩ => exact colw0 (i 0).val (i 0).isLt (2 * 6) (by decide)
theorem off134_eq (i : grid0.Coords) (k : Fin k0_t1_loop.trips) : ∀ a, k0_off134 i k a = (![4 * k.val + 2, 16 * (i 0).val + 2 * 6 + 1] : Fin 2 → ℕ) a := by
  intro a
  match a with
  | ⟨0, _⟩ => exact roww k 2 (by decide)
  | ⟨1, _⟩ => exact colw1 (i 0).val (i 0).isLt (2 * 6) (by decide)
theorem off139_eq (i : grid0.Coords) (k : Fin k0_t1_loop.trips) : ∀ a, k0_off139 i k a = (![4 * k.val + 2, 16 * (i 0).val + 2 * 7] : Fin 2 → ℕ) a := by
  intro a
  match a with
  | ⟨0, _⟩ => exact roww k 2 (by decide)
  | ⟨1, _⟩ => exact colw0 (i 0).val (i 0).isLt (2 * 7) (by decide)
theorem off140_eq (i : grid0.Coords) (k : Fin k0_t1_loop.trips) : ∀ a, k0_off140 i k a = (![4 * k.val + 2, 16 * (i 0).val + 2 * 7 + 1] : Fin 2 → ℕ) a := by
  intro a
  match a with
  | ⟨0, _⟩ => exact roww k 2 (by decide)
  | ⟨1, _⟩ => exact colw1 (i 0).val (i 0).isLt (2 * 7) (by decide)
theorem off145_eq (i : grid0.Coords) (k : Fin k0_t1_loop.trips) : ∀ a, k0_off145 i k a = (![4 * k.val + 3, 16 * (i 0).val + 2 * 0] : Fin 2 → ℕ) a := by
  intro a
  match a with
  | ⟨0, _⟩ => exact roww k 3 (by decide)
  | ⟨1, _⟩ => exact colw0 (i 0).val (i 0).isLt (2 * 0) (by decide)
theorem off146_eq (i : grid0.Coords) (k : Fin k0_t1_loop.trips) : ∀ a, k0_off146 i k a = (![4 * k.val + 3, 16 * (i 0).val + 2 * 0 + 1] : Fin 2 → ℕ) a := by
  intro a
  match a with
  | ⟨0, _⟩ => exact roww k 3 (by decide)
  | ⟨1, _⟩ => exact colw1 (i 0).val (i 0).isLt (2 * 0) (by decide)
theorem off151_eq (i : grid0.Coords) (k : Fin k0_t1_loop.trips) : ∀ a, k0_off151 i k a = (![4 * k.val + 3, 16 * (i 0).val + 2 * 1] : Fin 2 → ℕ) a := by
  intro a
  match a with
  | ⟨0, _⟩ => exact roww k 3 (by decide)
  | ⟨1, _⟩ => exact colw0 (i 0).val (i 0).isLt (2 * 1) (by decide)
theorem off152_eq (i : grid0.Coords) (k : Fin k0_t1_loop.trips) : ∀ a, k0_off152 i k a = (![4 * k.val + 3, 16 * (i 0).val + 2 * 1 + 1] : Fin 2 → ℕ) a := by
  intro a
  match a with
  | ⟨0, _⟩ => exact roww k 3 (by decide)
  | ⟨1, _⟩ => exact colw1 (i 0).val (i 0).isLt (2 * 1) (by decide)
theorem off157_eq (i : grid0.Coords) (k : Fin k0_t1_loop.trips) : ∀ a, k0_off157 i k a = (![4 * k.val + 3, 16 * (i 0).val + 2 * 2] : Fin 2 → ℕ) a := by
  intro a
  match a with
  | ⟨0, _⟩ => exact roww k 3 (by decide)
  | ⟨1, _⟩ => exact colw0 (i 0).val (i 0).isLt (2 * 2) (by decide)
theorem off158_eq (i : grid0.Coords) (k : Fin k0_t1_loop.trips) : ∀ a, k0_off158 i k a = (![4 * k.val + 3, 16 * (i 0).val + 2 * 2 + 1] : Fin 2 → ℕ) a := by
  intro a
  match a with
  | ⟨0, _⟩ => exact roww k 3 (by decide)
  | ⟨1, _⟩ => exact colw1 (i 0).val (i 0).isLt (2 * 2) (by decide)
theorem off163_eq (i : grid0.Coords) (k : Fin k0_t1_loop.trips) : ∀ a, k0_off163 i k a = (![4 * k.val + 3, 16 * (i 0).val + 2 * 3] : Fin 2 → ℕ) a := by
  intro a
  match a with
  | ⟨0, _⟩ => exact roww k 3 (by decide)
  | ⟨1, _⟩ => exact colw0 (i 0).val (i 0).isLt (2 * 3) (by decide)
theorem off164_eq (i : grid0.Coords) (k : Fin k0_t1_loop.trips) : ∀ a, k0_off164 i k a = (![4 * k.val + 3, 16 * (i 0).val + 2 * 3 + 1] : Fin 2 → ℕ) a := by
  intro a
  match a with
  | ⟨0, _⟩ => exact roww k 3 (by decide)
  | ⟨1, _⟩ => exact colw1 (i 0).val (i 0).isLt (2 * 3) (by decide)
theorem off169_eq (i : grid0.Coords) (k : Fin k0_t1_loop.trips) : ∀ a, k0_off169 i k a = (![4 * k.val + 3, 16 * (i 0).val + 2 * 4] : Fin 2 → ℕ) a := by
  intro a
  match a with
  | ⟨0, _⟩ => exact roww k 3 (by decide)
  | ⟨1, _⟩ => exact colw0 (i 0).val (i 0).isLt (2 * 4) (by decide)
theorem off170_eq (i : grid0.Coords) (k : Fin k0_t1_loop.trips) : ∀ a, k0_off170 i k a = (![4 * k.val + 3, 16 * (i 0).val + 2 * 4 + 1] : Fin 2 → ℕ) a := by
  intro a
  match a with
  | ⟨0, _⟩ => exact roww k 3 (by decide)
  | ⟨1, _⟩ => exact colw1 (i 0).val (i 0).isLt (2 * 4) (by decide)
theorem off175_eq (i : grid0.Coords) (k : Fin k0_t1_loop.trips) : ∀ a, k0_off175 i k a = (![4 * k.val + 3, 16 * (i 0).val + 2 * 5] : Fin 2 → ℕ) a := by
  intro a
  match a with
  | ⟨0, _⟩ => exact roww k 3 (by decide)
  | ⟨1, _⟩ => exact colw0 (i 0).val (i 0).isLt (2 * 5) (by decide)
theorem off176_eq (i : grid0.Coords) (k : Fin k0_t1_loop.trips) : ∀ a, k0_off176 i k a = (![4 * k.val + 3, 16 * (i 0).val + 2 * 5 + 1] : Fin 2 → ℕ) a := by
  intro a
  match a with
  | ⟨0, _⟩ => exact roww k 3 (by decide)
  | ⟨1, _⟩ => exact colw1 (i 0).val (i 0).isLt (2 * 5) (by decide)
theorem off181_eq (i : grid0.Coords) (k : Fin k0_t1_loop.trips) : ∀ a, k0_off181 i k a = (![4 * k.val + 3, 16 * (i 0).val + 2 * 6] : Fin 2 → ℕ) a := by
  intro a
  match a with
  | ⟨0, _⟩ => exact roww k 3 (by decide)
  | ⟨1, _⟩ => exact colw0 (i 0).val (i 0).isLt (2 * 6) (by decide)
theorem off182_eq (i : grid0.Coords) (k : Fin k0_t1_loop.trips) : ∀ a, k0_off182 i k a = (![4 * k.val + 3, 16 * (i 0).val + 2 * 6 + 1] : Fin 2 → ℕ) a := by
  intro a
  match a with
  | ⟨0, _⟩ => exact roww k 3 (by decide)
  | ⟨1, _⟩ => exact colw1 (i 0).val (i 0).isLt (2 * 6) (by decide)
theorem off187_eq (i : grid0.Coords) (k : Fin k0_t1_loop.trips) : ∀ a, k0_off187 i k a = (![4 * k.val + 3, 16 * (i 0).val + 2 * 7] : Fin 2 → ℕ) a := by
  intro a
  match a with
  | ⟨0, _⟩ => exact roww k 3 (by decide)
  | ⟨1, _⟩ => exact colw0 (i 0).val (i 0).isLt (2 * 7) (by decide)
theorem off188_eq (i : grid0.Coords) (k : Fin k0_t1_loop.trips) : ∀ a, k0_off188 i k a = (![4 * k.val + 3, 16 * (i 0).val + 2 * 7 + 1] : Fin 2 → ℕ) a := by
  intro a
  match a with
  | ⟨0, _⟩ => exact roww k 3 (by decide)
  | ⟨1, _⟩ => exact colw1 (i 0).val (i 0).isLt (2 * 7) (by decide)

/-- Entry (kk, n) of the tile, its two coordinates given as bounded naturals. -/
def wt (arg1 : Memref sig .tc .smem S128x128 .i32) (arg3 : Memref sig .tc .vmem S1024x64x64 .bf16)
    (T : BufTy.Contents (Elt F) arg1.view.ty) (B : BufTy.Contents (Elt F) arg3.view.ty) (i : grid0.Coords) (k : Fin k0_t1_loop.trips)
    (kk : Fin 256) (n : Fin 1024) : Elt F .bf16 :=
  arg3.view.read (Elt F) B
    (ix3 (⟨(tileWord (F := F) arg1 T i k kk n).toNat % 1024, Nat.mod_lt _ (by decide)⟩ : Fin 1024)
         (⟨kk.val % 64, Nat.mod_lt _ (by decide)⟩ : Fin 64) (⟨n.val % 64, Nat.mod_lt _ (by decide)⟩ : Fin 64))

theorem wtile_apply (arg1 : Memref sig .tc .smem S128x128 .i32) (arg3 : Memref sig .tc .vmem S1024x64x64 .bf16)
    (T : BufTy.Contents (Elt F) arg1.view.ty) (B : BufTy.Contents (Elt F) arg3.view.ty) (i : grid0.Coords) (k : Fin k0_t1_loop.trips)
    (j : S1x256x1024.Idx) :
    wtile (F := F) arg1 arg3 T B i k j = wt (F := F) arg1 arg3 T B i k ⟨(j 1).val, (j 1).isLt⟩ ⟨(j 2).val, (j 2).isLt⟩ := rfl

/-- The tile as a function of an index of the whole two-slot scratch (the slot coordinate plays no part). -/
def wtileG (arg1 : Memref sig .tc .smem S128x128 .i32) (arg3 : Memref sig .tc .vmem S1024x64x64 .bf16)
    (T : BufTy.Contents (Elt F) arg1.view.ty) (B : BufTy.Contents (Elt F) arg3.view.ty) (i : grid0.Coords) (k : Fin k0_t1_loop.trips) :
    S2x256x1024.Idx → Elt F .bf16 :=
  fun y => wt (F := F) arg1 arg3 T B i k ⟨(y 1).val, (y 1).isLt⟩ ⟨(y 2).val, (y 2).isLt⟩

/-- The word under entry (kk, n) when row 4k + kk/64 is R and column 16t + n/64 is C. -/
theorem tileWord_eq (arg1 : Memref sig .tc .smem S128x128 .i32) (T : BufTy.Contents (Elt F) arg1.view.ty) (i : grid0.Coords) (k : Fin k0_t1_loop.trips)
    (kk : Fin 256) (n : Fin 1024) (R C : ℕ) (hR : R < 128) (hC : C < 128)
    (h1 : 4 * k.val + kk.val / 64 = R) (h2 : 16 * (i 0).val + n.val / 64 = C) :
    tileWord (F := F) arg1 T i k kk n = tword (F := F) arg1 T (ix2 (⟨R, hR⟩ : Fin 128) (⟨C, hC⟩ : Fin 128)) := by
  subst h1 h2; rfl

/-- Entry (kk, n) of the tile is entry (kk mod 64, n mod 64) of the bank block its word names. -/
theorem wt_eq (arg1 : Memref sig .tc .smem S128x128 .i32) (arg3 : Memref sig .tc .vmem S1024x64x64 .bf16)
    (T : BufTy.Contents (Elt F) arg1.view.ty) (B : BufTy.Contents (Elt F) arg3.view.ty)
    (hT : ∀ y, (tword (F := F) arg1 T y).toNat < 1024) (i : grid0.Coords) (k : Fin k0_t1_loop.trips)
    (kk : Fin 256) (n : Fin 1024) (R C : ℕ) (hR : R < 128) (hC : C < 128)
    (h1 : 4 * k.val + kk.val / 64 = R) (h2 : 16 * (i 0).val + n.val / 64 = C)
    (x1 x2 : Fin 64) (hx1 : kk.val % 64 = x1.val) (hx2 : n.val % 64 = x2.val) :
    wt (F := F) arg1 arg3 T B i k kk n
      = arg3.view.read (Elt F) B (ix3 (⟨(tword (F := F) arg1 T (ix2 (⟨R, hR⟩ : Fin 128) (⟨C, hC⟩ : Fin 128))).toNat, hT _⟩ : Fin 1024) x1 x2) := by
  unfold wt
  have e := tileWord_eq (F := F) arg1 T i k kk n R C hR hC h1 h2
  refine congrArg (arg3.view.read (Elt F) B) (funext fun a => ?_)
  match a with
  | ⟨0, _⟩ => exact Fin.ext (by
      show (tileWord (F := F) arg1 T i k kk n).toNat % 1024 = _
      rw [e]; exact Nat.mod_eq_of_lt (hT _))
  | ⟨1, _⟩ => exact Fin.ext hx1
  | ⟨2, _⟩ => exact Fin.ext hx2

/-- A load of one bank block (block number w) read at an index. -/
theorem bank_read (arg3 : Memref sig .tc .vmem S1024x64x64 .bf16) (B : BufTy.Contents (Elt F) arg3.view.ty)
    (w : ℕ) (hw : w < 1024) (o : Fin 3 → ℕ) (inb : ∀ a, o a + S1x64x64.size a ≤ S1024x64x64.size a)
    (ho : ∀ a, o a = (![w, 0, 0] : Fin 3 → ℕ) a) (y : S1x64x64.Idx) (x1 x2 : Fin 64) (h1 : (y 1).val = x1.val) (h2 : (y 2).val = x2.val) :
    View.readAt (Elt F) arg3.view (Rect.unit (s := S1024x64x64) o S1x64x64.size inb).toLoadRect B y
      = arg3.view.read (Elt F) B (ix3 (⟨w, hw⟩ : Fin 1024) x1 x2) := by
  rw [View.readAt_apply]
  refine congrArg (arg3.view.read (Elt F) B) (funext fun a => ?_)
  have h0 : (y 0).val < 1 := (y 0).isLt
  match a with
  | ⟨0, _⟩ => exact Fin.ext (by show o 0 + 1 * (y 0).val = w; rw [ho 0]; show w + 1 * (y 0).val = w; omega)
  | ⟨1, _⟩ => exact Fin.ext (by show o 1 + 1 * (y 1).val = x1.val; rw [ho 1]; show 0 + 1 * (y 1).val = x1.val; omega)
  | ⟨2, _⟩ => exact Fin.ext (by show o 2 + 1 * (y 2).val = x2.val; rw [ho 2]; show 0 + 1 * (y 2).val = x2.val; omega)

/-- A scalar load of the table at row R, column C. -/
theorem word_read (arg1 : Memref sig .tc .smem S128x128 .i32) (T : BufTy.Contents (Elt F) arg1.view.ty)
    (R C : ℕ) (hR : R < 128) (hC : C < 128) (o : Fin 2 → ℕ) (inb : ∀ a, o a + S1x1.size a ≤ S128x128.size a)
    (ho : ∀ a, o a = (![R, C] : Fin 2 → ℕ) a) (x : S1x1.Idx) :
    View.readAt (Elt F) arg1.view (Rect.unit (s := S128x128) o S1x1.size inb).toLoadRect T x
      = tword (F := F) arg1 T (ix2 (⟨R, hR⟩ : Fin 128) (⟨C, hC⟩ : Fin 128)) := by
  rw [View.readAt_apply]
  refine congrArg (arg1.view.read (Elt F) T) (funext fun a => ?_)
  have h0 : (x 0).val < 1 := (x 0).isLt
  have h1 : (x 1).val < 1 := (x 1).isLt
  match a with
  | ⟨0, _⟩ => exact Fin.ext (by show o 0 + 1 * (x 0).val = R; rw [ho 0]; show R + 1 * (x 0).val = R; omega)
  | ⟨1, _⟩ => exact Fin.ext (by show o 1 + 1 * (x 1).val = C; rw [ho 1]; show C + 1 * (x 1).val = C; omega)

/-- Two bank blocks stored side by side as one [1, 64, 128] tile, read at an index whose column is below 64: the first
    block at the same row and column. -/
theorem pay_left (va vb : Vec F S1x64x64 .bf16) (x : S1x64x128.Idx) (y : S1x64x64.Idx)
    (h1 : (y 1).val = (x 1).val) (h2 : (y 2).val = (x 2).val) : k0_pay4 (F := F) va vb x = va y := by
  unfold k0_pay4
  refine (shapeCast_addUnit_apply ![64, 128] _ _ x).trans ?_
  rw [shapeCast_self]
  refine (concatenate_pair_apply_left (t := S64x128) (s₁ := S64x64) (s₂ := S64x64) (1 : Fin 2) _ _ _ (fun a => x a.succ : S64x128.Idx) rfl (fun a => y a.succ : S64x64.Idx) ?_).trans ?_
  · intro b
    match b with
    | ⟨0, _⟩ => exact h1
    | ⟨1, _⟩ => exact h2
  · refine (shapeCast_dropUnit_apply ![64, 64] va _ _).trans ?_
    refine congrArg va (funext fun a => ?_)
    have h0 : (y 0).val < 1 := (y 0).isLt
    match a with
    | ⟨0, _⟩ => exact Fin.ext (by show 0 = (y 0).val; omega)
    | ⟨1, _⟩ => rfl
    | ⟨2, _⟩ => rfl

/-- The same at a column from 64 on: the second block at the same row, the column less 64. -/
theorem pay_right (va vb : Vec F S1x64x64 .bf16) (x : S1x64x128.Idx) (y : S1x64x64.Idx)
    (h1 : (y 1).val = (x 1).val) (h2 : (y 2).val + 64 = (x 2).val) : k0_pay4 (F := F) va vb x = vb y := by
  unfold k0_pay4
  refine (shapeCast_addUnit_apply ![64, 128] _ _ x).trans ?_
  rw [shapeCast_self]
  refine (concatenate_pair_apply_right (t := S64x128) (s₁ := S64x64) (s₂ := S64x64) (1 : Fin 2) _ _ _ (fun a => x a.succ : S64x128.Idx) rfl rfl (fun a => y a.succ : S64x64.Idx) ?_ ?_).trans ?_
  · intro b hb
    match b with
    | ⟨0, _⟩ => exact h1
    | ⟨1, _⟩ => exact absurd rfl hb
  · exact h2
  · refine (shapeCast_dropUnit_apply ![64, 64] vb _ _).trans ?_
    refine congrArg vb (funext fun a => ?_)
    have h0 : (y 0).val < 1 := (y 0).isLt
    match a with
    | ⟨0, _⟩ => exact Fin.ext (by show 0 = (y 0).val; omega)
    | ⟨1, _⟩ => rfl
    | ⟨2, _⟩ => rfl

/-- The store at row block r, column block c of slot k mod 2 — the two bank blocks named by the table's words at row
    4k + r and columns 16t + 2c, 16t + 2c + 1, side by side — holds the tile's function under its rectangle. -/
theorem piece_ok (arg1 : Memref sig .tc .smem S128x128 .i32) (arg3 : Memref sig .tc .vmem S1024x64x64 .bf16)
    (T : BufTy.Contents (Elt F) arg1.view.ty) (B : BufTy.Contents (Elt F) arg3.view.ty)
    (hT : ∀ y, (tword (F := F) arg1 T y).toNat < 1024) (i : grid0.Coords) (k : Fin k0_t1_loop.trips)
    (r : ℕ) (hr : r < 4) (c : ℕ) (hc : c < 8)
    (off : Fin 3 → ℕ) (inb : ∀ a, off a + S1x64x128.size a ≤ S2x256x1024.size a)
    (hoff : ∀ a, off a = (![k.val % 2, 64 * r, 128 * c] : Fin 3 → ℕ) a)
    (wa wb : BitVec 32)
    (hwa : ∀ hR hC, wa = tword (F := F) arg1 T (ix2 (⟨4 * k.val + r, hR⟩ : Fin 128) (⟨16 * (i 0).val + 2 * c, hC⟩ : Fin 128)))
    (hwb : ∀ hR hC, wb = tword (F := F) arg1 T (ix2 (⟨4 * k.val + r, hR⟩ : Fin 128) (⟨16 * (i 0).val + 2 * c + 1, hC⟩ : Fin 128)))
    (oa ob : Fin 3 → ℕ) (inba : ∀ a, oa a + S1x64x64.size a ≤ S1024x64x64.size a) (inbb : ∀ a, ob a + S1x64x64.size a ≤ S1024x64x64.size a)
    (hoa : ∀ a, oa a = (![wa.toNat, 0, 0] : Fin 3 → ℕ) a) (hob : ∀ a, ob a = (![wb.toNat, 0, 0] : Fin 3 → ℕ) a)
    (x : S1x64x128.Idx) :
    k0_pay4 (F := F) (View.readAt (Elt F) arg3.view (Rect.unit (s := S1024x64x64) oa S1x64x64.size inba).toLoadRect B)
        (View.readAt (Elt F) arg3.view (Rect.unit (s := S1024x64x64) ob S1x64x64.size inbb).toLoadRect B) x
      = wtileG (F := F) arg1 arg3 T B i k ((Rect.unit (s := S2x256x1024) off S1x64x128.size inb).emb x) := by
  have hk : k.val < 32 := Nat.lt_of_lt_of_le k.isLt k0_t1_abs.2.1
  have hi : (i 0).val < 8 := (i 0).isLt
  have hx1 : (x 1).val < 64 := (x 1).isLt
  have hx2 : (x 2).val < 128 := (x 2).isLt
  have hRow : 4 * k.val + r < 128 := by omega
  have hCa : 16 * (i 0).val + 2 * c < 128 := by omega
  have hCb : 16 * (i 0).val + 2 * c + 1 < 128 := by omega
  have ea := hwa hRow hCa
  have eb := hwb hRow hCb
  subst ea eb
  have e1 : ((Rect.unit (s := S2x256x1024) off S1x64x128.size inb).emb x 1).val = 64 * r + (x 1).val := by
    show off 1 + 1 * (x 1).val = _; rw [hoff 1]; show 64 * r + 1 * (x 1).val = _; omega
  have e2 : ((Rect.unit (s := S2x256x1024) off S1x64x128.size inb).emb x 2).val = 128 * c + (x 2).val := by
    show off 2 + 1 * (x 2).val = _; rw [hoff 2]; show 128 * c + 1 * (x 2).val = _; omega
  unfold wtileG
  generalize (Rect.unit (s := S2x256x1024) off S1x64x128.size inb).emb x = y at e1 e2 ⊢
  by_cases h : (x 2).val < 64
  · refine (pay_left _ _ x (ix3 (⟨0, Nat.one_pos⟩ : Fin 1) (⟨(x 1).val, hx1⟩ : Fin 64) (⟨(x 2).val, h⟩ : Fin 64)) rfl rfl).trans ?_
    refine (bank_read (F := F) arg3 B _ (hT _) oa inba hoa _ ⟨(x 1).val, hx1⟩ ⟨(x 2).val, h⟩ rfl rfl).trans ?_
    exact (wt_eq (F := F) arg1 arg3 T B hT i k _ _ _ _ hRow hCa
      (by show 4 * k.val + (y 1).val / 64 = 4 * k.val + r; omega)
      (by show 16 * (i 0).val + (y 2).val / 64 = 16 * (i 0).val + 2 * c; omega)
      ⟨(x 1).val, hx1⟩ ⟨(x 2).val, h⟩
      (by show (y 1).val % 64 = (x 1).val; omega) (by show (y 2).val % 64 = (x 2).val; omega)).symm
  · have h' : (x 2).val - 64 < 64 := by omega
    refine (pay_right _ _ x (ix3 (⟨0, Nat.one_pos⟩ : Fin 1) (⟨(x 1).val, hx1⟩ : Fin 64) (⟨(x 2).val - 64, h'⟩ : Fin 64)) rfl
      (by show (x 2).val - 64 + 64 = (x 2).val; omega)).trans ?_
    refine (bank_read (F := F) arg3 B _ (hT _) ob inbb hob _ ⟨(x 1).val, hx1⟩ ⟨(x 2).val - 64, h'⟩ rfl rfl).trans ?_
    exact (wt_eq (F := F) arg1 arg3 T B hT i k _ _ _ _ hRow hCb
      (by show 4 * k.val + (y 1).val / 64 = 4 * k.val + r; omega)
      (by show 16 * (i 0).val + (y 2).val / 64 = 16 * (i 0).val + 2 * c + 1; omega)
      ⟨(x 1).val, hx1⟩ ⟨(x 2).val - 64, h'⟩
      (by show (y 1).val % 64 = (x 1).val; omega) (by show (y 2).val % 64 = (x 2).val - 64; omega)).symm

/-- A list of stores, last first, that are the first m tiles — [1, 64, 128] each, eight to a row of tiles, in row-major
    order — of slot s of the scratch, each holding the block of one function G under its rectangle. -/
inductive Tiled (G : S2x256x1024.Idx → Elt F .bf16) (s : ℕ) : ℕ → List (View.Piece (Elt F) S2x256x1024 .bf16) → Prop
  | nil : Tiled G s 0 []
  | cons (m : ℕ) (off : Fin 3 → ℕ) (inb : ∀ a, off a + S1x64x128.size a ≤ S2x256x1024.size a)
      (w : S1x64x128.Idx → Elt F .bf16) (L : List (View.Piece (Elt F) S2x256x1024 .bf16))
      (hoff : ∀ a, off a = (![s, 64 * (m / 8), 128 * (m % 8)] : Fin 3 → ℕ) a)
      (hw : ∀ x, w x = G ((Rect.unit (s := S2x256x1024) off S1x64x128.size inb).emb x))
      (hL : Tiled G s m L) :
      Tiled G s (m + 1) ((⟨Rect.unit (s := S2x256x1024) off S1x64x128.size inb, w⟩ : View.Piece (Elt F) S2x256x1024 .bf16) :: L)

/-- Every store of such a list holds G's block. -/
theorem Tiled.pieces {G : S2x256x1024.Idx → Elt F .bf16} {s m : ℕ} {L : List (View.Piece (Elt F) S2x256x1024 .bf16)}
    (h : Tiled (F := F) G s m L) : ∀ p ∈ L, ∀ x : p.1.shape.Idx, p.2 x = G (p.1.emb x) := by
  induction h with
  | nil => intro p hp; exact absurd hp List.not_mem_nil
  | cons m off inb w L hoff hw hL ih =>
    intro p hp
    rcases List.mem_cons.mp hp with rfl | hp
    · exact hw
    · exact ih p hp

/-- An index of slot s whose tile number is below m lies under one of the m stores. -/
theorem Tiled.cover {G : S2x256x1024.Idx → Elt F .bf16} {s m : ℕ} {L : List (View.Piece (Elt F) S2x256x1024 .bf16)}
    (h : Tiled (F := F) G s m L) (y : S2x256x1024.Idx) (h0 : (y 0).val = s) (hm : 8 * ((y 1).val / 64) + (y 2).val / 128 < m) :
    ∃ p ∈ L, y ∈ p.1.set := by
  have hy2 : (y 2).val < 1024 := (y 2).isLt
  induction h with
  | nil => omega
  | cons m off inb w L hoff hw hL ih =>
    by_cases hlt : 8 * ((y 1).val / 64) + (y 2).val / 128 < m
    · obtain ⟨p, hp, hy⟩ := ih hlt
      exact ⟨p, List.mem_cons_of_mem _ hp, hy⟩
    · refine ⟨_, List.mem_cons_self, ?_⟩
      rw [Rect.mem_set_unit]
      intro a
      match a with
      | ⟨0, _⟩ => show off 0 ≤ (y 0).val ∧ (y 0).val < off 0 + 1; rw [hoff 0]; show s ≤ (y 0).val ∧ (y 0).val < s + 1; omega
      | ⟨1, _⟩ => show off 1 ≤ (y 1).val ∧ (y 1).val < off 1 + 64; rw [hoff 1]; show 64 * (m / 8) ≤ (y 1).val ∧ (y 1).val < 64 * (m / 8) + 64; omega
      | ⟨2, _⟩ => show off 2 ≤ (y 2).val ∧ (y 2).val < off 2 + 128; rw [hoff 2]; show 128 * (m % 8) ≤ (y 2).val ∧ (y 2).val < 128 * (m % 8) + 128; omega

/-- A load of the whole of slot s after 32 such stores reads G, whatever the scratch held before. -/
theorem readCov_tiled {κ : Kind} {sp : Space} (v : View sig κ sp S2x256x1024 .bf16) (G : S2x256x1024.Idx → Elt F .bf16) (s : ℕ)
    (L : List (View.Piece (Elt F) S2x256x1024 .bf16)) (hL : Tiled (F := F) G s 32 L)
    (o : Fin 3 → ℕ) (inb : ∀ a, o a + S1x256x1024.size a ≤ S2x256x1024.size a)
    (ho : ∀ a, o a = (![s, 0, 0] : Fin 3 → ℕ) a)
    (W : S1x256x1024.Idx → Elt F .bf16)
    (hW : ∀ j, G ((Rect.unit (s := S2x256x1024) o S1x256x1024.size inb).toLoadRect.idx j) = W j) :
    v.readCov L (Rect.unit (s := S2x256x1024) o S1x256x1024.size inb).toLoadRect = W := by
  rw [View.readCov_eq_canon']
  funext j
  have hj0 : (j 0).val < 1 := (j 0).isLt
  have hj1 : (j 1).val < 256 := (j 1).isLt
  have hj2 : (j 2).val < 1024 := (j 2).isLt
  have e0 : ((Rect.unit (s := S2x256x1024) o S1x256x1024.size inb).toLoadRect.idx j 0).val = s := by
    show o 0 + 1 * (j 0).val = s; rw [ho 0]; show s + 1 * (j 0).val = s; omega
  have e1 : ((Rect.unit (s := S2x256x1024) o S1x256x1024.size inb).toLoadRect.idx j 1).val = (j 1).val := by
    show o 1 + 1 * (j 1).val = _; rw [ho 1]; show 0 + 1 * (j 1).val = _; omega
  have e2 : ((Rect.unit (s := S2x256x1024) o S1x256x1024.size inb).toLoadRect.idx j 2).val = (j 2).val := by
    show o 2 + 1 * (j 2).val = _; rw [ho 2]; show 0 + 1 * (j 2).val = _; omega
  refine (View.canon_apply_of_pieces G L hL.pieces _ (hL.cover _ e0 (by rw [e1, e2]; omega))).trans (hW j)

/-- The tile's function at an index of the load of slot s is the tile at the load's index. -/
theorem wtileG_box (arg1 : Memref sig .tc .smem S128x128 .i32) (arg3 : Memref sig .tc .vmem S1024x64x64 .bf16)
    (T : BufTy.Contents (Elt F) arg1.view.ty) (B : BufTy.Contents (Elt F) arg3.view.ty) (i : grid0.Coords) (k : Fin k0_t1_loop.trips)
    (s : ℕ) (o : Fin 3 → ℕ) (inb : ∀ a, o a + S1x256x1024.size a ≤ S2x256x1024.size a)
    (ho : ∀ a, o a = (![s, 0, 0] : Fin 3 → ℕ) a) (j : S1x256x1024.Idx) :
    wtileG (F := F) arg1 arg3 T B i k ((Rect.unit (s := S2x256x1024) o S1x256x1024.size inb).toLoadRect.idx j)
      = wtile (F := F) arg1 arg3 T B i k j := by
  rw [wtile_apply]
  unfold wtileG
  have e1 : ((Rect.unit (s := S2x256x1024) o S1x256x1024.size inb).toLoadRect.idx j 1).val = (j 1).val := by
    show o 1 + 1 * (j 1).val = _; rw [ho 1]; show 0 + 1 * (j 1).val = _; omega
  have e2 : ((Rect.unit (s := S2x256x1024) o S1x256x1024.size inb).toLoadRect.idx j 2).val = (j 2).val := by
    show o 2 + 1 * (j 2).val = _; rw [ho 2]; show 0 + 1 * (j 2).val = _; omega
  exact congrArg₂ (wt (F := F) arg1 arg3 T B i k) (Fin.ext e1) (Fin.ext e2)

theorem off193_eq : ∀ k : Fin k0_t1_loop.trips, ∀ a, k0_off193 k a = (![0, 256 * k.val] : Fin 2 → ℕ) a := by decide +kernel

/-- The load of x's 256 columns from column 256k on. -/
theorem xsl_eq (arg2 : Memref sig .tc .vmem S256x8192 .bf16) (X : BufTy.Contents (Elt F) arg2.view.ty) (k : Fin k0_t1_loop.trips)
    (o : Fin 2 → ℕ) (inb : ∀ a, o a + S256x256.size a ≤ S256x8192.size a) (ho : ∀ a, o a = (![0, 256 * k.val] : Fin 2 → ℕ) a) :
    View.readAt (Elt F) arg2.view (Rect.unit (s := S256x8192) o S256x256.size inb).toLoadRect X = xsl (F := F) arg2 X k := by
  funext j
  rw [View.readAt_apply]
  unfold xsl
  refine congrArg (arg2.view.read (Elt F) X) (funext fun a => ?_)
  match a with
  | ⟨0, _⟩ => exact Fin.ext (by show o 0 + 1 * (j 0).val = (j 0).val; rw [ho 0]; show 0 + 1 * (j 0).val = (j 0).val; omega)
  | ⟨1, _⟩ => exact Fin.ext (by show o 1 + 1 * (j 1).val = 256 * k.val + (j 1).val; rw [ho 1]; show 256 * k.val + 1 * (j 1).val = _; omega)

/-- The load of the whole accumulator reads its contents. -/
theorem acc_eq (arg6 : Memref sig .tc .vmem S256x1024 .f32) (f6 : BufTy.Contents (Elt F) arg6.view.ty) :
    View.readAt (Elt F) arg6.view (Rect.unit (s := S256x1024) ![0, 0] S256x1024.size inb_S256x1024_S256x1024_0_0).toLoadRect f6
      = arg6.view.read (Elt F) f6 := by
  rw [View.readAt_eq_ld]
  exact View.ld_unit_zero (funext fun a => by match a with | ⟨0, _⟩ => rfl | ⟨1, _⟩ => rfl) _ _

/-- The accumulator's piece depends on its three operands only. -/
theorem acc_piece_congr (A1 B1 : Vec F S256x256 .bf16) (A2 B2 : Vec F S256x1024 .f32) (A3 B3 : Vec F S1x256x1024 .bf16)
    (h1 : A1 = B1) (h2 : A2 = B2) (h3 : A3 = B3) : k0_pay2 (F := F) (k0_pay36 A1 A2 A3) = k0_pay2 (k0_pay36 B1 B2 B3) := by
  subst h1 h2 h3; rfl

/-- The one piece trip k writes into the accumulator, over what it found there: the whole block at the found
    contents plus the product of x's columns with the assembled tile. -/
theorem tripL6_eq (𝒱 : Variants) (c : Dev nD) (bd : Option 𝒱.V) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole) (v0 : BitVec 32)
    (T : BufTy.Contents (Elt F) arg1.view.ty) (X : BufTy.Contents (Elt F) arg2.view.ty) (B : BufTy.Contents (Elt F) arg3.view.ty)
    (hT : ∀ y, (tword (F := F) arg1 T y).toNat < 1024) (k : Fin k0_t1_loop.trips) (f6 : BufTy.Contents (Elt F) arg6.view.ty) :
    tripL6 (F := F) 𝒱 c bd i arg1 harg1 arg2 harg2 arg3 harg3 arg4 harg4 arg5 harg5 arg6 harg6 arg7 harg7 v0 T X B hT k f6
      = [⟨Rect.unit (s := S256x1024) ![0, 0] S256x1024.size inb_S256x1024_S256x1024_0_0,
          k0_pay2 (k0_pay36 (xsl (F := F) arg2 X k) (arg6.view.read (Elt F) f6) (wtile (F := F) arg1 arg3 T B i k))⟩] := by
  unfold tripL6 trip
  dsimp only
  sl_unfold_run_names
  refine congrArg (fun w => [(⟨Rect.unit (s := S256x1024) ![0, 0] S256x1024.size inb_S256x1024_S256x1024_0_0, w⟩ : View.Piece (Elt F) S256x1024 .f32)]) ?_
  refine acc_piece_congr (F := F) _ _ _ _ _ _ (xsl_eq (F := F) arg2 X k _ _ (off193_eq k)) (acc_eq (F := F) arg6 f6) ?_
  refine readCov_tiled (F := F) _ (wtileG (F := F) arg1 arg3 T B i k) (k.val % 2) _ ?_ _ _ (off194_eq k) _
    (fun j => wtileG_box (F := F) arg1 arg3 T B i k _ _ _ (off194_eq k) j)
  refine Tiled.cons 31 _ _ _ _ (off192_eq k)
    (piece_ok (F := F) arg1 arg3 T B hT i k 3 (by decide) 7 (by decide) _ _ (off192_eq k) _ _
      (fun hR hC => word_read (F := F) arg1 T _ _ hR hC _ _ (off187_eq i k) _)
      (fun hR hC => word_read (F := F) arg1 T _ _ hR hC _ _ (off188_eq i k) _)
      _ _ _ _ (fun a => rfl) (fun a => rfl)) ?_
  refine Tiled.cons 30 _ _ _ _ (off186_eq k)
    (piece_ok (F := F) arg1 arg3 T B hT i k 3 (by decide) 6 (by decide) _ _ (off186_eq k) _ _
      (fun hR hC => word_read (F := F) arg1 T _ _ hR hC _ _ (off181_eq i k) _)
      (fun hR hC => word_read (F := F) arg1 T _ _ hR hC _ _ (off182_eq i k) _)
      _ _ _ _ (fun a => rfl) (fun a => rfl)) ?_
  refine Tiled.cons 29 _ _ _ _ (off180_eq k)
    (piece_ok (F := F) arg1 arg3 T B hT i k 3 (by decide) 5 (by decide) _ _ (off180_eq k) _ _
      (fun hR hC => word_read (F := F) arg1 T _ _ hR hC _ _ (off175_eq i k) _)
      (fun hR hC => word_read (F := F) arg1 T _ _ hR hC _ _ (off176_eq i k) _)
      _ _ _ _ (fun a => rfl) (fun a => rfl)) ?_
  refine Tiled.cons 28 _ _ _ _ (off174_eq k)
    (piece_ok (F := F) arg1 arg3 T B hT i k 3 (by decide) 4 (by decide) _ _ (off174_eq k) _ _
      (fun hR hC => word_read (F := F) arg1 T _ _ hR hC _ _ (off169_eq i k) _)
      (fun hR hC => word_read (F := F) arg1 T _ _ hR hC _ _ (off170_eq i k) _)
      _ _ _ _ (fun a => rfl) (fun a => rfl)) ?_
  refine Tiled.cons 27 _ _ _ _ (off168_eq k)
    (piece_ok (F := F) arg1 arg3 T B hT i k 3 (by decide) 3 (by decide) _ _ (off168_eq k) _ _
      (fun hR hC => word_read (F := F) arg1 T _ _ hR hC _ _ (off163_eq i k) _)
      (fun hR hC => word_read (F := F) arg1 T _ _ hR hC _ _ (off164_eq i k) _)
      _ _ _ _ (fun a => rfl) (fun a => rfl)) ?_
  refine Tiled.cons 26 _ _ _ _ (off162_eq k)
    (piece_ok (F := F) arg1 arg3 T B hT i k 3 (by decide) 2 (by decide) _ _ (off162_eq k) _ _
      (fun hR hC => word_read (F := F) arg1 T _ _ hR hC _ _ (off157_eq i k) _)
      (fun hR hC => word_read (F := F) arg1 T _ _ hR hC _ _ (off158_eq i k) _)
      _ _ _ _ (fun a => rfl) (fun a => rfl)) ?_
  refine Tiled.cons 25 _ _ _ _ (off156_eq k)
    (piece_ok (F := F) arg1 arg3 T B hT i k 3 (by decide) 1 (by decide) _ _ (off156_eq k) _ _
      (fun hR hC => word_read (F := F) arg1 T _ _ hR hC _ _ (off151_eq i k) _)
      (fun hR hC => word_read (F := F) arg1 T _ _ hR hC _ _ (off152_eq i k) _)
      _ _ _ _ (fun a => rfl) (fun a => rfl)) ?_
  refine Tiled.cons 24 _ _ _ _ (off150_eq k)
    (piece_ok (F := F) arg1 arg3 T B hT i k 3 (by decide) 0 (by decide) _ _ (off150_eq k) _ _
      (fun hR hC => word_read (F := F) arg1 T _ _ hR hC _ _ (off145_eq i k) _)
      (fun hR hC => word_read (F := F) arg1 T _ _ hR hC _ _ (off146_eq i k) _)
      _ _ _ _ (fun a => rfl) (fun a => rfl)) ?_
  refine Tiled.cons 23 _ _ _ _ (off144_eq k)
    (piece_ok (F := F) arg1 arg3 T B hT i k 2 (by decide) 7 (by decide) _ _ (off144_eq k) _ _
      (fun hR hC => word_read (F := F) arg1 T _ _ hR hC _ _ (off139_eq i k) _)
      (fun hR hC => word_read (F := F) arg1 T _ _ hR hC _ _ (off140_eq i k) _)
      _ _ _ _ (fun a => rfl) (fun a => rfl)) ?_
  refine Tiled.cons 22 _ _ _ _ (off138_eq k)
    (piece_ok (F := F) arg1 arg3 T B hT i k 2 (by decide) 6 (by decide) _ _ (off138_eq k) _ _
      (fun hR hC => word_read (F := F) arg1 T _ _ hR hC _ _ (off133_eq i k) _)
      (fun hR hC => word_read (F := F) arg1 T _ _ hR hC _ _ (off134_eq i k) _)
      _ _ _ _ (fun a => rfl) (fun a => rfl)) ?_
  refine Tiled.cons 21 _ _ _ _ (off132_eq k)
    (piece_ok (F := F) arg1 arg3 T B hT i k 2 (by decide) 5 (by decide) _ _ (off132_eq k) _ _
      (fun hR hC => word_read (F := F) arg1 T _ _ hR hC _ _ (off127_eq i k) _)
      (fun hR hC => word_read (F := F) arg1 T _ _ hR hC _ _ (off128_eq i k) _)
      _ _ _ _ (fun a => rfl) (fun a => rfl)) ?_
  refine Tiled.cons 20 _ _ _ _ (off126_eq k)
    (piece_ok (F := F) arg1 arg3 T B hT i k 2 (by decide) 4 (by decide) _ _ (off126_eq k) _ _
      (fun hR hC => word_read (F := F) arg1 T _ _ hR hC _ _ (off121_eq i k) _)
      (fun hR hC => word_read (F := F) arg1 T _ _ hR hC _ _ (off122_eq i k) _)
      _ _ _ _ (fun a => rfl) (fun a => rfl)) ?_
  refine Tiled.cons 19 _ _ _ _ (off120_eq k)
    (piece_ok (F := F) arg1 arg3 T B hT i k 2 (by decide) 3 (by decide) _ _ (off120_eq k) _ _
      (fun hR hC => word_read (F := F) arg1 T _ _ hR hC _ _ (off115_eq i k) _)
      (fun hR hC => word_read (F := F) arg1 T _ _ hR hC _ _ (off116_eq i k) _)
      _ _ _ _ (fun a => rfl) (fun a => rfl)) ?_
  refine Tiled.cons 18 _ _ _ _ (off114_eq k)
    (piece_ok (F := F) arg1 arg3 T B hT i k 2 (by decide) 2 (by decide) _ _ (off114_eq k) _ _
      (fun hR hC => word_read (F := F) arg1 T _ _ hR hC _ _ (off109_eq i k) _)
      (fun hR hC => word_read (F := F) arg1 T _ _ hR hC _ _ (off110_eq i k) _)
      _ _ _ _ (fun a => rfl) (fun a => rfl)) ?_
  refine Tiled.cons 17 _ _ _ _ (off108_eq k)
    (piece_ok (F := F) arg1 arg3 T B hT i k 2 (by decide) 1 (by decide) _ _ (off108_eq k) _ _
      (fun hR hC => word_read (F := F) arg1 T _ _ hR hC _ _ (off103_eq i k) _)
      (fun hR hC => word_read (F := F) arg1 T _ _ hR hC _ _ (off104_eq i k) _)
      _ _ _ _ (fun a => rfl) (fun a => rfl)) ?_
  refine Tiled.cons 16 _ _ _ _ (off102_eq k)
    (piece_ok (F := F) arg1 arg3 T B hT i k 2 (by decide) 0 (by decide) _ _ (off102_eq k) _ _
      (fun hR hC => word_read (F := F) arg1 T _ _ hR hC _ _ (off97_eq i k) _)
      (fun hR hC => word_read (F := F) arg1 T _ _ hR hC _ _ (off98_eq i k) _)
      _ _ _ _ (fun a => rfl) (fun a => rfl)) ?_
  refine Tiled.cons 15 _ _ _ _ (off96_eq k)
    (piece_ok (F := F) arg1 arg3 T B hT i k 1 (by decide) 7 (by decide) _ _ (off96_eq k) _ _
      (fun hR hC => word_read (F := F) arg1 T _ _ hR hC _ _ (off91_eq i k) _)
      (fun hR hC => word_read (F := F) arg1 T _ _ hR hC _ _ (off92_eq i k) _)
      _ _ _ _ (fun a => rfl) (fun a => rfl)) ?_
  refine Tiled.cons 14 _ _ _ _ (off90_eq k)
    (piece_ok (F := F) arg1 arg3 T B hT i k 1 (by decide) 6 (by decide) _ _ (off90_eq k) _ _
      (fun hR hC => word_read (F := F) arg1 T _ _ hR hC _ _ (off85_eq i k) _)
      (fun hR hC => word_read (F := F) arg1 T _ _ hR hC _ _ (off86_eq i k) _)
      _ _ _ _ (fun a => rfl) (fun a => rfl)) ?_
  refine Tiled.cons 13 _ _ _ _ (off84_eq k)
    (piece_ok (F := F) arg1 arg3 T B hT i k 1 (by decide) 5 (by decide) _ _ (off84_eq k) _ _
      (fun hR hC => word_read (F := F) arg1 T _ _ hR hC _ _ (off79_eq i k) _)
      (fun hR hC => word_read (F := F) arg1 T _ _ hR hC _ _ (off80_eq i k) _)
      _ _ _ _ (fun a => rfl) (fun a => rfl)) ?_
  refine Tiled.cons 12 _ _ _ _ (off78_eq k)
    (piece_ok (F := F) arg1 arg3 T B hT i k 1 (by decide) 4 (by decide) _ _ (off78_eq k) _ _
      (fun hR hC => word_read (F := F) arg1 T _ _ hR hC _ _ (off73_eq i k) _)
      (fun hR hC => word_read (F := F) arg1 T _ _ hR hC _ _ (off74_eq i k) _)
      _ _ _ _ (fun a => rfl) (fun a => rfl)) ?_
  refine Tiled.cons 11 _ _ _ _ (off72_eq k)
    (piece_ok (F := F) arg1 arg3 T B hT i k 1 (by decide) 3 (by decide) _ _ (off72_eq k) _ _
      (fun hR hC => word_read (F := F) arg1 T _ _ hR hC _ _ (off67_eq i k) _)
      (fun hR hC => word_read (F := F) arg1 T _ _ hR hC _ _ (off68_eq i k) _)
      _ _ _ _ (fun a => rfl) (fun a => rfl)) ?_
  refine Tiled.cons 10 _ _ _ _ (off66_eq k)
    (piece_ok (F := F) arg1 arg3 T B hT i k 1 (by decide) 2 (by decide) _ _ (off66_eq k) _ _
      (fun hR hC => word_read (F := F) arg1 T _ _ hR hC _ _ (off61_eq i k) _)
      (fun hR hC => word_read (F := F) arg1 T _ _ hR hC _ _ (off62_eq i k) _)
      _ _ _ _ (fun a => rfl) (fun a => rfl)) ?_
  refine Tiled.cons 9 _ _ _ _ (off60_eq k)
    (piece_ok (F := F) arg1 arg3 T B hT i k 1 (by decide) 1 (by decide) _ _ (off60_eq k) _ _
      (fun hR hC => word_read (F := F) arg1 T _ _ hR hC _ _ (off55_eq i k) _)
      (fun hR hC => word_read (F := F) arg1 T _ _ hR hC _ _ (off56_eq i k) _)
      _ _ _ _ (fun a => rfl) (fun a => rfl)) ?_
  refine Tiled.cons 8 _ _ _ _ (off54_eq k)
    (piece_ok (F := F) arg1 arg3 T B hT i k 1 (by decide) 0 (by decide) _ _ (off54_eq k) _ _
      (fun hR hC => word_read (F := F) arg1 T _ _ hR hC _ _ (off49_eq i k) _)
      (fun hR hC => word_read (F := F) arg1 T _ _ hR hC _ _ (off50_eq i k) _)
      _ _ _ _ (fun a => rfl) (fun a => rfl)) ?_
  refine Tiled.cons 7 _ _ _ _ (off48_eq k)
    (piece_ok (F := F) arg1 arg3 T B hT i k 0 (by decide) 7 (by decide) _ _ (off48_eq k) _ _
      (fun hR hC => word_read (F := F) arg1 T _ _ hR hC _ _ (off43_eq i k) _)
      (fun hR hC => word_read (F := F) arg1 T _ _ hR hC _ _ (off44_eq i k) _)
      _ _ _ _ (fun a => rfl) (fun a => rfl)) ?_
  refine Tiled.cons 6 _ _ _ _ (off42_eq k)
    (piece_ok (F := F) arg1 arg3 T B hT i k 0 (by decide) 6 (by decide) _ _ (off42_eq k) _ _
      (fun hR hC => word_read (F := F) arg1 T _ _ hR hC _ _ (off37_eq i k) _)
      (fun hR hC => word_read (F := F) arg1 T _ _ hR hC _ _ (off38_eq i k) _)
      _ _ _ _ (fun a => rfl) (fun a => rfl)) ?_
  refine Tiled.cons 5 _ _ _ _ (off36_eq k)
    (piece_ok (F := F) arg1 arg3 T B hT i k 0 (by decide) 5 (by decide) _ _ (off36_eq k) _ _
      (fun hR hC => word_read (F := F) arg1 T _ _ hR hC _ _ (off31_eq i k) _)
      (fun hR hC => word_read (F := F) arg1 T _ _ hR hC _ _ (off32_eq i k) _)
      _ _ _ _ (fun a => rfl) (fun a => rfl)) ?_
  refine Tiled.cons 4 _ _ _ _ (off30_eq k)
    (piece_ok (F := F) arg1 arg3 T B hT i k 0 (by decide) 4 (by decide) _ _ (off30_eq k) _ _
      (fun hR hC => word_read (F := F) arg1 T _ _ hR hC _ _ (off25_eq i k) _)
      (fun hR hC => word_read (F := F) arg1 T _ _ hR hC _ _ (off26_eq i k) _)
      _ _ _ _ (fun a => rfl) (fun a => rfl)) ?_
  refine Tiled.cons 3 _ _ _ _ (off24_eq k)
    (piece_ok (F := F) arg1 arg3 T B hT i k 0 (by decide) 3 (by decide) _ _ (off24_eq k) _ _
      (fun hR hC => word_read (F := F) arg1 T _ _ hR hC _ _ (off19_eq i k) _)
      (fun hR hC => word_read (F := F) arg1 T _ _ hR hC _ _ (off20_eq i k) _)
      _ _ _ _ (fun a => rfl) (fun a => rfl)) ?_
  refine Tiled.cons 2 _ _ _ _ (off18_eq k)
    (piece_ok (F := F) arg1 arg3 T B hT i k 0 (by decide) 2 (by decide) _ _ (off18_eq k) _ _
      (fun hR hC => word_read (F := F) arg1 T _ _ hR hC _ _ (off13_eq i k) _)
      (fun hR hC => word_read (F := F) arg1 T _ _ hR hC _ _ (off14_eq i k) _)
      _ _ _ _ (fun a => rfl) (fun a => rfl)) ?_
  refine Tiled.cons 1 _ _ _ _ (off12_eq k)
    (piece_ok (F := F) arg1 arg3 T B hT i k 0 (by decide) 1 (by decide) _ _ (off12_eq k) _ _
      (fun hR hC => word_read (F := F) arg1 T _ _ hR hC _ _ (off7_eq i k) _)
      (fun hR hC => word_read (F := F) arg1 T _ _ hR hC _ _ (off8_eq i k) _)
      _ _ _ _ (fun a => rfl) (fun a => rfl)) ?_
  refine Tiled.cons 0 _ _ _ _ (off6_eq k)
    (piece_ok (F := F) arg1 arg3 T B hT i k 0 (by decide) 0 (by decide) _ _ (off6_eq k) _ _
      (fun hR hC => word_read (F := F) arg1 T _ _ hR hC _ _ (off1_eq i k) _)
      (fun hR hC => word_read (F := F) arg1 T _ _ hR hC _ _ (off2_eq i k) _)
      _ _ _ _ (fun a => rfl) (fun a => rfl)) ?_
  exact Tiled.nil

end Cert.KernelIdeal.Hand

end
-- ==== Proof.KI.Run.lean ====
/-
  The kernel body on any whole memrefs, as a triple the run finds.

  At a grid point the body zeroes the accumulator, goes through the loop of 32 trips by its invariant, then loads the
  accumulator and the bias block and stores their sum over the whole output block. Handed the table at words below
  1024, x, the bank and the bias block at their contents, it runs to the end holding them as they were; what it leaves
  in the output block is named by the run, and the two scratch buffers end at contents nobody needs again.
-/
import proofs.«427164_j50603304682317_2_alg».proof.Proof.KI.Trip
import Idealize.ShloMosaic.Lib.Pipeline.FrameBody
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block's staging memref, as pieces (last first), with the proof that
    the body runs to the continuation holding the inputs as they were and the output with its pieces written. -/
noncomputable def kernelRun (c : Dev nD) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole)
    (x0 : Vec F S256x8192 .bf16) (x1 : Vec F S1024x64x64 .bf16) (x2 : Vec F S1x1024 .f32) (xt : BufTy.Contents (Elt F) arg1.view.ty)
    (hT : ∀ y, (tword (F := F) arg1 xt y).toNat < 1024) :
    { L5 : List (View.Piece (Elt F) S256x1024 .f32) //
      ∀ (q : PosShare TreeShare) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (arg1.view.loc (c : Thread nD τ) ↦[arg1.view.set]{q} xt)
            ∗ (∃ f, arg6.view.loc (c : Thread nD τ) ↦[arg6.view.set]{fullShare} f)
            ∗ (∃ f, arg7.view.loc (c : Thread nD τ) ↦[arg7.view.set]{fullShare} f)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5)
                ∗ (arg1.view.loc (c : Thread nD τ) ↦[arg1.view.set]{q} xt)
                ∗ (∃ f, arg6.view.loc (c : Thread nD τ) ↦[arg6.view.set]{fullShare} f)
                ∗ (∃ f, arg7.view.loc (c : Thread nD τ) ↦[arg7.view.set]{fullShare} f)) -∗ K ⟨⟩))
          ⊢ wp frame (wpE (defs₀ (F := F)) Variants.none c none) E (cc0__mosaic_matmul_kernel i arg1 harg1 arg2 harg2 arg3 harg3 arg4 harg4 arg5 harg5 arg6 harg6 arg7 harg7) K } := by
  refine ⟨?_, fun q E K => ?run⟩
  case run =>
    simp only [cc0__mosaic_matmul_kernel_eq_skeleton]; unfold cc0__mosaic_matmul_kernel_skel
    unfold owns
    iintro ⟨⟨%f2, %hf2, H2⟩, ⟨%f3, %hf3, H3⟩, ⟨%f4, %hf4, H4⟩, ⟨%d5, %f5, -, H5⟩, HT, ⟨%f6, H6⟩, ⟨%f7, H7⟩, Hk⟩
    obtain rfl := harg2.eq_unread hf2
    obtain rfl := harg3.eq_unread hf3
    obtain rfl := harg4.eq_unread hf4
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [HT]; · iexact HT
    isplitl [H6]; · iexists _; iexact H6
    iexists _; iexact H7

end Cert.KernelIdeal.Hand

end
-- ==== Proof.KI.Acc.lean ====
/-
  The accumulator through the loop, and what the body leaves in the output block, in closed form.

  The accumulator is zeroed before the loop; trip k replaces it by itself plus the product of x's columns
  256k … 256k+255 with the tile assembled in that trip; after the 32 trips the body stores the accumulator plus the bias
  row over the whole output block. Each of these stores covers the whole block, so what is read back is the last
  payload, whatever the block held before.
-/
import proofs.«427164_j50603304682317_2_alg».proof.Proof.KI.Tile
import proofs.«427164_j50603304682317_2_alg».proof.Proof.KI.Run

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl

/-- A rectangle at zero offsets with the shape's own sizes holds every index. -/
theorem mem_unit_zero {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- After a last store over the whole block the block reads that store's payload. -/
theorem read_cons_whole {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self, mem_unit_zero h inb y⟩), View.canon_cons_unit_zero h]

/-- The word the body computes from the grid coordinate before the loop (16 times the coordinate). -/
abbrev v0w (i : grid0.Coords) : BitVec 32 := Scalar.muli (BitVec.ofNat 32 (i 0).val) 16#32

/-- The accumulator's contents at loop entry: zero stored over the whole block, over contents nobody reads. -/
abbrev G6 (arg6 : Memref sig .tc .vmem S256x1024 .f32) : BufTy.Contents (Elt F) arg6.view.ty :=
  arg6.view.writes (Elt F) arg6.view.junk [⟨Rect.unit (s := S256x1024) ![0, 0] S256x1024.size inb_S256x1024_S256x1024_0_0, k0_pay1⟩]

/-- What the accumulator reads before trip k. -/
def accAt (c : Dev nD) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole)
    (T : BufTy.Contents (Elt F) arg1.view.ty) (X : BufTy.Contents (Elt F) arg2.view.ty) (B : BufTy.Contents (Elt F) arg3.view.ty)
    (hT : ∀ y, (tword (F := F) arg1 T y).toNat < 1024) (k : ℕ) : Vec F S256x1024 .f32 :=
  arg6.view.read (Elt F) (arg6.view.writes (Elt F) (G6 (F := F) arg6)
    (pb6 (F := F) Variants.none c none i arg1 harg1 arg2 harg2 arg3 harg3 arg4 harg4 arg5 harg5 arg6 harg6 arg7 harg7 (v0w i) T X B hT (G6 (F := F) arg6) k))

/-- Before the first trip the accumulator reads the reset value. -/
theorem accAt_zero (c : Dev nD) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole)
    (T : BufTy.Contents (Elt F) arg1.view.ty) (X : BufTy.Contents (Elt F) arg2.view.ty) (B : BufTy.Contents (Elt F) arg3.view.ty)
    (hT : ∀ y, (tword (F := F) arg1 T y).toNat < 1024) :
    accAt (F := F) c i arg1 harg1 arg2 harg2 arg3 harg3 arg4 harg4 arg5 harg5 arg6 harg6 arg7 harg7 T X B hT 0 = k0_pay1 := by
  unfold accAt
  rw [pb6.eq_1, View.writes_nil]
  exact read_cons_whole _ _ hz2 _ _ _

/-- After trip k it reads what it read before plus the trip's product. -/
theorem accAt_succ (c : Dev nD) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole)
    (T : BufTy.Contents (Elt F) arg1.view.ty) (X : BufTy.Contents (Elt F) arg2.view.ty) (B : BufTy.Contents (Elt F) arg3.view.ty)
    (hT : ∀ y, (tword (F := F) arg1 T y).toNat < 1024) (k : Fin k0_t1_loop.trips) :
    accAt (F := F) c i arg1 harg1 arg2 harg2 arg3 harg3 arg4 harg4 arg5 harg5 arg6 harg6 arg7 harg7 T X B hT (k.val + 1)
      = k0_pay2 (k0_pay36 (xsl (F := F) arg2 X k) (accAt (F := F) c i arg1 harg1 arg2 harg2 arg3 harg3 arg4 harg4 arg5 harg5 arg6 harg6 arg7 harg7 T X B hT k.val) (wtile (F := F) arg1 arg3 T B i k)) := by
  unfold accAt
  rw [pb6_succ, tripL6_eq, List.singleton_append]
  exact read_cons_whole _ _ hz2 _ _ _

/-- What the body leaves in the output block: one store over the whole block, of the accumulator after the last trip
    plus the bias row. -/
theorem kernelRun_pieces (c : Dev nD) (i : grid0.Coords) (arg1 : Memref sig .tc .smem S128x128 .i32) (harg1 : arg1.IsWhole) (arg2 : Memref sig .tc .vmem S256x8192 .bf16) (harg2 : arg2.IsWhole) (arg3 : Memref sig .tc .vmem S1024x64x64 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2x256x1024 .bf16) (harg7 : arg7.IsWhole)
    (x0 : Vec F S256x8192 .bf16) (x1 : Vec F S1024x64x64 .bf16) (x2 : Vec F S1x1024 .f32) (xt : BufTy.Contents (Elt F) arg1.view.ty)
    (hT : ∀ y, (tword (F := F) arg1 xt y).toNat < 1024) :
    (kernelRun c i arg1 harg1 arg2 harg2 arg3 harg3 arg4 harg4 arg5 harg5 arg6 harg6 arg7 harg7 x0 x1 x2 xt hT).1
      = [⟨Rect.unit (s := S256x1024) ![0, 0] S256x1024.size inb_S256x1024_S256x1024_0_0,
          k0_pay3 (accAt (F := F) c i arg1 harg1 arg2 harg2 arg3 harg3 arg4 harg4 arg5 harg5 arg6 harg6 arg7 harg7 xt (harg2.unread x0) (harg3.unread x1) hT k0_t1_loop.trips) x2⟩] := by
  unfold kernelRun
  dsimp only
  sl_unfold_run_names
  unfold accAt
  rw [View.writes_append]
  congr 3
  · exact (View.ld_unit_zero hz2 _ _)
  · exact (View.ld_unit_zero hz2 _ _).trans (harg4.read_unread x2)

end Cert.KernelIdeal.Hand

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.KI.Algebra.lean ====
/-
  The kernel's arithmetic at the exact reals, one entry at a time: the accumulator starts at zero; a trip adds to each
  entry the inner product of a row of x's 256 columns with a column of the assembled tile (the matrix unit's product
  into a zero accumulator is the plain sum over the contracted axis); the last store adds the bias row. And the sum
  over all 8192 columns of x taken 256 at a time is the sum over the 32 trips of the sums inside a trip.
-/
import proofs.«427164_j50603304682317_2_alg».proof.Proof.Gen.KernelIdeal.Skeleton
import proofs.«427164_j50603304682317_2_alg».proof.Proof.LibDot
import proofs.«427164_j50603304682317_2_alg».proof.Proof.LibBlockSum
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

/-- The accumulator's reset value is zero at every entry. -/
theorem pay1_at (r : Fin 256) (n : Fin 1024) : (k0_pay1 (F := Ideal) (ix2 r n) : EReal) = 0 := by
  show shapeCast S256x1024 (broadcast S256x1024 (Scalar.ofBits (F := Ideal) .f32 0x00000000#32))
    Facts₀.shapeCasts_S256x1024_S256x1024 (ix2 r n) = 0
  rw [shapeCast_self, broadcast_apply]
  exact Ideal.ofBits_zero_f32

/-- The store back into the accumulator stores the value as it is. -/
theorem pay2_eq (v : FVec Ideal S256x1024 .f32) : k0_pay2 (F := Ideal) v = v :=
  shapeCast_self v _

/-- One trip at an entry: the accumulator's entry plus the inner product over the trip's 256 columns. -/
theorem pay36_at (xs : Vec Ideal S256x256 .bf16) (acc : Vec Ideal S256x1024 .f32) (wt : Vec Ideal S1x256x1024 .bf16)
    (r : Fin 256) (n : Fin 1024) :
    (k0_pay36 (F := Ideal) xs acc wt (ix2 r n) : EReal)
      = (acc (ix2 r n) : EReal) + ∑ kk : Fin 256, (xs (ix2 r kk) : EReal) * (wt (ix3 (0 : Fin 1) kk n) : EReal) := by
  show addf (F := Ideal) acc (matmul dot_S256x256_S256x1024_S256x1024_1_0_0_1_n_n none
      (shapeCast S256x256 xs Facts₀.shapeCasts_S256x256_S256x256)
      (shapeCast S256x1024 wt Facts₀.shapeCasts_S1x256x1024_S256x1024)
      (constant S256x1024 .f32 0x00000000#32)) (ix2 r n) = _
  rw [addf_apply, Cert.LibDot.matmul_zero_apply dot_S256x256_S256x1024_S256x1024_1_0_0_1_n_n rfl rfl rfl rfl rfl rfl,
    shapeCast_self]
  simp only [shapeCast_1ab_ab_apply]

/-- The last store at an entry: the accumulator's entry plus the bias of its column. -/
theorem pay3_at (acc : Vec Ideal S256x1024 .f32) (b : Vec Ideal S1x1024 .f32) (r : Fin 256) (n : Fin 1024) :
    (k0_pay3 (F := Ideal) acc b (ix2 r n) : EReal) = (acc (ix2 r n) : EReal) + (b (ix2 (0 : Fin 1) n) : EReal) := by
  show addf (F := Ideal) acc (broadcastTo S256x1024 (shapeCast S1x1024 b Facts₀.shapeCasts_S1x1024_S1x1024)
      Facts₀.broadcasts_S1x1024_S256x1024) (ix2 r n) = _
  rw [addf_apply, shapeCast_self, broadcastTo_1b_ab_apply]

/-- A sum over 8192 = 32 · 256 indices, taken 256 at a time. -/
theorem sum_groups (f : Fin 8192 → EReal) :
    ∑ g : Fin 32, ∑ kk : Fin 256, f ⟨256 * g.val + kk.val, by have := g.isLt; have := kk.isLt; omega⟩ = ∑ k : Fin 8192, f k := by
  rw [Cert.LibBlockSum.sum_blocks (B := 32) (R := 256) (N := 8192) (by norm_num) f]
  rfl

end Cert.KernelIdeal.Hand

end
-- ==== Proof.KI.Kit.lean ====
/-
  @main up to the kernel region, the prefetched table as the region finds it, the windows' blocks, and the frame claim
  read off a frame run.

  Before the region @main clips the table of block numbers into [0, 1023] (a maximum with 0, then a minimum with 1023),
  converts x and the bank to bf16 and reshapes the bias to one row; none of these writes an argument array. The
  region's pipeline has four windows: x and the bank whole (fetched once), the bias and the output in blocks of 1024
  columns, one per grid point; the clipped table is prefetched into scalar memory.
-/
import proofs.«427164_j50603304682317_2_alg».proof.Proof.Gen.KernelIdeal.Launch
import proofs.«427164_j50603304682317_2_alg».proof.Proof.Gen.KernelIdeal.Skeleton
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's TensorCore buffers when the region is entered: the three stretches of host operations have run. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main up to the region: the lines of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The prefetched table, read off the region-entry contents -/

/-- The table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table: every contents is admissible. -/
abbrev adm : (pcfg0 (F := F)).Adm := ⟨tbl m, trivial⟩
abbrev cfgM : Pipeline.Cfg sig Λ₀ := cfg0 (adm m)

/-- The table as the body is handed it: its whole buffer as a memref. -/
abbrev tbM : Memref sig .tc .smem S128x128 .i32 := Memref.whole main_v0
abbrev htbM : tbM.IsWhole := Memref.isWhole_whole _
/-- The two scratch buffers, as the pipeline passes them. -/
abbrev accM : Memref sig .tc .vmem S256x1024 .f32 := Memref.whole cc0_scratch0
abbrev haccM : accM.IsWhole := Memref.isWhole_whole _
abbrev wtM : Memref sig .tc .vmem S2x256x1024 .bf16 := Memref.whole cc0_scratch1
abbrev hwtM : wtM.IsWhole := Memref.isWhole_whole _

/-- The table's half the region hands the body, as a points-to. -/
theorem PhiT_eq (c : Dev nD) : (Pipeline.ΦT pre0 (tbl m) c : sProp 𝕄) = (tbM.view.loc (c : Thread nD τ) ↦{fullShare.right} tbl m 0) := by
  unfold Pipeline.ΦT Pipeline.prefHeld
  rw [show (Finset.univ : Finset (Fin 1)) = {(0 : Fin 1)} from by decide, bigSep_singleton]
  rfl

/-! ## The windows' blocks and schedule -/

/-- Window w's block at point t, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point t, spelled as the pipeline passes it, and its wholeness. -/
abbrev ms0 (t : Fin (cfgM m).N) : Memref sig .tc .vmem S256x8192 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1024x64x64 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1024 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S256x1024 .f32 := spec0_3.stage ((cfgM m).slots t 3)
abbrev hs3 (t : Fin (cfgM m).N) : (ms3 m t).IsWhole := hstage0_3 (((cfgM m).slots t 3).cast nbuf0_3)

/-- The kernel body at point t, on what the pipeline calls it with. -/
abbrev bodyAt (t : Fin (cfgM m).N) : Prog (TpuEff nD τ sig (Elt F) Λ₀ .tc) PUnit :=
  cc0__mosaic_matmul_kernel (grid0.coords t) tbM htbM (ms0 m t) (hs0 m t) (ms1 m t) (hs1 m t) (ms2 m t) (hs2 m t) (ms3 m t) (hs3 m t) accM haccM wtM hwtM

/-! ## The frame claim's post from the frame run's -/

/-- The frame from a frame run: the argument arrays, which no window stages and no host operation writes, end as
    launched. -/
theorem frame_of (dats : (p : Fin 1) → (c : Dev nD) → Dat τ (Elt F) Unit ℕ (UR sig nD τ) ℕ ((Pipeline.pin pcfgs fun _ => adm m) p) c)
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

end Cert.KernelIdeal.Hand

end
-- ==== Proof.KI.HostVals.lean ====
/-
  The arrays the kernel region's windows stage, read at an entry over the exact reals: the conversions of x and of the
  bank to bf16 change nothing there (a change of float format is the identity), and the bias reshaped to one row holds
  the bias.
-/
import proofs.«427164_j50603304682317_2_alg».proof.Proof.KI.Kit
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- Once the host operations have run, the bf16 copy of x is x converted; a change of float format over the exact
    reals changes no entry, so as functions of the index the two agree. -/
theorem V_x_fun (c : Dev nD) :
    (V m c main_v1 : S256x8192.Idx → EReal) = (m ((c : Thread nD τ).loc main_arg0) : S256x8192.Idx → EReal) := by
  dsimp only [V]
  simp only [hostOps0, hostOps0_1, hostOps0_2, List.flatten_cons, List.flatten_nil, List.append_nil, List.cons_append,
    List.nil_append]
  after_results
  rfl

/-- The same for the bank: its bf16 copy is the bank, entry by entry. -/
theorem V_bank_fun (c : Dev nD) :
    (V m c main_v2 : S1024x64x64.Idx → EReal) = (m ((c : Thread nD τ).loc main_arg1) : S1024x64x64.Idx → EReal) := by
  dsimp only [V]
  simp only [hostOps0, hostOps0_1, hostOps0_2, List.flatten_cons, List.flatten_nil, List.append_nil, List.cons_append,
    List.nil_append]
  after_results
  rfl

/-- The one-row bias is the bias vector shape-cast from [8192] to [1, 8192]. -/
theorem V_bias_fun (c : Dev nD) :
    (V m c main_v3 : S1x8192.Idx → EReal)
      = shapeCast S1x8192 (m ((c : Thread nD τ).loc main_arg2) : S8192.Idx → EReal) shapeCasts_S8192_S1x8192 := by
  dsimp only [V]
  simp only [hostOps0, hostOps0_1, hostOps0_2, List.flatten_cons, List.flatten_nil, List.append_nil, List.cons_append,
    List.nil_append]
  after_results
  rfl

/-- x as the region finds it (converted to bf16) is x. -/
theorem V_x (c : Dev nD) (r : Fin 256) (k : Fin 8192) :
    (V m c main_v1 (ix2 r k) : EReal) = (m ((c : Thread nD τ).loc main_arg0) (ix2 r k) : EReal) :=
  congrFun (V_x_fun m c) (ix2 r k)

/-- The bank as the region finds it (converted to bf16) is the bank. -/
theorem V_bank (c : Dev nD) (a : Fin 1024) (p q : Fin 64) :
    (V m c main_v2 (ix3 a p q) : EReal) = (m ((c : Thread nD τ).loc main_arg1) (ix3 a p q) : EReal) :=
  congrFun (V_bank_fun m c) (ix3 a p q)

/-- The bias as the region finds it (reshaped to one row) is the bias: entry (0, n) of the row sits at row-major
    position n, which is entry n of the vector. -/
theorem V_bias (c : Dev nD) (n : Fin 8192) :
    (V m c main_v3 (ix2 (0 : Fin 1) n) : EReal) = (m ((c : Thread nD τ).loc main_arg2) (ix1 n) : EReal) :=
  (congrFun (V_bias_fun m c) (ix2 (0 : Fin 1) n)).trans
    (shapeCast_a_1a_apply (a := 8192) _ shapeCasts_S8192_S1x8192 (0 : Fin 1) n)

end Cert.KernelIdeal.Hand

end
-- ==== Proof.KI.Table.lean ====
/-
  The prefetched table as the region finds it: the table of block numbers clipped into [0, 1023]. Every word of it is
  below 1024, whatever the input table holds; and where every input word is already below 1024 (as a natural number:
  non-negative as a signed word and inside the bank) the clip leaves the table as it is.
-/
import proofs.«427164_j50603304682317_2_alg».proof.Proof.KI.Kit
import proofs.«427164_j50603304682317_2_alg».proof.Proof.KI.Offsets
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- The input table of block numbers, as launched (there is one device). -/
abbrev parts : IVec S128x128 32 := m (((0 : Dev nD) : Thread nD τ).loc main_arg3)

/-- A word clipped into [0, 1023] (signed maximum with 0, then signed minimum with 1023) is below 1024. -/
theorem clip_lt (w : BitVec 32) : (IntOp.minsi (1023#32) (IntOp.maxsi (0#32) w)).toNat < 1024 := by
  unfold IntOp.minsi IntOp.maxsi
  have e := BitVec.toInt_eq_toNat_cond w
  have hw := w.isLt
  by_cases h0 : w.slt 0#32
  · -- a negative word: the maximum is 0, which 1023 is not below
    rw [if_pos h0]
    have : ¬ (1023#32).slt 0#32 := by decide
    rw [if_neg this]; decide
  · rw [if_neg h0]
    by_cases h1 : (1023#32).slt w
    · rw [if_pos h1]; decide
    · -- 0 ≤ w ≤ 1023 as signed words, so as naturals
      rw [if_neg h1]
      rw [BitVec.slt] at h0 h1
      have e0 : (0#32 : BitVec 32).toInt = 0 := by decide
      have e1 : (1023#32 : BitVec 32).toInt = 1023 := by decide
      rw [e0] at h0; rw [e1] at h1
      simp only [decide_eq_true_eq] at h0 h1
      omega

/-- A word already below 1024 is its own clip. -/
theorem clip_id (w : BitVec 32) (h : w.toNat < 1024) : IntOp.minsi (1023#32) (IntOp.maxsi (0#32) w) = w := by
  unfold IntOp.minsi IntOp.maxsi
  have e := BitVec.toInt_eq_toNat_cond w
  have e0 : (0#32 : BitVec 32).toInt = 0 := by decide
  have e1 : (1023#32 : BitVec 32).toInt = 1023 := by decide
  have h0 : ¬ w.slt 0#32 := by
    rw [BitVec.slt, e0]; simp only [decide_eq_true_eq]; omega
  rw [if_neg h0]
  have h1 : ¬ (1023#32).slt w := by
    rw [BitVec.slt, e1]; simp only [decide_eq_true_eq]; omega
  rw [if_neg h1]

/-- The table's array when the region is entered: the input table, its maximum with the constant 0 and then the minimum
    of that with the constant 1023, both pointwise. -/
theorem V_v0 : (V m (0 : Dev nD) main_v0 : IVec S128x128 32)
    = minsi (broadcastInDim S128x128 ![] bcast_S_S128x128 (constantI S_ 32 1023#32))
        (maxsi (broadcastInDim S128x128 ![] bcast_S_S128x128 (constantI S_ 32 0#32)) (parts m)) := by
  dsimp only [V]
  simp only [hostOps0, hostOps0_1, hostOps0_2, List.flatten_cons, List.flatten_nil, List.append_nil, List.cons_append, List.nil_append]
  after_results
  rfl

/-- A constant scalar broadcast over the table's shape reads the constant at every index. -/
theorem bcast_const (c : BitVec 32) (y : S128x128.Idx) :
    broadcastInDim S128x128 ![] bcast_S_S128x128 (constantI S_ 32 c) y = c := rfl

/-- Every word of the prefetched table, as a scalar load returns it, is the clip of the input table's word there. -/
theorem tbl_word (y : S128x128.Idx) :
    tword (F := F) tbM (tbl m 0) y = IntOp.minsi (1023#32) (IntOp.maxsi (0#32) (parts m y)) := by
  -- the whole buffer's view reads the buffer as it is, and the table's one buffer is the clipped array
  show (V m (0 : Dev nD) main_v0 : IVec S128x128 32) y = _
  rw [V_v0]
  -- the vector maximum and minimum are the word operations at each index
  show IntOp.minsi (broadcastInDim S128x128 ![] bcast_S_S128x128 (constantI S_ 32 1023#32) y)
      (IntOp.maxsi (broadcastInDim S128x128 ![] bcast_S_S128x128 (constantI S_ 32 0#32) y) (parts m y)) = _
  rw [bcast_const, bcast_const]

/-- Every word of the prefetched table is below 1024. -/
theorem tbl_lt (y : S128x128.Idx) : (tword (F := F) tbM (tbl m 0) y).toNat < 1024 := by
  rw [tbl_word]; exact clip_lt _

/-- Where the input table's words are below 1024 the prefetched table is the input table. -/
theorem tbl_eq_parts (hP : ∀ j : S128x128.Idx, (parts m j).toNat < 1024) (y : S128x128.Idx) :
    tword (F := F) tbM (tbl m 0) y = parts m y := by
  rw [tbl_word]; exact clip_id _ (hP y)

end Cert.KernelIdeal.Hand

end
-- ==== Proof.KI.Frame.lean ====
/-
  The frame of the program: the pipeline's proof data, the body obligation at every grid point, the run and the frame
  claim.

  At each grid point the body finds x, the bank and the point's bias block in their staging buffers (fetched there or
  not), the clipped table in scalar memory and the two scratch buffers at anything; it leaves the inputs as they were
  and the output block at what the run computes from them. Nothing is carried from point to point.
-/
import proofs.«427164_j50603304682317_2_alg».proof.Proof.KI.Run
import proofs.«427164_j50603304682317_2_alg».proof.Proof.KI.Table

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated (the choice does not matter). -/
abbrev VO : View sig .tc .vmem S256x1024 .f32 := (Memref.whole cc0_stg3_0 : Memref sig .tc .vmem S256x1024 .f32).view

/-- The pieces the run leaves in the output block at point t. -/
abbrev outL (c : Dev nD) (t : Fin (cfgM m).N) : List (View.Piece (Elt F) S256x1024 .f32) :=
  (kernelRun c (grid0.coords t) tbM htbM (ms0 m t) (hs0 m t) (ms1 m t) (hs1 m t) (ms2 m t) (hs2 m t) (ms3 m t) (hs3 m t) accM haccM wtM hwtM
    (iblk m c 0 t) (iblk m c 1 t) (iblk m c 2 t) (tbl m 0) (tbl_lt m)).1

/-- One of them is a store of the whole block, so they cover it. -/
theorem outL_cover (c : Dev nD) (t : Fin (cfgM m).N) (y : S256x1024.Idx) : ∃ pc ∈ outL m c t, y ∈ pc.1.set :=
  View.cover_of_wholeMem (outL m c t) (by sl_whole_mem) y

/-- What the output block holds after the body at point t: the run's pieces read back over junk. -/
def outAt (c : Dev nD) (t : Fin (cfgM m).N) : Vec F S256x1024 .f32 :=
  VO.read (Elt F) (VO.writes (Elt F) VO.junk (outL m c t))

/-- The proof data of the one pipeline on core c: the arrays as the region finds them; after the body each input's
    buffer at its block and the output's at `outAt`; the invariant the scoped rest with the generator register and the
    table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = outAt m c t := by dsimp only [dats]; try rfl

theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d

/-- A whole buffer's points-to, in the two spellings. -/
theorem pt_whole (c : Dev nD) {sp : Space} {S : Shape} {e : EltTy} (b : Ref sig .tc) (hs : b.space = sp) (q : PosShare TreeShare)
    (M : Memref sig .tc sp S e) (hM : M.view.set = Finset.univ) (f : Buf (Elt F) (M.view.loc (c : Thread nD τ))) :
    (M.view.loc (c : Thread nD τ) ↦[M.view.set]{q} f : sProp 𝕄) = (M.view.loc (c : Thread nD τ) ↦{q} f) := by
  rw [hM]

/-- What the body is called with at point t, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

/-- The body at any point: the inputs' memrefs hold their blocks; so the run applies; the invariant's scratch buffers
    and the table's half pass through the run and come back; the core owes nothing throughout. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = iprop(Pipeline.ΦA spec0 c ∗ Pipeline.ΦT pre0 (tbl m) c) from rfl, PhiT_eq]
  unfold Pipeline.ΦA
  rw [scopedRest0_eq]
  unfold outAt
  iintro ⟨⟨⟨⟨⟨%f6, H6⟩, ⟨%f7, H7⟩⟩, Hp⟩, HT⟩, Ho, ⟨%d0, H0⟩, ⟨%d1, H1⟩, ⟨%d2, H2⟩, ⟨%d3, H3⟩⟩
  iapply ((kernelRun c (grid0.coords t) tbM htbM (ms0 m t) (hs0 m t) (ms1 m t) (hs1 m t) (ms2 m t) (hs2 m t) (ms3 m t) (hs3 m t) accM haccM wtM hwtM
    (iblk m c 0 t) (iblk m c 1 t) (iblk m c 2 t) (tbl m 0) (tbl_lt m)).2 fullShare.right Set.univ _)
  isplitl [H0]; · iexact H0
  isplitl [H1]; · iexact H1
  isplitl [H2]; · iexact H2
  isplitl [H3]; · iexists _; iexact H3
  isplitl [HT]
  · simp only [Memref.view_whole, View.set_whole]; iexact HT
  isplitl [H6]
  · iexists f6; simp only [Memref.view_whole, View.set_whole]; iexact H6
  isplitl [H7]
  · iexists f7; simp only [Memref.view_whole, View.set_whole]; iexact H7
  iintro ⟨H0, H1, H2, ⟨%e3, H3⟩, HT, ⟨%g6, H6⟩, ⟨%g7, H7⟩⟩
  isplitl [H6 H7 Hp HT]
  · isplitl [H6 H7 Hp]
    · isplitl [H6 H7]
      · isplitl [H6]
        · iexists g6; simp only [Memref.view_whole, View.set_whole]; iexact H6
        · iexists g7; simp only [Memref.view_whole, View.set_whole]; iexact H7
      · iexact Hp
    · simp only [Memref.view_whole, View.set_whole]; iexact HT
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outL_cover m c t)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- THE FRAME: the program runs, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Hand

end
-- ==== Proof.Spec.lean ====
/-
  The function both programs compute, stated once over the argument arrays, index by index.

  The weight matrix is never built: entry (k, n) of the dense 8192 × 8192 matrix is entry (k mod 64, n mod 64) of the
  bank's 64 × 64 block whose number the table holds at (k div 64, n div 64). The result at (r, n) is the inner product
  of row r of x with column n of that matrix, plus the bias at n.
-/
import Idealize.ShloMosaic.PureOps.Ideal
import Idealize.ShloMosaic.Lib.ValueIdx

noncomputable section

open scoped BigOperators

namespace Cert.Spec

open Idealize.ShloMosaic Idealize.ShloMosaic.ValueIdx

/-- A table word read as a block number of the bank (a word below 1024 is its own value). -/
def row (w : BitVec 32) : Fin 1024 := ⟨w.toNat % 1024, Nat.mod_lt _ (by decide)⟩

theorem row_val_of_lt (w : BitVec 32) (h : w.toNat < 1024) : (row w).val = w.toNat := Nat.mod_eq_of_lt h

/-- The 64 × 64 tile of the table that covers entry (k, n) of the dense matrix. -/
def tileOf (k n : Fin 8192) : (⟨2, ![128, 128]⟩ : Shape).Idx :=
  ix2 (⟨k.val / 64, by have := k.isLt; omega⟩ : Fin 128) (⟨n.val / 64, by have := n.isLt; omega⟩ : Fin 128)

/-- Entry (k, n) of the dense weight matrix: the bank's block named by the table's word for that tile, read at the
    entry's position inside the tile. -/
def weight (b : (⟨3, ![1024, 64, 64]⟩ : Shape).Idx → EReal) (P : (⟨2, ![128, 128]⟩ : Shape).Idx → BitVec 32)
    (k n : Fin 8192) : EReal :=
  b (ix3 (row (P (tileOf k n))) (⟨k.val % 64, Nat.mod_lt _ (by decide)⟩ : Fin 64) (⟨n.val % 64, Nat.mod_lt _ (by decide)⟩ : Fin 64))

/-- The result at row r and column n. -/
def Gat (x : (⟨2, ![256, 8192]⟩ : Shape).Idx → EReal) (b : (⟨3, ![1024, 64, 64]⟩ : Shape).Idx → EReal)
    (bias : (⟨1, ![8192]⟩ : Shape).Idx → EReal) (P : (⟨2, ![128, 128]⟩ : Shape).Idx → BitVec 32)
    (r : Fin 256) (n : Fin 8192) : EReal :=
  (∑ k : Fin 8192, x (ix2 r k) * weight b P k n) + bias (ix1 n)

/-- The whole result array. -/
def G (x : (⟨2, ![256, 8192]⟩ : Shape).Idx → EReal) (b : (⟨3, ![1024, 64, 64]⟩ : Shape).Idx → EReal)
    (bias : (⟨1, ![8192]⟩ : Shape).Idx → EReal) (P : (⟨2, ![128, 128]⟩ : Shape).Idx → BitVec 32) :
    (⟨2, ![256, 8192]⟩ : Shape).Idx → EReal :=
  fun i => Gat x b bias P (i 0) (i 1)

theorem G_apply (x : (⟨2, ![256, 8192]⟩ : Shape).Idx → EReal) (b : (⟨3, ![1024, 64, 64]⟩ : Shape).Idx → EReal)
    (bias : (⟨1, ![8192]⟩ : Shape).Idx → EReal) (P : (⟨2, ![128, 128]⟩ : Shape).Idx → BitVec 32) (r : Fin 256) (n : Fin 8192) :
    G x b bias P (ix2 r n) = Gat x b bias P r n := rfl

end Cert.Spec

end
-- ==== Proof.KI.OutBlock.lean ====
/-
  What the body leaves in the output block at a grid point, at the exact reals, entry by entry: the specification's
  value at the entry's place in the whole result.

  Entry (r, n) of the block at grid point t is the sum over the 32 trips g of the inner products of row r of x's columns
  256g … 256g+255 with column n of trip g's tile, plus the bias at column 1024·t + n. Column n of trip g's tile at row kk
  is the dense weight matrix's entry (256g + kk, 1024·t + n): the table word for that tile is the input table's
  (every word being below 1024, the clip leaves it) and the position inside the tile is the same. Summing the trips'
  sums is summing over all 8192 columns of x.
-/
import proofs.«427164_j50603304682317_2_alg».proof.Proof.KI.Acc
import proofs.«427164_j50603304682317_2_alg».proof.Proof.KI.Algebra
import proofs.«427164_j50603304682317_2_alg».proof.Proof.KI.HostVals
import proofs.«427164_j50603304682317_2_alg».proof.Proof.KI.Frame
import proofs.«427164_j50603304682317_2_alg».proof.Proof.Spec

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- The loop has 32 trips. -/
theorem trips_eq : k0_t1_loop.trips = 32 := by decide

/-- The grid's one coordinate at point t is t; the bias and output windows' block index along the columns is t, along
    the rows 0. -/
theorem coords_facts : ∀ t : Fin grid0.N, (grid0.coords t 0).val = t.val
    ∧ cc0_transform_2 (grid0.coords t) (0 : Fin 2) = 0 ∧ cc0_transform_2 (grid0.coords t) (1 : Fin 2) = t.val
    ∧ cc0_transform_3 (grid0.coords t) (0 : Fin 2) = 0 ∧ cc0_transform_3 (grid0.coords t) (1 : Fin 2) = t.val := by
  decide +kernel

/-- The accumulator after k trips, at an entry: the sum over the trips so far of the trips' inner products. -/
theorem acc_sum (xs : Fin k0_t1_loop.trips → Vec Ideal S256x256 .bf16) (wt : Fin k0_t1_loop.trips → Vec Ideal S1x256x1024 .bf16)
    (a : ℕ → Vec Ideal S256x1024 .f32) (h0 : a 0 = k0_pay1 (F := Ideal))
    (hs : ∀ k : Fin k0_t1_loop.trips, a (k.val + 1) = k0_pay2 (k0_pay36 (xs k) (a k.val) (wt k)))
    (r : Fin 256) (n : Fin 1024) :
    ∀ (k : ℕ) (hk : k ≤ k0_t1_loop.trips), (a k (ix2 r n) : EReal)
      = ∑ g : Fin k, ∑ kk : Fin 256, (xs ⟨g.val, lt_of_lt_of_le g.isLt hk⟩ (ix2 r kk) : EReal)
          * (wt ⟨g.val, lt_of_lt_of_le g.isLt hk⟩ (ix3 (0 : Fin 1) kk n) : EReal) := by
  intro k
  induction k with
  | zero => intro _; rw [h0, pay1_at]; simp
  | succ k ih =>
    intro hk
    have hk' : k < k0_t1_loop.trips := hk
    rw [hs ⟨k, hk'⟩, pay2_eq, pay36_at, ih (Nat.le_of_lt hk')]
    conv_rhs => rw [Fin.sum_univ_castSucc]
    rfl

/-- The trip's columns of x, at an entry, read off a whole staging buffer holding x0. -/
theorem xsl_at (arg2 : Memref sig .tc .vmem S256x8192 .bf16) (harg2 : arg2.IsWhole) (x0 : Vec Ideal S256x8192 .bf16)
    (k : Fin k0_t1_loop.trips) (r : Fin 256) (kk : Fin 256) :
    xsl (F := Ideal) arg2 (harg2.unread x0) k (ix2 r kk)
      = x0 (ix2 r (⟨256 * k.val + kk.val, by have := kk.isLt; have := Nat.lt_of_lt_of_le k.isLt k0_t1_abs.2.1; omega⟩ : Fin 8192)) := by
  unfold xsl
  rw [harg2.read_unread]

/-- The trip's tile, at an entry, read off a whole staging buffer holding the bank x1. -/
theorem wtile_at (arg1 : Memref sig .tc .smem S128x128 .i32) (arg3 : Memref sig .tc .vmem S1024x64x64 .bf16) (harg3 : arg3.IsWhole)
    (T : BufTy.Contents (Elt Ideal) arg1.view.ty) (x1 : Vec Ideal S1024x64x64 .bf16) (i : grid0.Coords)
    (k : Fin k0_t1_loop.trips) (kk : Fin 256) (n : Fin 1024) :
    wtile (F := Ideal) arg1 arg3 T (harg3.unread x1) i k (ix3 (0 : Fin 1) kk n)
      = x1 (ix3 (⟨(tileWord (F := Ideal) arg1 T i k kk n).toNat % 1024, Nat.mod_lt _ (by decide)⟩ : Fin 1024)
          (⟨kk.val % 64, Nat.mod_lt _ (by decide)⟩ : Fin 64) (⟨n.val % 64, Nat.mod_lt _ (by decide)⟩ : Fin 64)) := by
  unfold wtile
  rw [harg3.read_unread]

variable (m : (ℓ : Loc nD τ sig) → Buf (Elt Ideal) ℓ)

/-- x's window holds the whole of x at every point. -/
theorem iblk0_at (c : Dev nD) (t : Fin (cfgM m).N) (r : Fin 256) (k : Fin 8192) :
    (iblk m c 0 t (ix2 r k) : EReal) = (V m c main_v1 (ix2 r k) : EReal) := by
  show (V m c main_v1 ((((cfgM m).win 0).blk t).view.emb (ix2 r k)) : EReal) = (V m c main_v1 (ix2 r k) : EReal)
  refine congrArg (fun j => (V m c main_v1 j : EReal)) ?_
  funext a; apply Fin.ext
  match a with
  | ⟨0, _⟩ => show 0 * 256 + 1 * r.val = r.val; omega
  | ⟨1, _⟩ => show 0 * 8192 + 1 * k.val = k.val; omega

/-- The bank's window holds the whole bank at every point. -/
theorem iblk1_at (c : Dev nD) (t : Fin (cfgM m).N) (a : Fin 1024) (p q : Fin 64) :
    (iblk m c 1 t (ix3 a p q) : EReal) = (V m c main_v2 (ix3 a p q) : EReal) := by
  show (V m c main_v2 ((((cfgM m).win 1).blk t).view.emb (ix3 a p q)) : EReal) = (V m c main_v2 (ix3 a p q) : EReal)
  refine congrArg (fun j => (V m c main_v2 j : EReal)) ?_
  funext d; apply Fin.ext
  match d with
  | ⟨0, _⟩ => show 0 * 1024 + 1 * a.val = a.val; omega
  | ⟨1, _⟩ => show 0 * 64 + 1 * p.val = p.val; omega
  | ⟨2, _⟩ => show 0 * 64 + 1 * q.val = q.val; omega

/-- The bias window at point t holds columns 1024·t … of the bias row. -/
theorem iblk2_at (c : Dev nD) (t : Fin (cfgM m).N) (n : Fin 1024) :
    (iblk m c 2 t (ix2 (0 : Fin 1) n) : EReal)
      = (V m c main_v3 (ix2 (0 : Fin 1) (⟨1024 * t.val + n.val, by have := n.isLt; have ht : t.val < 8 := Nat.lt_of_lt_of_eq t.isLt N_0; omega⟩ : Fin 8192)) : EReal) := by
  obtain ⟨-, e0, e1, -, -⟩ := coords_facts t
  show (V m c main_v3 ((((cfgM m).win 2).blk t).view.emb (ix2 (0 : Fin 1) n)) : EReal) = _
  refine congrArg (fun j => (V m c main_v3 j : EReal)) ?_
  funext d; apply Fin.ext
  match d with
  | ⟨0, _⟩ => show cc0_transform_2 (grid0.coords t) (0 : Fin 2) * 1 + 1 * 0 = 0; omega
  | ⟨1, _⟩ => show cc0_transform_2 (grid0.coords t) (1 : Fin 2) * 1024 + 1 * n.val = 1024 * t.val + n.val; omega

/-- What the body leaves in the output block: the accumulator after the last trip plus the bias row. -/
theorem outAt_eq (c : Dev nD) (t : Fin (cfgM m).N) :
    outAt m c t = k0_pay3 (accAt (F := Ideal) c (grid0.coords t) tbM htbM (ms0 m t) (hs0 m t) (ms1 m t) (hs1 m t) (ms2 m t) (hs2 m t) (ms3 m t) (hs3 m t) accM haccM wtM hwtM
        (tbl m 0) ((hs0 m t).unread (iblk m c 0 t)) ((hs1 m t).unread (iblk m c 1 t)) (tbl_lt m) k0_t1_loop.trips) (iblk m c 2 t) := by
  unfold outAt
  exact (congrArg (fun L => VO.read (Elt Ideal) (VO.writes (Elt Ideal) VO.junk L))
    (kernelRun_pieces (F := Ideal) c (grid0.coords t) tbM htbM (ms0 m t) (hs0 m t) (ms1 m t) (hs1 m t) (ms2 m t) (hs2 m t) (ms3 m t) (hs3 m t) accM haccM wtM hwtM
      (iblk m c 0 t) (iblk m c 1 t) (iblk m c 2 t) (tbl m 0) (tbl_lt m))).trans (read_cons_whole _ _ hz2 _ _ _)

/-- Entry (kk, n) of trip g's tile at point t is the dense weight matrix's entry (256g + kk, 1024t + n). -/
theorem wtile_weight (hP : ∀ j : S128x128.Idx, (parts m j).toNat < 1024) (c : Dev nD) (t : Fin (cfgM m).N)
    (g : Fin k0_t1_loop.trips) (kk : Fin 256) (n : Fin 1024) :
    (wtile (F := Ideal) tbM (ms1 m t) (tbl m 0) ((hs1 m t).unread (iblk m c 1 t)) (grid0.coords t) g (ix3 (0 : Fin 1) kk n) : EReal)
      = Cert.Spec.weight (m ((c : Thread nD τ).loc main_arg1)) (parts m)
          (⟨256 * g.val + kk.val, by have := kk.isLt; have := Nat.lt_of_lt_of_le g.isLt k0_t1_abs.2.1; omega⟩ : Fin 8192)
          (⟨1024 * t.val + n.val, by have := n.isLt; have ht : t.val < 8 := Nat.lt_of_lt_of_eq t.isLt N_0; omega⟩ : Fin 8192) := by
  have hg : g.val < 32 := Nat.lt_of_lt_of_le g.isLt k0_t1_abs.2.1
  have hkk := kk.isLt
  have hn := n.isLt
  have ht : t.val < 8 := Nat.lt_of_lt_of_eq t.isLt N_0
  obtain ⟨ec, -, -, -, -⟩ := coords_facts t
  refine (wtile_at tbM (ms1 m t) (hs1 m t) (tbl m 0) (iblk m c 1 t) (grid0.coords t) g kk n).trans ?_
  refine (iblk1_at m c t _ _ _).trans ?_
  refine (V_bank m c _ _ _).trans ?_
  unfold Cert.Spec.weight
  have hw : tileWord (F := Ideal) tbM (tbl m 0) (grid0.coords t) g kk n
      = parts m (Cert.Spec.tileOf (⟨256 * g.val + kk.val, by omega⟩ : Fin 8192) (⟨1024 * t.val + n.val, by omega⟩ : Fin 8192)) := by
    unfold tileWord
    rw [tbl_eq_parts m hP]
    refine congrArg (parts m) ?_
    unfold Cert.Spec.tileOf
    funext d
    match d with
    | ⟨0, _⟩ => exact Fin.ext (show 4 * g.val + kk.val / 64 = (256 * g.val + kk.val) / 64 by omega)
    | ⟨1, _⟩ => exact Fin.ext (show 16 * (grid0.coords t 0).val + n.val / 64 = (1024 * t.val + n.val) / 64 by omega)
  rw [hw]
  refine congrArg (fun j => (m ((c : Thread nD τ).loc main_arg1) j : EReal)) ?_
  funext d
  match d with
  | ⟨0, _⟩ => exact Fin.ext rfl
  | ⟨1, _⟩ => exact Fin.ext (show kk.val % 64 = (256 * g.val + kk.val) % 64 by omega)
  | ⟨2, _⟩ => exact Fin.ext (show n.val % 64 = (1024 * t.val + n.val) % 64 by omega)

/-- At grid point t the body leaves, at entry (r, n) of the output block, the specification's value at row r and
    column 1024·t + n — when every word of the input table is below 1024. -/
theorem outAt_at (hP : ∀ j : S128x128.Idx, (parts m j).toNat < 1024) (c : Dev nD) (t : Fin (cfgM m).N) (r : Fin 256) (n : Fin 1024) :
    (outAt m c t (ix2 r n) : EReal)
      = Cert.Spec.Gat (m ((c : Thread nD τ).loc main_arg0)) (m ((c : Thread nD τ).loc main_arg1)) (m ((c : Thread nD τ).loc main_arg2)) (parts m)
          r (⟨1024 * t.val + n.val, by have := n.isLt; have ht : t.val < 8 := Nat.lt_of_lt_of_eq t.isLt N_0; omega⟩ : Fin 8192) := by
  have hn := n.isLt
  have ht : t.val < 8 := Nat.lt_of_lt_of_eq t.isLt N_0
  refine (congrFun (outAt_eq m c t) (ix2 r n)).trans ?_
  refine (pay3_at _ _ r n).trans ?_
  unfold Cert.Spec.Gat
  refine congrArg₂ (· + ·) ?_ ((iblk2_at m c t n).trans (V_bias m c _))
  refine (acc_sum (fun g => xsl (F := Ideal) (ms0 m t) ((hs0 m t).unread (iblk m c 0 t)) g)
      (fun g => wtile (F := Ideal) tbM (ms1 m t) (tbl m 0) ((hs1 m t).unread (iblk m c 1 t)) (grid0.coords t) g)
      (accAt (F := Ideal) c (grid0.coords t) tbM htbM (ms0 m t) (hs0 m t) (ms1 m t) (hs1 m t) (ms2 m t) (hs2 m t) (ms3 m t) (hs3 m t) accM haccM wtM hwtM
        (tbl m 0) ((hs0 m t).unread (iblk m c 0 t)) ((hs1 m t).unread (iblk m c 1 t)) (tbl_lt m))
      (accAt_zero ..) (fun k => accAt_succ ..) r n k0_t1_loop.trips le_rfl).trans ?_
  refine Eq.trans ?_ (sum_groups _)
  refine Fintype.sum_equiv (finCongr trips_eq) _ _ fun g => ?_
  refine Finset.sum_congr rfl fun kk _ => ?_
  refine congrArg₂ (· * ·) ?_ ?_
  · exact (xsl_at (ms0 m t) (hs0 m t) (iblk m c 0 t) ⟨g.val, g.isLt⟩ r kk).trans ((iblk0_at m c t r _).trans (V_x m c r _))
  · exact wtile_weight m hP c t ⟨g.val, g.isLt⟩ kk n

end Cert.KernelIdeal.Hand

end
-- ==== Proof.KI.Value.lean ====
/-
  The whole result array after the run, at the exact reals: the output window's eight blocks, each written back once,
  tile the result, and block t holds the specification's values at columns 1024·t … 1024·t + 1023; so the array is
  the specification's function of the argument arrays, which end unchanged.
-/
import proofs.«427164_j50603304682317_2_alg».proof.Proof.KI.OutBlock
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The output window writes its block back at every grid point: the block index changes from each point to the next. -/
theorem flush3 : ∀ t : Fin (cfgM m).N, ((cfgM m).win 3).flush t = true :=
  (by decide +kernel : ∀ t : Fin grid0.N, Pipeline.Window.flushOf grid0 true cc0_transform_3 t = true)

/-- The specification's result array of the argument arrays as launched on core c. -/
abbrev GM (c : Dev nD) : S256x8192.Idx → EReal :=
  Cert.Spec.G (m ((c : Thread nD τ).loc main_arg0)) (m ((c : Thread nD τ).loc main_arg1)) (m ((c : Thread nD τ).loc main_arg2)) (parts m)

/-- Entry (r, n) of the output window's block at point t sits at row r and column 1024·t + n of the result. -/
theorem blk3_emb (t : Fin (cfgM m).N) (r : Fin 256) (n : Fin 1024) :
    ((((cfgM m).win 3).blk t).view.emb (ix2 r n) : S256x8192.Idx)
      = ix2 r (⟨1024 * t.val + n.val, by have := n.isLt; have ht : t.val < 8 := Nat.lt_of_lt_of_eq t.isLt N_0; omega⟩ : Fin 8192) := by
  obtain ⟨-, -, -, e0, e1⟩ := coords_facts t
  funext a; apply Fin.ext
  match a with
  | ⟨0, _⟩ => show cc0_transform_3 (grid0.coords t) (0 : Fin 2) * 256 + 1 * r.val = r.val; omega
  | ⟨1, _⟩ => show cc0_transform_3 (grid0.coords t) (1 : Fin 2) * 1024 + 1 * n.val = 1024 * t.val + n.val; omega

/-- What point t writes back is block t of the specification's result. -/
theorem flushed_eq (hP : ∀ j : S128x128.Idx, (parts m j).toNat < 1024) (c : Dev nD) (t : Fin (cfgM m).N) :
    (dats m 0 c).flushed 3 t = (((cfgM m).win 3).blk t).view.read (Elt Ideal) (GM m c) := by
  show ((cfgM m).win 3).cut (grid0.coords t) ((dats m 0 c).after 3 t) = _
  rw [after0_3]
  refine funext fun (j : S256x1024.Idx) => ?_
  obtain ⟨r, n, rfl⟩ : ∃ (r : Fin 256) (n : Fin 1024), j = ix2 r n := ⟨j 0, j 1, eq_ix2 j⟩
  show (outAt m c t (ix2 r n) : EReal) = GM m c ((((cfgM m).win 3).blk t).view.emb (ix2 r n))
  rw [outAt_at m hP, blk3_emb]
  rfl

/-- An index of the result is in point t's block iff each coordinate is in the block's range on its axis. -/
theorem mem_blk3 (t : Fin (cfgM m).N) (i : S256x8192.Idx) :
    i ∈ (((cfgM m).win 3).blk t).view.set ↔ ∀ a : Fin 2, cc0_transform_3 (grid0.coords t) a * S256x1024.size a ≤ (i a).val
      ∧ (i a).val < cc0_transform_3 (grid0.coords t) a * S256x1024.size a + S256x1024.size a := by
  show i ∈ ((View.whole main_v4).slice (Rect.block (s := S256x8192) S256x1024.size (cc0_transform_3 (grid0.coords t)) (hinb0_3 (grid0.coords t)))).set ↔ _
  rw [View.set_slice_whole, Rect.mem_set_unit]
  exact Iff.rfl

/-- The blocks tile the result: the index (r, k) lies in the block of point k / 1024. -/
theorem cover3 (i : S256x8192.Idx) :
    ∃ t : Fin (cfgM m).N, ((cfgM m).win 3).flush t = true ∧ i ∈ (((cfgM m).win 3).blk t).view.set := by
  have hi0 : (i 0).val < 256 := (i 0).isLt
  have hi1 : (i 1).val < 8192 := (i 1).isLt
  have hN : (i 1).val / 1024 < grid0.N := by rw [N_0]; omega
  obtain ⟨-, -, -, e0, e1⟩ := coords_facts ⟨(i 1).val / 1024, hN⟩
  refine ⟨⟨(i 1).val / 1024, hN⟩, flush3 m _, ?_⟩
  rw [mem_blk3]
  intro a
  match a with
  | ⟨0, _⟩ =>
    show cc0_transform_3 (grid0.coords ⟨(i 1).val / 1024, hN⟩) (0 : Fin 2) * 256 ≤ (i 0).val
      ∧ (i 0).val < cc0_transform_3 (grid0.coords ⟨(i 1).val / 1024, hN⟩) (0 : Fin 2) * 256 + 256
    omega
  | ⟨1, _⟩ =>
    show cc0_transform_3 (grid0.coords ⟨(i 1).val / 1024, hN⟩) (1 : Fin 2) * 1024 ≤ (i 1).val
      ∧ (i 1).val < cc0_transform_3 (grid0.coords ⟨(i 1).val / 1024, hN⟩) (1 : Fin 2) * 1024 + 1024
    have e1' : cc0_transform_3 (grid0.coords ⟨(i 1).val / 1024, hN⟩) (1 : Fin 2) = (i 1).val / 1024 := e1
    omega

/-- The result array after the run is the specification's. -/
theorem final3 (hP : ∀ j : S128x128.Idx, (parts m j).toNat < 1024) (c : Dev nD) :
    (dats m 0 c).arrAt 3 (cfgM m).N = GM m c :=
  (dats m 0 c).arrAt_eq_of_cover 3 _ (fun t _ => flushed_eq m hP c t) (cover3 m)

/-- The run with the result array named: the specification's function of the argument arrays, and the arguments
    unchanged — when every word of the input table is below 1024. -/
theorem run_value (hP : ∀ j : S128x128.Idx, (parts m j).toNat < 1024) :
    θ_run defs (onTc (τ := τ) (main (F := Ideal))) ⟨m, fun _ => 0, ρ⟩ fun r => ∀ c : Dev nD,
      r.2.mem ((c : Thread nD τ).loc main_v4)
          = Cert.Spec.G (m ((c : Thread nD τ).loc main_arg0)) (m ((c : Thread nD τ).loc main_arg1)) (m ((c : Thread nD τ).loc main_arg2)) (parts m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final3 m hP c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ)

end Cert.KernelIdeal.Hand

end
-- ==== Proof.LibSlabGather.lean ====
/-
  A host gather of whole slabs of a rank-3 array by a rank-3 array of start indices, read at one element.

  The operand is an array `[N, A, B]`, the start indices are `[K, M, 1]` (one slab number per pair `(k, m)`) and the
  result is `[K, M, A, B]`: what `x[idx]` lowers to for a bank of `[A, B]` blocks and a rank-2 table of block numbers.
  Result slab `(k, m)` is the operand's slab whose number is the start index `idx[k, m, 0]`, read signed and clamped
  into `[0, N − 1]`; read at one element `(k, m, a, b)` the result is element `(a, b)` of that slab.
-/
import Idealize.ShloMosaic.PureOps.Ideal
import Idealize.ShloMosaic.Lib.ValueIdx

namespace Cert.LibSlabGather

open Idealize.ShloMosaic Idealize.ShloMosaic.ValueIdx

section SlabGather
variable {α : Type}

/-- The dimension numbers of a gather of whole slabs by a rank-3 index array: operand `[N, A, B]`, start indices
    `[K, M, 1]` (one slab number per pair `(k, m)`), result `[K, M, A, B]`; axis 0 of the operand is collapsed and
    indexed, axes 2 and 3 of the result are the offset axes and read the operand's axes 1 and 2, the slice is one whole
    slab. The conditions `wf` are decided on a program's literal shapes. -/
abbrev slabs3GatherDims (N A B K M : Nat)
    (wf : GatherDims.WF ⟨3, ![N, A, B]⟩ ⟨3, ![K, M, 1]⟩ ⟨4, ![K, M, A, B]⟩ [2, 3] [0] [] [0] [] 2 ![1, A, B]) :
    GatherDims ⟨3, ![N, A, B]⟩ ⟨3, ![K, M, 1]⟩ ⟨4, ![K, M, A, B]⟩ where
  offsetDims := [2, 3]
  collapsedSliceDims := [0]
  operandBatchingDims := []
  startIndicesBatchingDims := []
  startIndexMap := [0]
  indexVectorDim := 2
  sliceSizes := ![1, A, B]
  wf := wf

/-- The start on the collapsed axis: the start index `idx[k, m, 0]`, read signed and clamped into `[0, N − 1]`. -/
theorem start0 {N A B K M w : Nat}
    (wf : GatherDims.WF ⟨3, ![N, A, B]⟩ ⟨3, ![K, M, 1]⟩ ⟨4, ![K, M, A, B]⟩ [2, 3] [0] [] [0] [] 2 ![1, A, B])
    (idx : IVec ⟨3, ![K, M, 1]⟩ w) (k : Fin K) (m : Fin M) (a : Fin A) (b : Fin B) :
    (slabs3GatherDims N A B K M wf).start (ix4 k m a b) idx (0 : Fin 3)
      = min (idx (ix3 k m (0 : Fin 1))).toInt.toNat (N - 1) := by
  unfold GatherDims.start
  rw [dif_pos (show (0 : Fin 3) ∈ (slabs3GatherDims N A B K M wf).startIndexMap from List.mem_singleton.mpr rfl)]
  have hsi : (slabs3GatherDims N A B K M wf).siIdx (ix4 k m a b)
      ⟨List.idxOf (0 : Fin 3) (slabs3GatherDims N A B K M wf).startIndexMap,
        List.idxOf_lt_length_iff.2 (List.mem_singleton.mpr rfl)⟩ = ix3 k m (0 : Fin 1) := by
    funext c; refine Fin.ext ?_
    match c with
    | ⟨0, _⟩ => rfl
    | ⟨1, _⟩ => rfl
    | ⟨2, _⟩ => rfl
  rw [hsi]
  rfl

/-- The start on an axis the start index map does not name is zero. -/
theorem start_off {N A B K M w : Nat}
    (wf : GatherDims.WF ⟨3, ![N, A, B]⟩ ⟨3, ![K, M, 1]⟩ ⟨4, ![K, M, A, B]⟩ [2, 3] [0] [] [0] [] 2 ![1, A, B])
    (idx : IVec ⟨3, ![K, M, 1]⟩ w) (j : (⟨4, ![K, M, A, B]⟩ : Shape).Idx) (c : Fin 3) (hc : c ∉ ([0] : List (Fin 3))) :
    (slabs3GatherDims N A B K M wf).start j idx c = 0 := by
  unfold GatherDims.start
  exact dif_neg hc

/-- The offset coordinate on the operand's axis 1 is the result's coordinate on its axis 2. -/
theorem off1 {N A B K M : Nat}
    (wf : GatherDims.WF ⟨3, ![N, A, B]⟩ ⟨3, ![K, M, 1]⟩ ⟨4, ![K, M, A, B]⟩ [2, 3] [0] [] [0] [] 2 ![1, A, B])
    (k : Fin K) (m : Fin M) (a : Fin A) (b : Fin B) :
    (slabs3GatherDims N A B K M wf).offCoord (ix4 k m a b) (1 : Fin 3) = a.val := by
  unfold GatherDims.offCoord
  rw [dif_pos ((GatherDims.mem_sKept (slabs3GatherDims N A B K M wf) (1 : Fin 3)).mpr
    ⟨(show (1 : Fin 3) ∉ ([0] : List (Fin 3)) from by decide), List.not_mem_nil⟩)]
  rfl

/-- The offset coordinate on the operand's axis 2 is the result's coordinate on its axis 3. -/
theorem off2 {N A B K M : Nat}
    (wf : GatherDims.WF ⟨3, ![N, A, B]⟩ ⟨3, ![K, M, 1]⟩ ⟨4, ![K, M, A, B]⟩ [2, 3] [0] [] [0] [] 2 ![1, A, B])
    (k : Fin K) (m : Fin M) (a : Fin A) (b : Fin B) :
    (slabs3GatherDims N A B K M wf).offCoord (ix4 k m a b) (2 : Fin 3) = b.val := by
  unfold GatherDims.offCoord
  rw [dif_pos ((GatherDims.mem_sKept (slabs3GatherDims N A B K M wf) (2 : Fin 3)).mpr
    ⟨(show (2 : Fin 3) ∉ ([0] : List (Fin 3)) from by decide), List.not_mem_nil⟩)]
  rfl

/-- THE SLAB GATHER READ AT `(k, m, a, b)` for the literal record: element `(a, b)` of the operand's slab whose number
    is the start index `idx[k, m, 0]`, read signed and clamped into `[0, N − 1]`. -/
theorem gather_slabs3_apply {N A B K M w : Nat} (hN : 0 < N)
    (wf : GatherDims.WF ⟨3, ![N, A, B]⟩ ⟨3, ![K, M, 1]⟩ ⟨4, ![K, M, A, B]⟩ [2, 3] [0] [] [0] [] 2 ![1, A, B])
    (x : (⟨3, ![N, A, B]⟩ : Shape).Idx → α) (idx : IVec ⟨3, ![K, M, 1]⟩ w) (k : Fin K) (m : Fin M) (a : Fin A) (b : Fin B) :
    Host.gather (slabs3GatherDims N A B K M wf) x idx (ix4 k m a b)
      = x (ix3 ⟨min (idx (ix3 k m (0 : Fin 1))).toInt.toNat (N - 1), by omega⟩ a b) := by
  have hoff0 : (slabs3GatherDims N A B K M wf).offCoord (ix4 k m a b) (0 : Fin 3) = 0 :=
    GatherDims.offCoord_eq_zero _ _ _ (fun h => ((GatherDims.mem_sKept _ _).mp h).1 (List.mem_singleton.mpr rfl))
  unfold Host.gather
  congr 1
  funext c
  refine Fin.ext ?_
  match c with
  | ⟨0, _⟩ =>
    show (slabs3GatherDims N A B K M wf).start (ix4 k m a b) idx (0 : Fin 3)
      + (slabs3GatherDims N A B K M wf).batchCoord (ix4 k m a b) (0 : Fin 3)
      + (slabs3GatherDims N A B K M wf).offCoord (ix4 k m a b) (0 : Fin 3)
      = min (idx (ix3 k m (0 : Fin 1))).toInt.toNat (N - 1)
    rw [GatherDims.batchCoord_eq_zero _ _ _ List.not_mem_nil, start0 wf idx k m a b, hoff0]
    rfl
  | ⟨1, _⟩ =>
    show (slabs3GatherDims N A B K M wf).start (ix4 k m a b) idx (1 : Fin 3)
      + (slabs3GatherDims N A B K M wf).batchCoord (ix4 k m a b) (1 : Fin 3)
      + (slabs3GatherDims N A B K M wf).offCoord (ix4 k m a b) (1 : Fin 3) = a.val
    rw [GatherDims.batchCoord_eq_zero _ _ _ List.not_mem_nil, start_off wf idx _ _ (by decide), off1 wf k m a b]
    omega
  | ⟨2, _⟩ =>
    show (slabs3GatherDims N A B K M wf).start (ix4 k m a b) idx (2 : Fin 3)
      + (slabs3GatherDims N A B K M wf).batchCoord (ix4 k m a b) (2 : Fin 3)
      + (slabs3GatherDims N A B K M wf).offCoord (ix4 k m a b) (2 : Fin 3) = b.val
    rw [GatherDims.batchCoord_eq_zero _ _ _ List.not_mem_nil, start_off wf idx _ _ (by decide), off2 wf k m a b]
    omega

/-- The same for any dimension numbers whose fields are those of a gather of slabs by a rank-3 index array (a printed
    record's are, each by `rfl`). -/
theorem gather_slabs3_apply_of {N A B K M w : Nat} (hN : 0 < N)
    (d : GatherDims ⟨3, ![N, A, B]⟩ ⟨3, ![K, M, 1]⟩ ⟨4, ![K, M, A, B]⟩)
    (h1 : d.offsetDims = [2, 3]) (h2 : d.collapsedSliceDims = [0]) (h3 : d.operandBatchingDims = [])
    (h4 : d.startIndicesBatchingDims = []) (h5 : d.startIndexMap = [0]) (h6 : d.indexVectorDim = 2)
    (h7 : d.sliceSizes = ![1, A, B])
    (x : (⟨3, ![N, A, B]⟩ : Shape).Idx → α) (idx : IVec ⟨3, ![K, M, 1]⟩ w) (k : Fin K) (m : Fin M) (a : Fin A) (b : Fin B) :
    Host.gather d x idx (ix4 k m a b)
      = x (ix3 ⟨min (idx (ix3 k m (0 : Fin 1))).toInt.toNat (N - 1), by omega⟩ a b) := by
  obtain ⟨od, cd, ob, sb, sm, iv, ss, wf⟩ := d
  dsimp only at h1 h2 h3 h4 h5 h6 h7
  subst h1 h2 h3 h4 h5 h6 h7
  exact gather_slabs3_apply hN wf x idx k m a b

end SlabGather

end Cert.LibSlabGather
-- ==== Proof.RefValue.lean ====
/-
  The reference, read at an index: gathering the bank's blocks by the table, laying them out as the dense matrix,
  multiplying and adding the bias is the specification `Cert.Spec.G` when every table word is a block number of the bank.
-/
import proofs.«427164_j50603304682317_2_alg».proof.Proof.Gen.ReferenceIdeal.Read
import proofs.«427164_j50603304682317_2_alg».proof.Proof.Spec
import proofs.«427164_j50603304682317_2_alg».proof.Proof.LibSlabGather
import Idealize.ShloMosaic.Lib.StableHlo.Predicate

noncomputable section

open scoped BigOperators

namespace Cert.ReferenceIdeal.RefValue

open Cert.ReferenceIdeal Cert.ReferenceIdeal.Gen Cert.ReferenceIdeal.Read
open Idealize.ShloMosaic Idealize.ShloMosaic.ValueIdx

/-- A table word below 1024 is not negative as a signed word: the comparison with zero is the bit 0. -/
theorem slt_zero_of_lt (w : BitVec 32) (h : w.toNat < 1024) : IntOp.cmpi .slt w 0#32 = 0#1 := by
  refine eq_zero_of_ne_one fun h1 => ?_
  have := (StableHlo.Predicate.slt_iff_toNat (a := w) (b := 0#32) (by omega) (by decide)).mp h1
  simp at this

/-- The select keeps a table word below 1024. -/
theorem v4_at (x3 : (⟨S128x128, .i32⟩ : BufTy).Contents (Elt Ideal))
    (hP : ∀ j : S128x128.Idx, (show BitVec 32 from x3 j).toNat < 1024) (i : S128x128.Idx) :
    val_main_v4 (F := Ideal) x3 i = x3 i := by
  rw [val_main_v4_apply, val_main_v1_apply, val_main_v0_apply, val_main_c_apply]
  rw [slt_zero_of_lt _ (hP i)]
  exact select_zero _ _

/-- The start indices at `(a, c, 0)` are the table at `(a, c)`. -/
theorem v5_at (x3 : (⟨S128x128, .i32⟩ : BufTy).Contents (Elt Ideal))
    (hP : ∀ j : S128x128.Idx, (show BitVec 32 from x3 j).toNat < 1024) (a c : Fin 128) :
    val_main_v5 (F := Ideal) x3 (ix3 a c (0 : Fin 1)) = x3 (ix2 a c) := by
  rw [val_main_v5_apply, v4_at x3 hP]
  congr 1
  funext d; match d with | ⟨0, _⟩ => rfl | ⟨1, _⟩ => rfl

/-- A word below 1024, read signed and clamped into the bank, is its value. -/
theorem clamp_of_lt (w : BitVec 32) (h : w.toNat < 1024) : min w.toInt.toNat (1024 - 1) = w.toNat := by
  rw [StableHlo.Predicate.toInt_eq_toNat_of_lt (by omega)]
  simp only [Int.toNat_natCast]
  omega

/-- The gathered array at `(a, c, r, s)`: entry `(r, s)` of the bank's block whose number the table holds at `(a, c)`. -/
theorem gather_at (x1 : (⟨S1024x64x64, .f32⟩ : BufTy).Contents (Elt Ideal)) (x3 : (⟨S128x128, .i32⟩ : BufTy).Contents (Elt Ideal))
    (hP : ∀ j : S128x128.Idx, (show BitVec 32 from x3 j).toNat < 1024) (a c : Fin 128) (r s : Fin 64) :
    val_main_v6 (F := Ideal) x1 x3 (ix4 a c r s)
      = x1 (ix3 (⟨(show BitVec 32 from x3 (ix2 a c)).toNat, hP _⟩ : Fin 1024) r s) := by
  unfold val_main_v6
  rw [Cert.LibSlabGather.gather_slabs3_apply_of (by decide) _ rfl rfl rfl rfl rfl rfl rfl]
  congr 1
  have h : min (show BitVec 32 from val_main_v5 (F := Ideal) x3 (ix3 a c (0 : Fin 1))).toInt.toNat (1024 - 1)
      = (show BitVec 32 from x3 (ix2 a c)).toNat := by
    rw [v5_at x3 hP a c]; exact clamp_of_lt _ (hP (ix2 a c))
  funext d
  match d with
  | ⟨0, _⟩ => exact Fin.ext h
  | ⟨1, _⟩ => rfl
  | ⟨2, _⟩ => rfl

/-- The dense matrix's entry `(k, n)` sits in the gathered array at tile `(k / 64, n / 64)`, position `(k % 64, n % 64)`:
    the row-major index `k * 8192 + n` of the `[8192, 8192]` matrix, read in the `[128, 64, 128, 64]` array, then the
    two middle axes exchanged. -/
theorem dense_idx (r : Fin 256) (n k : Fin 8192) :
    idx_main_v7 (idx_main_v8 (ridx_main_v9 (ix2 r n) k))
      = ix4 (⟨k.val / 64, by have := k.isLt; omega⟩ : Fin 128) (⟨n.val / 64, by have := n.isLt; omega⟩ : Fin 128)
          (⟨k.val % 64, Nat.mod_lt _ (by decide)⟩ : Fin 64) (⟨n.val % 64, Nat.mod_lt _ (by decide)⟩ : Fin 64) := by
  have hk := k.isLt
  have hn := n.isLt
  funext d
  match d with
  | ⟨0, _⟩ => refine Fin.ext ?_; show (k.val * 8192 + n.val) / 524288 = k.val / 64; omega
  | ⟨1, _⟩ => refine Fin.ext ?_; show (k.val * 8192 + n.val) / 64 % 128 = n.val / 64; omega
  | ⟨2, _⟩ => refine Fin.ext ?_; show (k.val * 8192 + n.val) / 8192 % 64 = k.val % 64; omega
  | ⟨3, _⟩ => refine Fin.ext ?_; show (k.val * 8192 + n.val) % 64 = n.val % 64; omega

/-- The dense matrix at `(k, n)` is the specification's weight. -/
theorem dense_at (x1 : (⟨S1024x64x64, .f32⟩ : BufTy).Contents (Elt Ideal)) (x3 : (⟨S128x128, .i32⟩ : BufTy).Contents (Elt Ideal))
    (hP : ∀ j : S128x128.Idx, (show BitVec 32 from x3 j).toNat < 1024) (r : Fin 256) (n k : Fin 8192) :
    val_main_v8 (F := Ideal) x1 x3 (ridx_main_v9 (ix2 r n) k) = Cert.Spec.weight x1 x3 k n := by
  rw [val_main_v8_apply, val_main_v7_apply, dense_idx, gather_at x1 x3 hP]
  unfold Cert.Spec.weight
  congr 1
  funext d
  match d with
  | ⟨0, _⟩ => exact Fin.ext (Cert.Spec.row_val_of_lt _ (hP _)).symm
  | ⟨1, _⟩ => rfl
  | ⟨2, _⟩ => rfl

/-- The left operand of the product at `(r, n)` and `k` is `x` at `(r, k)`. -/
theorem lidx_at (r : Fin 256) (n k : Fin 8192) : lidx_main_v9 (ix2 r n) k = ix2 r k := by
  funext d; match d with | ⟨0, _⟩ => rfl | ⟨1, _⟩ => rfl

/-- The broadcast bias at `(r, n)` is the bias at `n`. -/
theorem bias_at (x2 : (⟨S8192, .f32⟩ : BufTy).Contents (Elt Ideal)) (r : Fin 256) (n : Fin 8192) :
    val_main_v11 (F := Ideal) x2 (ix2 r n) = x2 (ix1 n) := by
  rw [val_main_v11_apply, val_main_v10_apply]
  congr 1
  funext d; match d with | ⟨0, _⟩ => rfl

/-- The reference's result at `(r, n)`. -/
theorem ref_at (x0 : (⟨S256x8192, .f32⟩ : BufTy).Contents (Elt Ideal)) (x1 : (⟨S1024x64x64, .f32⟩ : BufTy).Contents (Elt Ideal))
    (x2 : (⟨S8192, .f32⟩ : BufTy).Contents (Elt Ideal)) (x3 : (⟨S128x128, .i32⟩ : BufTy).Contents (Elt Ideal))
    (hP : ∀ j : S128x128.Idx, (show BitVec 32 from x3 j).toNat < 1024) (r : Fin 256) (n : Fin 8192) :
    val_main_v12 (F := Ideal) x0 x1 x2 x3 (ix2 r n) = Cert.Spec.Gat x0 x1 x2 x3 r n := by
  rw [val_main_v12_apply, val_main_v9_apply, bias_at, Ideal.addf_def]
  unfold Cert.Spec.Gat
  congr 1
  refine Finset.sum_congr rfl fun k _ => ?_
  rw [dense_at x1 x3 hP, lidx_at]

/-- With every table word below 1024 (so non-negative as a signed word and inside the bank), the reference's result is
    the specification. -/
theorem ref_eq (x0 : (⟨S256x8192, .f32⟩ : BufTy).Contents (Elt Ideal)) (x1 : (⟨S1024x64x64, .f32⟩ : BufTy).Contents (Elt Ideal))
    (x2 : (⟨S8192, .f32⟩ : BufTy).Contents (Elt Ideal)) (x3 : (⟨S128x128, .i32⟩ : BufTy).Contents (Elt Ideal))
    (hP : ∀ j : S128x128.Idx, (show BitVec 32 from x3 j).toNat < 1024) :
    val_main_v12 (F := Ideal) x0 x1 x2 x3 = Cert.Spec.G x0 x1 x2 x3 := by
  funext i
  obtain ⟨r, n, rfl⟩ : ∃ (r : Fin 256) (n : Fin 8192), i = ix2 r n := ⟨i 0, i 1, eq_ix2 (n0 := 256) (n1 := 8192) i⟩
  exact (ref_at x0 x1 x2 x3 hP r n).trans (Cert.Spec.G_apply x0 x1 x2 x3 r n).symm

end Cert.ReferenceIdeal.RefValue

end
-- ==== Proof.PreDecode.lean ====
/-
  The precondition, decoded: besides the finiteness of the float inputs it says that every word of the table is a
  block number of the bank, at least 0 and below 1024 as a signed word, hence below 1024 as a natural number.
-/
import proofs.«427164_j50603304682317_2_alg».proof.Pre_finite_inputs
import Idealize.ShloMosaic.Lib.StableHlo.Predicate
import Idealize.ShloMosaic.Lib.ReduceAll

noncomputable section

namespace Cert.Pre_finite_inputs.Decode

open Cert.Pre_finite_inputs Idealize.ShloMosaic

variable {F : FTy → Type} [FloatOps F] [Cert.Pre_finite_inputs.Facts]

/-- The scalar shape has one index. -/
instance subsingleton_scalar_idx : Subsingleton S_.Idx := ⟨fun a b => funext fun d => d.elim0⟩

/-- A 32-bit word that is at least 0 and below 1024 as a signed word is below 1024 as a natural number. -/
theorem toNat_lt_of_signed (w : BitVec 32) (h0 : IntOp.cmpi .sge w 0#32 = 1#1) (h1 : IntOp.cmpi .slt w 1024#32 = 1#1) :
    w.toNat < 1024 := by
  rw [IntOp.cmpi_sge, show (0#32 : BitVec 32).toInt = 0 from by decide, BitVec.toInt_pos_iff] at h0
  rw [IntOp.cmpi_slt, show (1024#32 : BitVec 32).toInt = 1024 from by decide, BitVec.toInt_eq_toNat_of_lt h0] at h1
  omega

/-- Where the printed precondition is 1 at the scalar index, the two reductions over the table are 1: the one of
    the comparisons with 0 and the one of the comparisons with 1024. -/
theorem reduces_eq_one (a0 : FVec F S256x8192 .f32) (a1 : FVec F S1024x64x64 .f32) (a2 : FVec F S8192 .f32) (P : IVec S128x128 32)
    (i : S_.Idx) (h : Cert.Pre_finite_inputs.fn (F := F) a0 a1 a2 P i = 1#1) :
    Host.reduce IntOp.andi (cmpi .sge P (broadcastInDim S128x128 ![] Facts.bcast_S_S128x128 (constantI S_ 32 0#32)))
        (constantI S_ 1 1#1) Facts.reducesTo_S128x128_S_d0_1 Facts.h_S_ i = 1#1 ∧
      Host.reduce IntOp.andi (cmpi .slt P (broadcastInDim S128x128 ![] Facts.bcast_S_S128x128 (constantI S_ 32 1024#32)))
        (constantI S_ 1 1#1) Facts.reducesTo_S128x128_S_d0_1 Facts.h_S_ i = 1#1 := by
  dsimp only [fn, fn_part1, andi] at h
  rw [IntOp.andi_eq_one, IntOp.andi_eq_one] at h
  exact ⟨h.1.2, h.2⟩

/-- Where the printed precondition is all ones, every word of the table is below 1024. -/
theorem parts_lt (a0 : FVec F S256x8192 .f32) (a1 : FVec F S1024x64x64 .f32) (a2 : FVec F S8192 .f32) (P : IVec S128x128 32)
    (h : Cert.Pre_finite_inputs.fn (F := F) a0 a1 a2 P = fun _ => 1#1) : ∀ j : S128x128.Idx, (P j).toNat < 1024 := by
  intro j
  obtain ⟨h0, h1⟩ := reduces_eq_one a0 a1 a2 P (fun d => d.elim0) (congrFun h _)
  have g0 := Host.reduce_andi_all _ _ _ _ _ h0 j
  have g1 := Host.reduce_andi_all _ _ _ _ _ h1 j
  exact toNat_lt_of_signed (P j) g0 g1

end Cert.Pre_finite_inputs.Decode

end
-- ==== Proof.lean ====
/-
  The certificate: a dense layer whose 8192 × 8192 weight matrix is a mosaic of 64 × 64 blocks drawn from a bank of 1024
  by a 128 × 128 table of block numbers, y = x · W + bias.

  The kernel never builds W: for each of 8 column tiles of 1024 outputs it runs 32 trips, each assembling a 256 × 1024
  tile of W in scratch from 64 bank blocks named by table words (clipped into [0, 1023] on the host and prefetched into
  scalar memory) and adding x's 256 matching columns times that tile to an accumulator; the bias is added at the end.
  The reference gathers all 16384 blocks, lays them out as W and multiplies. Over the exact reals both are
      y (r, n) = Σ_k x (r, k) · bank[table (k div 64, n div 64)] (k mod 64, n mod 64) + bias n,
  the kernel's double sum over trips and columns inside a trip being the single sum over k; no law beyond the
  commutative monoid of the extended reals is used, so the finiteness of the inputs is not needed.
  The two programs differ on a NEGATIVE table word (the reference counts it from the end of the bank, the kernel clips it
  to 0), so the precondition says that the table's words are block numbers of the bank, 0 ≤ word < 1024: there the
  reference's wrap-around and clamp and the kernel's clip are all the identity.
  The frames hold for any table: a clipped word is below 1024, which is what each bank load inside the loop assumes.
-/
import proofs.«427164_j50603304682317_2_alg».proof.Defs
import proofs.«427164_j50603304682317_2_alg».proof.Proof.Gen.Kernel
import proofs.«427164_j50603304682317_2_alg».proof.Proof.Gen.KernelIdeal
import proofs.«427164_j50603304682317_2_alg».proof.Proof.Gen.ReferenceIdeal
import proofs.«427164_j50603304682317_2_alg».proof.Proof.Gen.Pre_finite_inputs
import proofs.«427164_j50603304682317_2_alg».proof.Proof.Gen.ReferenceIdeal.Run
import proofs.«427164_j50603304682317_2_alg».proof.Proof.Gen.ReferenceIdeal.Read
import proofs.«427164_j50603304682317_2_alg».proof.Proof.K.Frame
import proofs.«427164_j50603304682317_2_alg».proof.Proof.KI.Value
import proofs.«427164_j50603304682317_2_alg».proof.Proof.RefValue
import proofs.«427164_j50603304682317_2_alg».proof.Proof.PreDecode

noncomputable section

open Idealize.ShloMosaic Idealize.ShloMosaic.TcCoe Idealize.SL.Sem

namespace Cert.Proof.Claims

/-- The word-level kernel runs and leaves its arguments unchanged. -/
theorem frame_p : Cert.frame_Kernel := fun m ρ _ => Cert.Kernel.Hand.frame m ρ

/-- So does the kernel read over the exact reals. -/
theorem frame_pi : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the exact reals, from memories that agree on the arguments and a table of block numbers of the bank, both
    programs end with the specification's array. -/
theorem algebraic : Cert.algebraic_KernelIdeal_ReferenceIdeal := by
  intro m ρ m' ρ' hpre hagree
  have hP : ∀ j : Cert.KernelIdeal.S128x128.Idx, (Cert.KernelIdeal.Hand.parts m j).toNat < 1024 :=
    Cert.Pre_finite_inputs.Decode.parts_lt (F := Ideal) _ _ _ _ (hpre 0)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.KernelIdeal.Hand.parts m), Cert.KernelIdeal.Hand.run_value m ρ hP, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [(hagree 0).1, (hagree 0).2.1, (hagree 0).2.2.1, (hagree 0).2.2.2, Cert.ReferenceIdeal.Read.val_main_v12_eq]
  exact Cert.ReferenceIdeal.RefValue.ref_eq _ _ _ _ hP

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
